-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S_ : Shape := ⟨0, ![]⟩

class Facts : Prop where
  bcast_S_S800000x3 : S_.BroadcastsInDim S800000x3 (![] : Fin 0 → Fin S800000x3.rank)
  reducesTo_S800000x3_S_d0_1 : S800000x3.ReducesTo [0, 1] S_
  h_S_ : 0 < S_.numel
  bcast_S_S800000x50 : S_.BroadcastsInDim S800000x50 (![] : Fin 0 → Fin S800000x50.rank)
  reducesTo_S800000x50_S_d0_1 : S800000x50.ReducesTo [0, 1] S_
  bcast_S_S85x224 : S_.BroadcastsInDim S85x224 (![] : Fin 0 → Fin S85x224.rank)
  reducesTo_S85x224_S_d0_1 : S85x224.ReducesTo [0, 1] S_
  bcast_S_S3x32 : S_.BroadcastsInDim S3x32 (![] : Fin 0 → Fin S3x32.rank)
  reducesTo_S3x32_S_d0_1 : S3x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S50x64 : S_.BroadcastsInDim S50x64 (![] : Fin 0 → Fin S50x64.rank)
  reducesTo_S50x64_S_d0_1 : S50x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg0 : IVec S50000 32) (main_arg3 : IVec S50000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg0 main_v69
  let main_c_27 : IVec S_ 32 := constantI S_ 32 85#32
  let main_v71 : IVec S50000 32 := broadcastInDim S50000 ![] bcast_S_S50000 main_c_27
  let main_v72 : IVec S50000 1 := cmpi .slt main_arg0 main_v71
  let main_v73 : IVec S50000 1 := andi main_v70 main_v72
  let main_c_28 : IVec S_ 1 := constantI S_ 1 1#1
  let main_v74 : IVec S_ 1 := (fun x v => Host.reduce IntOp.andi x v reducesTo_S50000_S_d0 h_S_) main_v73 main_c_28
  let main_v75 : IVec S_ 1 := andi main_v68 main_v74
  let main_c_29 : IVec S_ 32 := constantI S_ 32 0#32
  let main_v76 : IVec S50000 32 := broadcastInDim S50000 ![] bcast_S_S50000 main_c_29
  let main_v77 : IVec S50000 1 := cmpi .sge main_arg3 main_v76
  let main_c_30 : IVec S_ 32 := constantI S_ 32 3#32
  let main_v78 : IVec S50000 32 := broadcastInDim S50000 ![] bcast_S_S50000 main_c_30
  let main_v79 : IVec S50000 1 := cmpi .slt main_arg3 main_v78
  let main_v80 : IVec S50000 1 := andi main_v77 main_v79
  let main_c_31 : IVec S_ 1 := constantI S_ 1 1#1
  let main_v81 : IVec S_ 1 := (fun x v => Host.reduce IntOp.andi x v reducesTo_S50000_S_d0 h_S_) main_v80 main_c_31
  let main_v82 : IVec S_ 1 := andi main_v75 main_v81
  main_v82

def fn_part3 {F : FTy → Type} [FloatOps F] (main_arg0 : IVec S50000 32) (main_arg3 : IVec S50000 32) (main_arg13 : FVec F S64 .f32) (main_arg14 : FVec F S128x128 .f32) (main_arg15 : FVec F S128 .f32) (main_v48 : IVec S_ 1) (main_v49 : FVec F S50x64 .f32) (main_v50 : FVec F S50x64 .f32) : IVec S_ 1 :=
  let main_v51 : IVec S50x64 1 := cmpf .olt main_v49 main_v50
  let main_c_19 : IVec S_ 1 := constantI S_ 1 1#1
  let main_v52 : IVec S_ 1 := (fun x v => Host.reduce IntOp.andi x v reducesTo_S50x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg3 main_v63 main_v67

def fn_part2 {F : FTy → Type} [FloatOps F] (main_arg0 : IVec S50000 32) (main_arg3 : IVec S50000 32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S50x64 .f32 := Host.absf main_arg12
  let main_cst_18 : FVec F S_ .f32 := constant S_ .f32 0x7F800000#32
  let main_v50 : FVec F S50x64 .f32 := broadcastInDim S50x64 ![] bcast_S_S50x64 main_cst_18
  fn_part3 (F := F) main_arg0 main_arg3 main_arg13 main_arg14 main_arg15 main_v48 main_v49 main_v50

def fn_part1 {F : FTy → Type} [FloatOps F] (main_arg0 : IVec S50000 32) (main_arg3 : IVec S50000 32) (main_arg6 : FVec F S256x256 .f32) (main_arg7 : FVec F S256 .f32) (main_arg8 : FVec F S256x256 .f32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg0 main_arg3 main_arg9 main_arg10 main_arg11 main_arg12 main_arg13 main_arg14 main_arg15 main_v33

def fn {F : FTy → Type} [FloatOps F] (main_arg0 : IVec S50000 32) (main_arg1 : FVec F S800000x3 .f32) (main_arg2 : FVec F S800000x50 .f32) (main_arg3 : IVec S50000 32) (main_arg4 : FVec F S85x224 .f32) (main_arg5 : FVec F S3x32 .f32) (main_arg6 : FVec F S256x256 .f32) (main_arg7 : FVec F S256 .f32) (main_arg8 : FVec F S256x256 .f32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) : IVec S_ 1 :=
  let main_v0 : FVec F S800000x3 .f32 := Host.absf main_arg1
  let main_cst : FVec F S_ .f32 := constant S_ .f32 0x7F800000#32
  let main_v1 : FVec F S800000x3 .f32 := broadcastInDim S800000x3 ![] bcast_S_S800000x3 main_cst
  let main_v2 : IVec S800000x3 1 := cmpf .olt main_v0 main_v1
  let main_c : IVec S_ 1 := constantI S_ 1 1#1
  let main_v3 : IVec S_ 1 := (fun x v => Host.reduce IntOp.andi x v reducesTo_S800000x3_S_d0_1 h_S_) main_v2 main_c
  let main_v4 : FVec F S800000x50 .f32 := Host.absf main_arg2
  let main_cst_0 : FVec F S_ .f32 := constant S_ .f32 0x7F800000#32
  let main_v5 : FVec F S800000x50 .f32 := broadcastInDim S800000x50 ![] bcast_S_S800000x50 main_cst_0
  let main_v6 : IVec S800000x50 1 := cmpf .olt main_v4 main_v5
  let main_c_1 : IVec S_ 1 := constantI S_ 1 1#1
  let main_v7 : IVec S_ 1 := (fun x v => Host.reduce IntOp.andi x v reducesTo_S800000x50_S_d0_1 h_S_) main_v6 main_c_1
  let main_v8 : IVec S_ 1 := andi main_v3 main_v7
  let main_v9 : FVec F S85x224 .f32 := Host.absf main_arg4
  let main_cst_2 : FVec F S_ .f32 := constant S_ .f32 0x7F800000#32
  let main_v10 : FVec F S85x224 .f32 := broadcastInDim S85x224 ![] bcast_S_S85x224 main_cst_2
  let main_v11 : IVec S85x224 1 := cmpf .olt main_v9 main_v10
  let main_c_3 : IVec S_ 1 := constantI S_ 1 1#1
  let main_v12 : IVec S_ 1 := (fun x v => Host.reduce IntOp.andi x v reducesTo_S85x224_S_d0_1 h_S_) main_v11 main_c_3
  let main_v13 : IVec S_ 1 := andi main_v8 main_v12
  let main_v14 : FVec F S3x32 .f32 := Host.absf main_arg5
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg0 main_arg3 main_arg6 main_arg7 main_arg8 main_arg9 main_arg10 main_arg11 main_arg12 main_arg13 main_arg14 main_arg15 main_v13 main_v16
-- ==== Kernel.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S1x64 : Shape := ⟨2, ![1, 64]⟩
abbrev S1x128 : Shape := ⟨2, ![1, 128]⟩
abbrev S800000x128 : Shape := ⟨2, ![800000, 128]⟩
abbrev S2048x3 : Shape := ⟨2, ![2048, 3]⟩
abbrev S2048x50 : Shape := ⟨2, ![2048, 50]⟩
abbrev S2048x128 : Shape := ⟨2, ![2048, 128]⟩
abbrev S2048x64 : Shape := ⟨2, ![2048, 64]⟩
abbrev S64x128 : Shape := ⟨2, ![64, 128]⟩
abbrev S_ : Shape := ⟨0, ![]⟩
abbrev S88x256 : Shape := ⟨2, ![88, 256]⟩
abbrev S1 : Shape := ⟨1, ![1]⟩
abbrev S2 : Shape := ⟨1, ![2]⟩
abbrev S50000x1 : Shape := ⟨2, ![50000, 1]⟩
abbrev S1x256 : Shape := ⟨2, ![1, 256]⟩
abbrev S50000x256 : Shape := ⟨2, ![50000, 256]⟩
abbrev S2048x1 : Shape := ⟨2, ![2048, 1]⟩
abbrev S2048x256 : Shape := ⟨2, ![2048, 256]⟩
abbrev S2048x88 : Shape := ⟨2, ![2048, 88]⟩

abbrev nBuf : Space → Nat
  | .hbm => 39
  | .vmem => 23
  | .smem => 0
  | _ => 0

abbrev bufTy : (tb : Table) → Fin (tcTables nBuf tb) → BufTy
  | .hbm, ⟨0, _⟩ => ⟨S50000, .i32⟩
  | .hbm, ⟨1, _⟩ => ⟨S800000x3, .f32⟩
  | .hbm, ⟨2, _⟩ => ⟨S800000x50, .f32⟩
  | .hbm, ⟨3, _⟩ => ⟨S50000, .i32⟩
  | .hbm, ⟨4, _⟩ => ⟨S85x224, .f32⟩
  | .hbm, ⟨5, _⟩ => ⟨S3x32, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x64, .f32⟩
  | .hbm, ⟨11, _⟩ => ⟨S64, .f32⟩
  | .hbm, ⟨12, _⟩ => ⟨S50x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S1x64, .f32⟩
  | .hbm, ⟨17, _⟩ => ⟨S1x64, .f32⟩
  | .hbm, ⟨18, _⟩ => ⟨S1x128, .f32⟩
  | .hbm, ⟨19, _⟩ => ⟨S800000x128, .f32⟩
  | .hbm, ⟨20, _⟩ => ⟨S_, .f32⟩
  | .hbm, ⟨21, _⟩ => ⟨S88x256, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S88x256, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S88x256, .f32⟩
  | .hbm, ⟨34, _⟩ => ⟨S50000x1, .i32⟩
  | .hbm, ⟨35, _⟩ => ⟨S50000x1, .i32⟩
  | .hbm, ⟨36, _⟩ => ⟨S1x256, .f32⟩
  | .hbm, ⟨37, _⟩ => ⟨S1x256, .f32⟩
  | .hbm, ⟨38, _⟩ => ⟨S50000x256, .f32⟩
  | .local _ .vmem, ⟨0, _⟩ => ⟨S2048x3, .f32⟩
  | .local _ .vmem, ⟨1, _⟩ => ⟨S2048x3, .f32⟩
  | .local _ .vmem, ⟨2, _⟩ => ⟨S2048x50, .f32⟩
  | .local _ .vmem, ⟨3, _⟩ => ⟨S2048x50, .f32⟩
  | .local _ .vmem, ⟨4, _⟩ => ⟨S3x64, .f32⟩
  | .local _ .vmem, ⟨5, _⟩ => ⟨S1x64, .f32⟩
  | .local _ .vmem, ⟨6, _⟩ => ⟨S50x64, .f32⟩
  | .local _ .vmem, ⟨7, _⟩ => ⟨S1x64, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x1, .i32⟩
  | .local _ .vmem, ⟨13, _⟩ => ⟨S2048x1, .i32⟩
  | .local _ .vmem, ⟨14, _⟩ => ⟨S2048x1, .i32⟩
  | .local _ .vmem, ⟨15, _⟩ => ⟨S2048x1, .i32⟩
  | .local _ .vmem, ⟨16, _⟩ => ⟨S88x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S2048x256, .f32⟩
  | .local _ .vmem, ⟨22, _⟩ => ⟨S2048x256, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S88x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64_S1x64 : S64.ShapeCasts S1x64
  shapeCasts_S128_S1x128 : S128.ShapeCasts S1x128
  inb_S2048x3_S2048x3_0_0 : ∀ a, (![0, 0] : Fin 2 → Nat) a + S2048x3.size a ≤ S2048x3.size a
  h_S2048x3 : 0 < S2048x3.numel
  inb_S2048x50_S2048x50_0_0 : ∀ a, (![0, 0] : Fin 2 → Nat) a + S2048x50.size a ≤ S2048x50.size a
  h_S2048x50 : 0 < S2048x50.numel
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S50x64_S50x64_0_0 : ∀ a, (![0, 0] : Fin 2 → Nat) a + S50x64.size a ≤ S50x64.size a
  h_S50x64 : 0 < S50x64.numel
  inb_S128x128_S64x128_0_0 : ∀ a, (![0, 0] : Fin 2 → Nat) a + S64x128.size a ≤ S128x128.size a
  h_S64x128 : 0 < S64x128.numel
  inb_S128x128_S64x128_64_0 : ∀ a, (![64, 0] : Fin 2 → Nat) a + S64x128.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S_S88x256 : S_.BroadcastsInDim S88x256 (![] : Fin 0 → Fin S88x256.rank)
  bcast_S_S1 : S_.BroadcastsInDim S1 (![] : Fin 0 → Fin S1.rank)
  concatenates_S1_S1_S2_d0 : Shape.Concatenates [S1, S1] S2 0
  shapeCasts_S50000_S50000x1 : S50000.ShapeCasts S50000x1
  shapeCasts_S256_S1x256 : S256.ShapeCasts S1x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x88_d1_w32 : S2048x88.Iotas .tc 32 [1]
  broadcasts_S2048x1_S2048x88 : S2048x1.Broadcasts S2048x88
  natLt_1_32 : 1 < 32
  inb_S88x256_S88x256_0_0 : ∀ a, (![0, 0] : Fin 2 → Nat) a + S88x256.size a ≤ S88x256.size a
  h_S88x256 : 0 < S88x256.numel
  shapeCasts_S88x256_S88x256 : S88x256.ShapeCasts S88x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x3_S3x64_S2048x64_1_0_0_1_n_n_wf : DotDims.WF S2048x3 S3x64 S2048x64 [1] [0] [0] [1] [] []
  dot_S2048x50_S50x64_S2048x64_1_0_0_1_n_n_wf : DotDims.WF S2048x50 S50x64 S2048x64 [1] [0] [0] [1] [] []
  dot_S2048x64_S64x128_S2048x128_1_0_0_1_n_n_wf : DotDims.WF S2048x64 S64x128 S2048x128 [1] [0] [0] [1] [] []
  scatter_S88x256_S2_S85x224_01_n_01_0_wf : ScatterDims.WF S88x256 S2 S85x224 [0, 1] [] [0, 1] 0
  scatter_S88x256_S2_S3x32_01_n_01_0_wf : ScatterDims.WF S88x256 S2 S3x32 [0, 1] [] [0, 1] 0
  dot_S2048x88_S88x256_S2048x256_1_0_0_1_n_n_wf : DotDims.WF S2048x88 S88x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x3.size a < S800000x3.size a
  hwx0_0 : ∀ i : grid0.Coords, EltTy.bits .f32 = 32 ∨ (Rect.unit (s := S800000x3) (fun a => cc0_transform_0 i a * S2048x3.size a) (fun a => (Pipeline.Clip.of (cc0_transform_0 i a) (S2048x3.size a) (S800000x3.size a)).extent (S2048x3.size a)) fun a => Pipeline.Clip.inb (Pipeline.Clip.ok_of (hstart0_0 i a))).WholeWords (EltTy.packing .f32)
  hwxs0_0 : ∀ i : grid0.Coords, EltTy.bits .f32 = 32 ∨ (Rect.unit (s := S2048x3) (fun _ => 0) (fun a => (Pipeline.Clip.of (cc0_transform_0 i a) (S2048x3.size a) (S800000x3.size a)).extent (S2048x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x50.size a < S800000x50.size a
  hwx0_1 : ∀ i : grid0.Coords, EltTy.bits .f32 = 32 ∨ (Rect.unit (s := S800000x50) (fun a => cc0_transform_1 i a * S2048x50.size a) (fun a => (Pipeline.Clip.of (cc0_transform_1 i a) (S2048x50.size a) (S800000x50.size a)).extent (S2048x50.size a)) fun a => Pipeline.Clip.inb (Pipeline.Clip.ok_of (hstart0_1 i a))).WholeWords (EltTy.packing .f32)
  hwxs0_1 : ∀ i : grid0.Coords, EltTy.bits .f32 = 32 ∨ (Rect.unit (s := S2048x50) (fun _ => 0) (fun a => (Pipeline.Clip.of (cc0_transform_1 i a) (S2048x50.size a) (S800000x50.size a)).extent (S2048x50.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x64.size a ≤ S50x64.size a
  hwx0_4 : ∀ i : grid0.Coords, EltTy.bits .f32 = 32 ∨ (Rect.block (s := S50x64) S50x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S2048x128.size a < S800000x128.size a
  hwx0_8 : ∀ i : grid0.Coords, EltTy.bits .f32 = 32 ∨ (Rect.unit (s := S800000x128) (fun a => cc0_transform_8 i a * S2048x128.size a) (fun a => (Pipeline.Clip.of (cc0_transform_8 i a) (S2048x128.size a) (S800000x128.size a)).extent (S2048x128.size a)) fun a => Pipeline.Clip.inb (Pipeline.Clip.ok_of (hstart0_8 i a))).WholeWords (EltTy.packing .f32)
  hwxs0_8 : ∀ i : grid0.Coords, EltTy.bits .f32 = 32 ∨ (Rect.unit (s := S2048x128) (fun _ => 0) (fun a => (Pipeline.Clip.of (cc0_transform_8 i a) (S2048x128.size a) (S800000x128.size a)).extent (S2048x128.size a)) fun a => (Nat.zero_add _).trans_le (Pipeline.Clip.extent_le (Pipeline.Clip.ok_of (hstart0_8 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x1.size a < S50000x1.size a
  hwx1_0 : ∀ i : grid1.Coords, EltTy.bits .i32 = 32 ∨ (Rect.unit (s := S50000x1) (fun a => cc1_transform_0 i a * S2048x1.size a) (fun a => (Pipeline.Clip.of (cc1_transform_0 i a) (S2048x1.size a) (S50000x1.size a)).extent (S2048x1.size a)) fun a => Pipeline.Clip.inb (Pipeline.Clip.ok_of (hstart1_0 i a))).WholeWords (EltTy.packing .i32)
  hwxs1_0 : ∀ i : grid1.Coords, EltTy.bits .i32 = 32 ∨ (Rect.unit (s := S2048x1) (fun _ => 0) (fun a => (Pipeline.Clip.of (cc1_transform_0 i a) (S2048x1.size a) (S50000x1.size a)).extent (S2048x1.size a)) fun a => (Nat.zero_add _).trans_le (Pipeline.Clip.extent_le (Pipeline.Clip.ok_of (hstart1_0 i a)))).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1.size a < S50000x1.size a
  hwx1_1 : ∀ i : grid1.Coords, EltTy.bits .i32 = 32 ∨ (Rect.unit (s := S50000x1) (fun a => cc1_transform_1 i a * S2048x1.size a) (fun a => (Pipeline.Clip.of (cc1_transform_1 i a) (S2048x1.size a) (S50000x1.size a)).extent (S2048x1.size a)) fun a => Pipeline.Clip.inb (Pipeline.Clip.ok_of (hstart1_1 i a))).WholeWords (EltTy.packing .i32)
  hwxs1_1 : ∀ i : grid1.Coords, EltTy.bits .i32 = 32 ∨ (Rect.unit (s := S2048x1) (fun _ => 0) (fun a => (Pipeline.Clip.of (cc1_transform_1 i a) (S2048x1.size a) (S50000x1.size a)).extent (S2048x1.size a)) fun a => (Nat.zero_add _).trans_le (Pipeline.Clip.extent_le (Pipeline.Clip.ok_of (hstart1_1 i a)))).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S88x256.size a ≤ S88x256.size a
  hwx1_2 : ∀ i : grid1.Coords, EltTy.bits .f32 = 32 ∨ (Rect.block (s := S88x256) S88x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S2048x256.size a < S50000x256.size a
  hwx1_7 : ∀ i : grid1.Coords, EltTy.bits .f32 = 32 ∨ (Rect.unit (s := S50000x256) (fun a => cc1_transform_7 i a * S2048x256.size a) (fun a => (Pipeline.Clip.of (cc1_transform_7 i a) (S2048x256.size a) (S50000x256.size a)).extent (S2048x256.size a)) fun a => Pipeline.Clip.inb (Pipeline.Clip.ok_of (hstart1_7 i a))).WholeWords (EltTy.packing .f32)
  hwxs1_7 : ∀ i : grid1.Coords, EltTy.bits .f32 = 32 ∨ (Rect.unit (s := S2048x256) (fun _ => 0) (fun a => (Pipeline.Clip.of (cc1_transform_7 i a) (S2048x256.size a) (S50000x256.size a)).extent (S2048x256.size a)) fun a => (Nat.zero_add _).trans_le (Pipeline.Clip.extent_le (Pipeline.Clip.ok_of (hstart1_7 i a)))).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf
def dot_S2048x50_S50x64_S2048x64_1_0_0_1_n_n : DotDims S2048x50 S50x64 S2048x64 where
  lhsContracting := [1]
  rhsContracting := [0]
  lhsNonContracting := [0]
  rhsNonContracting := [1]
  lhsBatch := []
  rhsBatch := []
  wf := dot_S2048x50_S50x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def scatter_S88x256_S2_S85x224_01_n_01_0 : ScatterDims S88x256 S2 S85x224 where
  updateWindowDims := [0, 1]
  insertedWindowDims := []
  scatterDimsToOperandDims := [0, 1]
  indexVectorDim := 0
  wf := scatter_S88x256_S2_S85x224_01_n_01_0_wf
def scatter_S88x256_S2_S3x32_01_n_01_0 : ScatterDims S88x256 S2 S3x32 where
  updateWindowDims := [0, 1]
  insertedWindowDims := []
  scatterDimsToOperandDims := [0, 1]
  indexVectorDim := 0
  wf := scatter_S88x256_S2_S3x32_01_n_01_0_wf
def dot_S2048x88_S88x256_S2048x256_1_0_0_1_n_n : DotDims S2048x88 S88x256 S2048x256 where
  lhsContracting := [1]
  rhsContracting := [0]
  lhsNonContracting := [0]
  rhsNonContracting := [1]
  lhsBatch := []
  rhsBatch := []
  wf := dot_S2048x88_S88x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpecClip (Memref.whole main_arg1) S2048x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S2048x50.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg10) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S50x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v3) S2048x128.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_v13) S2048x1.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v14) S2048x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v12) S88x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpecClip (Memref.whole main_v17) S2048x256.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S800000x64 : Shape := ⟨2, ![800000, 64]⟩
abbrev S1x64 : Shape := ⟨2, ![1, 64]⟩
abbrev S800000x128 : Shape := ⟨2, ![800000, 128]⟩
abbrev S_ : Shape := ⟨0, ![]⟩
abbrev S1x128 : Shape := ⟨2, ![1, 128]⟩
abbrev S50000x1 : Shape := ⟨2, ![50000, 1]⟩
abbrev S1 : Shape := ⟨1, ![1]⟩
abbrev S1x1 : Shape := ⟨2, ![1, 1]⟩
abbrev S50000x224 : Shape := ⟨2, ![50000, 224]⟩
abbrev S50000x32 : Shape := ⟨2, ![50000, 32]⟩
abbrev S50000x256 : Shape := ⟨2, ![50000, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000x3, .f32⟩
  | .hbm, ⟨2, _⟩ => ⟨S800000x50, .f32⟩
  | .hbm, ⟨3, _⟩ => ⟨S50000, .i32⟩
  | .hbm, ⟨4, _⟩ => ⟨S85x224, .f32⟩
  | .hbm, ⟨5, _⟩ => ⟨S3x32, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x64, .f32⟩
  | .hbm, ⟨11, _⟩ => ⟨S64, .f32⟩
  | .hbm, ⟨12, _⟩ => ⟨S50x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S800000x64, .f32⟩
  | .hbm, ⟨17, _⟩ => ⟨S1x64, .f32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S1, .i32⟩
  | .hbm, ⟨56, _⟩ => ⟨S_, .i32⟩
  | .hbm, ⟨57, _⟩ => ⟨S50000x1, .i32⟩
  | .hbm, ⟨58, _⟩ => ⟨S50000x1, .i1⟩
  | .hbm, ⟨59, _⟩ => ⟨S1x1, .i32⟩
  | .hbm, ⟨60, _⟩ => ⟨S50000x1, .i32⟩
  | .hbm, ⟨61, _⟩ => ⟨S50000x1, .i1⟩
  | .hbm, ⟨62, _⟩ => ⟨S50000x1, .i1⟩
  | .hbm, ⟨63, _⟩ => ⟨S_, .i1⟩
  | .hbm, ⟨64, _⟩ => ⟨S50000, .i1⟩
  | .hbm, ⟨65, _⟩ => ⟨S50000x224, .f32⟩
  | .hbm, ⟨66, _⟩ => ⟨S50000x224, .i1⟩
  | .hbm, ⟨67, _⟩ => ⟨S_, .f32⟩
  | .hbm, ⟨68, _⟩ => ⟨S50000x224, .f32⟩
  | .hbm, ⟨69, _⟩ => ⟨S50000x224, .f32⟩
  | .hbm, ⟨70, _⟩ => ⟨S_, .i32⟩
  | .hbm, ⟨71, _⟩ => ⟨S50000, .i32⟩
  | .hbm, ⟨72, _⟩ => ⟨S50000, .i1⟩
  | .hbm, ⟨73, _⟩ => ⟨S_, .i32⟩
  | .hbm, ⟨74, _⟩ => ⟨S50000, .i32⟩
  | .hbm, ⟨75, _⟩ => ⟨S50000, .i32⟩
  | .hbm, ⟨76, _⟩ => ⟨S50000, .i32⟩
  | .hbm, ⟨77, _⟩ => ⟨S50000x1, .i32⟩
  | .hbm, ⟨78, _⟩ => ⟨S1, .i32⟩
  | .hbm, ⟨79, _⟩ => ⟨S_, .i32⟩
  | .hbm, ⟨80, _⟩ => ⟨S50000x1, .i32⟩
  | .hbm, ⟨81, _⟩ => ⟨S50000x1, .i1⟩
  | .hbm, ⟨82, _⟩ => ⟨S1x1, .i32⟩
  | .hbm, ⟨83, _⟩ => ⟨S50000x1, .i32⟩
  | .hbm, ⟨84, _⟩ => ⟨S50000x1, .i1⟩
  | .hbm, ⟨85, _⟩ => ⟨S50000x1, .i1⟩
  | .hbm, ⟨86, _⟩ => ⟨S_, .i1⟩
  | .hbm, ⟨87, _⟩ => ⟨S50000, .i1⟩
  | .hbm, ⟨88, _⟩ => ⟨S50000x32, .f32⟩
  | .hbm, ⟨89, _⟩ => ⟨S50000x32, .i1⟩
  | .hbm, ⟨90, _⟩ => ⟨S_, .f32⟩
  | .hbm, ⟨91, _⟩ => ⟨S50000x32, .f32⟩
  | .hbm, ⟨92, _⟩ => ⟨S50000x32, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S_, .f32⟩
  | .hbm, ⟨101, _⟩ => ⟨S50000x256, .f32⟩
  | .hbm, ⟨102, _⟩ => ⟨S50000x256, .f32⟩
  | .hbm, ⟨103, _⟩ => ⟨S_, .f32⟩
  | .hbm, ⟨104, _⟩ => ⟨S50000x256, .f32⟩
  | .hbm, ⟨105, _⟩ => ⟨S50000x256, .f32⟩
  | .hbm, ⟨106, _⟩ => ⟨S50000x256, .f32⟩
  | .hbm, ⟨107, _⟩ => ⟨S50000x256, .f32⟩
  | .hbm, ⟨108, _⟩ => ⟨S1x256, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S50000x256, .f32⟩
  | .hbm, ⟨113, _⟩ => ⟨S_, .f32⟩
  | .hbm, ⟨114, _⟩ => ⟨S50000x256, .f32⟩
  | .hbm, ⟨115, _⟩ => ⟨S50000x256, .f32⟩
  | .hbm, ⟨116, _⟩ => ⟨S_, .f32⟩
  | .hbm, ⟨117, _⟩ => ⟨S50000x256, .f32⟩
  | .hbm, ⟨118, _⟩ => ⟨S50000x256, .f32⟩
  | .hbm, ⟨119, _⟩ => ⟨S50000x256, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v14 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v15 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v27 : Ref sig .tc := ⟨.hbm, 119, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  concatenates_S800000x64_S800000x64_S800000x128_d1 : Shape.Concatenates [S800000x64, S800000x64] S800000x128 1
  bcast_S_S800000x128 : S_.BroadcastsInDim S800000x128 (![] : Fin 0 → Fin S800000x128.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x224_0 : S50000.BroadcastsInDim S50000x224 (![0] : Fin 1 → Fin S50000x224.rank)
  bcast_S_S50000x224 : S_.BroadcastsInDim S50000x224 (![] : Fin 0 → Fin S50000x224.rank)
  bcast_S50000_S50000x32_0 : S50000.BroadcastsInDim S50000x32 (![0] : Fin 1 → Fin S50000x32.rank)
  bcast_S_S50000x32 : S_.BroadcastsInDim S50000x32 (![] : Fin 0 → Fin S50000x32.rank)
  concatenates_S50000x224_S50000x32_S50000x256_d1 : Shape.Concatenates [S50000x224, S50000x32] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S800000x3_S3x64_S800000x64_1_0_0_1_n_n_wf : DotDims.WF S800000x3 S3x64 S800000x64 [1] [0] [0] [1] [] []
  dot_S800000x50_S50x64_S800000x64_1_0_0_1_n_n_wf : DotDims.WF S800000x50 S50x64 S800000x64 [1] [0] [0] [1] [] []
  dot_S800000x128_S128x128_S800000x128_1_0_0_1_n_n_wf : DotDims.WF S800000x128 S128x128 S800000x128 [1] [0] [0] [1] [] []
  gather_S85x224_S50000x1_S50000x224_1_0_n_n_0_1_1224_wf : GatherDims.WF S85x224 S50000x1 S50000x224 [1] [0] [] [0] [] 1 ![1, 224]
  gather_S3x32_S50000x1_S50000x32_1_0_n_n_0_1_132_wf : GatherDims.WF S3x32 S50000x1 S50000x32 [1] [0] [] [0] [] 1 ![1, 32]
  dot_S50000x256_S256x256_S50000x256_1_0_0_1_n_n_wf : DotDims.WF S50000x256 S256x256 S50000x256 [1] [0] [0] [1] [] []

variable [Facts₀]

def dot_S800000x3_S3x64_S800000x64_1_0_0_1_n_n : DotDims S800000x3 S3x64 S800000x64 where
  lhsContracting := [1]
  rhsContracting := [0]
  lhsNonContracting := [0]
  rhsNonContracting := [1]
  lhsBatch := []
  rhsBatch := []
  wf := dot_S800000x3_S3x64_S800000x64_1_0_0_1_n_n_wf
def dot_S800000x50_S50x64_S800000x64_1_0_0_1_n_n : DotDims S800000x50 S50x64 S800000x64 where
  lhsContracting := [1]
  rhsContracting := [0]
  lhsNonContracting := [0]
  rhsNonContracting := [1]
  lhsBatch := []
  rhsBatch := []
  wf := dot_S800000x50_S50x64_S800000x64_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S85x224_S50000x1_S50000x224_1_0_n_n_0_1_1224 : GatherDims S85x224 S50000x1 S50000x224 where
  offsetDims := [1]
  collapsedSliceDims := [0]
  operandBatchingDims := []
  startIndicesBatchingDims := []
  startIndexMap := [0]
  indexVectorDim := 1
  sliceSizes := ![1, 224]
  wf := gather_S85x224_S50000x1_S50000x224_1_0_n_n_0_1_1224_wf
def gather_S3x32_S50000x1_S50000x32_1_0_n_n_0_1_132 : GatherDims S3x32 S50000x1 S50000x32 where
  offsetDims := [1]
  collapsedSliceDims := [0]
  operandBatchingDims := []
  startIndicesBatchingDims := []
  startIndexMap := [0]
  indexVectorDim := 1
  sliceSizes := ![1, 32]
  wf := gather_S3x32_S50000x1_S50000x32_1_0_n_n_0_1_132_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.EdgeBody.lean ====
/-
  The edge kernel's body, run once on whole staging buffers (any float instance): it loads its two row blocks and six
  weight blocks, computes, and stores one block. What the result buffer then holds is named `edgeOut`: the one
  store's payload over the loaded values.
-/
import proofs.«171124_g13383118094390_cont_week2b_154_1_alg».proof.Proof.Gen.KernelIdeal.Launch
import proofs.«171124_g13383118094390_cont_week2b_154_1_alg».proof.Proof.Gen.KernelIdeal.Skeleton
import proofs.«171124_g13383118094390_cont_week2b_154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rRp : Rect S2048x3 := Rect.unit (s := S2048x3) ![0, 0] S2048x3.size inb_S2048x3_S2048x3_0_0
abbrev rEa : Rect S2048x50 := Rect.unit (s := S2048x50) ![0, 0] S2048x50.size inb_S2048x50_S2048x50_0_0
abbrev rW1 : Rect S3x64 := Rect.unit (s := S3x64) ![0, 0] S3x64.size inb_S3x64_S3x64_0_0
abbrev rB64 : Rect S1x64 := Rect.unit (s := S1x64) ![0, 0] S1x64.size inb_S1x64_S1x64_0_0
abbrev rW12 : Rect S50x64 := Rect.unit (s := S50x64) ![0, 0] S50x64.size inb_S50x64_S50x64_0_0
abbrev rW2top : Rect S128x128 := Rect.unit (s := S128x128) ![0, 0] S64x128.size inb_S128x128_S64x128_0_0
abbrev rW2bot : Rect S128x128 := Rect.unit (s := S128x128) ![64, 0] S64x128.size inb_S128x128_S64x128_64_0
abbrev rB128 : Rect S1x128 := Rect.unit (s := S1x128) ![0, 0] S1x128.size inb_S1x128_S1x128_0_0
abbrev rOut : Rect S2048x128 := Rect.unit (s := S2048x128) ![0, 0] S2048x128.size inb_S2048x128_S2048x128_0_0

/-- The block the body stores, from the eight blocks it loads. -/
def edgePay (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) : Vec F S2048x128 .f32 :=
  k0_pay1 (k0_pay2 (View.ld x1 rEa) (View.ld w12 rW12) (View.ld b12 rB64))
    (k0_pay3 (View.ld x0 rRp) (View.ld w1 rW1) (View.ld b1 rB64) (View.ld w2 rW2top))
    (View.ld w2 rW2bot) (constant S2048x128 .f32 0x00000000#32) (View.ld b2 rB128)

/-- The result buffer after the body: the one store, over the whole buffer. -/
def edgeOut (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) : Vec F S2048x128 .f32 :=
  View.canon [⟨rOut, edgePay x0 x1 w1 b1 w12 b12 w2 b2⟩]

theorem coverOut (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

set_option maxHeartbeats 1000000 in
/-- The body on whole staging buffers: the eight inputs' buffers keep what they hold, the result's ends at `edgeOut`. -/
theorem sound_kernel (c : Dev nD) (E : Set ℕ) (i : grid0.Coords)
    (arg1 : Memref sig .tc .vmem S2048x3 .f32) (harg1 : arg1.IsWhole) (arg2 : Memref sig .tc .vmem S2048x50 .f32) (harg2 : arg2.IsWhole)
    (arg3 : Memref sig .tc .vmem S3x64 .f32) (harg3 : arg3.IsWhole) (arg4 : Memref sig .tc .vmem S1x64 .f32) (harg4 : arg4.IsWhole)
    (arg5 : Memref sig .tc .vmem S50x64 .f32) (harg5 : arg5.IsWhole) (arg6 : Memref sig .tc .vmem S1x64 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S2048x128 .f32) (harg9 : arg9.IsWhole)
    (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) (K : PUnit → sProp 𝕄) :
    iprop(owns (c : Thread nD τ) arg1 fullShare x0 ∗ owns (c : Thread nD τ) arg2 fullShare x1 ∗ owns (c : Thread nD τ) arg3 fullShare w1
        ∗ owns (c : Thread nD τ) arg4 fullShare b1 ∗ owns (c : Thread nD τ) arg5 fullShare w12 ∗ owns (c : Thread nD τ) arg6 fullShare b12
        ∗ owns (c : Thread nD τ) arg7 fullShare w2 ∗ owns (c : Thread nD τ) arg8 fullShare b2 ∗ (∃ d, owns (c : Thread nD τ) arg9 fullShare d)
        ∗ (iprop(owns (c : Thread nD τ) arg1 fullShare x0 ∗ owns (c : Thread nD τ) arg2 fullShare x1 ∗ owns (c : Thread nD τ) arg3 fullShare w1
            ∗ owns (c : Thread nD τ) arg4 fullShare b1 ∗ owns (c : Thread nD τ) arg5 fullShare w12 ∗ owns (c : Thread nD τ) arg6 fullShare b12
            ∗ owns (c : Thread nD τ) arg7 fullShare w2 ∗ owns (c : Thread nD τ) arg8 fullShare b2
            ∗ owns (c : Thread nD τ) arg9 fullShare (edgeOut x0 x1 w1 b1 w12 b12 w2 b2)) -∗ K ⟨⟩))
      ⊢ wp frame (wpE (defs₀ (F := F)) Variants.none c none) E
          (cc0__edge_body i arg1 harg1 arg2 harg2 arg3 harg3 arg4 harg4 arg5 harg5 arg6 harg6 arg7 harg7 arg8 harg8 arg9 harg9) K := by
  simp only [cc0__edge_body_eq_skeleton]; unfold cc0__edge_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (coverOut _)

end Cert.KernelIdeal.Edge

end
-- ==== Proof.EdgeRegion.lean ====
/-
  The edge kernel as a pipeline region (any float instance), at the contents `V` the region finds in the core's buffers.
  The two row windows and the result window overhang their arrays at the last grid point, so a fetched buffer holds its
  block on the rows inside the array and words nobody names below them, and the obligation describes each of those three
  buffers on the rows inside the array only. The proof data name, per point, the row blocks filled out with zeros and the
  result of the body on them; that the result's rows inside the array do not depend on the filler is the hypothesis
  `RowLocal`, which holds where a matrix product's row depends on the same row of its left operand only.
-/
import proofs.«171124_g13383118094390_cont_week2b_154_1_alg».proof.Proof.EdgeBody
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The position rows at point `t`, filled out with zeros below the array's end. -/
def rpBlk (c : Dev nD) (t : Fin cfg0.N) : Vec F S2048x3 .f32 :=
  win0_0.fill (grid0.coords t) (fun _ => Scalar.ofBits .f32 0#32) (iblk V c 0 t)
/-- The attribute rows at point `t`, likewise. -/
def eaBlk (c : Dev nD) (t : Fin cfg0.N) : Vec F S2048x50 .f32 :=
  win0_1.fill (grid0.coords t) (fun _ => Scalar.ofBits .f32 0#32) (iblk V c 1 t)

/-- The result block at point `t`: the body on the zero-filled row blocks and the six weight blocks. -/
def outBlk (c : Dev nD) (t : Fin cfg0.N) : Vec F S2048x128 .f32 :=
  edgeOut (rpBlk V c t) (eaBlk V c t) (iblk V c 2 t) (iblk V c 3 t) (iblk V c 4 t) (iblk V c 5 t) (iblk V c 6 t) (iblk V c 7 t)

/-- The proof data: the arrays as the region finds them; after the body each input's buffer at its block (the row
    blocks zero-filled) and the result's at `outBlk`; the scoped rest and the generator register ride along. -/
def dat (c : Dev nD) : Dat τ (Elt F) Unit ℕ (UR sig nD τ) ℕ cfg0 c where
  A w := V c (Pipeline.arrRef spec0 w)
  after w t := match w with
    | ⟨0, _⟩ => rpBlk V c t
    | ⟨1, _⟩ => eaBlk V c t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outBlk V c t
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = rpBlk V c t := by dsimp only [dat]
theorem after_1 (c : Dev nD) (t : Fin cfg0.N) : (dat V c).after 1 t = eaBlk V c t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = outBlk V c t := by dsimp only [dat]

/-! ## What the body finds in each input's buffer -/

/-- The row windows are fetched at every point: the buffer holds the block on the rows inside the array, `d` below. -/
theorem before_0 (c : Dev nD) (t : Fin cfg0.N) (d) :
    (dat V c).before 0 t d = win0_0.fill (grid0.coords t) d (iblk V c 0 t) := by
  unfold Dat.before; rw [if_pos (fetch0_0 t)]; rfl
theorem before_1 (c : Dev nD) (t : Fin cfg0.N) (d) :
    (dat V c).before 1 t d = win0_1.fill (grid0.coords t) d (iblk V c 1 t) := by
  unfold Dat.before; rw [if_pos (fetch0_1 t)]; rfl

/-- A weight window is fetched once and its block index never moves: its buffer holds the block at every point. -/
theorem before_in (w : Fin cfg0.W) (hw : (cfg0.win w).isOut = false) (hclip : ∀ t t' : Fin cfg0.N, (cfg0.win w).index t = (cfg0.win w).index t' →
      (cfg0.win w).clip (cfg0.grid.coords t) = (cfg0.win w).clip (cfg0.grid.coords t'))
    (c : Dev nD) (hafter : ∀ t, (cfg0.win w).cut (cfg0.grid.coords t) ((dat V c).after w t) = (dat V c).blockOf w t) (t : Fin cfg0.N) (d) :
    (dat V c).before w t d = (dat V c).fetched w t d :=
  (dat V c).before_in_eq_fetched w hw (fun _ => rfl) hclip hafter t d

theorem before_2 (c : Dev nD) (t : Fin cfg0.N) (d) : (dat V c).before 2 t d = iblk V c 2 t :=
  (before_in V 2 rfl (fun _ _ _ => rfl) c (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  (before_in V 3 rfl (fun _ _ _ => rfl) c (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  (before_in V 4 rfl (fun _ _ _ => rfl) c (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  (before_in V 5 rfl (fun _ _ _ => rfl) c (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  (before_in V 6 rfl (fun _ _ _ => rfl) c (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  (before_in V 7 rfl (fun _ _ _ => rfl) c (fun t => by rw [after_7]; unfold Dat.blockOf iblk; rw [A_eq]; try rfl) t d).trans
    (by unfold Dat.fetched Dat.blockOf iblk; rw [A_eq]; try rfl)

/-! ## The body obligation -/

/-- The rows of the result inside the array do not depend on what fills the row blocks below the array's end. -/
def RowLocal : Prop :=
  ∀ (t : Fin cfg0.N) (d0 d0' : Vec F S2048x3 .f32) (d1 d1' : Vec F S2048x50 .f32)
    (x0 : (win0_0.xblock (grid0.coords t)).Idx → Elt F .f32) (x1 : (win0_1.xblock (grid0.coords t)).Idx → Elt F .f32)
    (w1 : Vec F S3x64 .f32) (b1 : Vec F S1x64 .f32) (w12 : Vec F S50x64 .f32) (b12 : Vec F S1x64 .f32) (w2 : Vec F S128x128 .f32) (b2 : Vec F S1x128 .f32),
    win0_8.cut (grid0.coords t) (edgeOut (win0_0.fill (grid0.coords t) d0 x0) (win0_1.fill (grid0.coords t) d1 x1) w1 b1 w12 b12 w2 b2)
      = win0_8.cut (grid0.coords t) (edgeOut (win0_0.fill (grid0.coords t) d0' x0) (win0_1.fill (grid0.coords t) d1' x1) w1 b1 w12 b12 w2 b2)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- What it returns: the three overhanging windows' buffers stated on the rows inside the array. -/
def bodyPost (c : Dev nD) (t : Fin cfg0.N) : sProp 𝕄 :=
  iprop((dat V c).Φ t.succ ∗ (dat V c).owesAt () t.succ
    ∗ (∃ d, owns (c : Thread nD τ) (st0_0 t) fullShare (win0_0.fill (grid0.coords t) d (win0_0.cut (grid0.coords t) ((dat V c).after 0 t))))
    ∗ (∃ d, owns (c : Thread nD τ) (st0_1 t) fullShare (win0_1.fill (grid0.coords t) d (win0_1.cut (grid0.coords t) ((dat V c).after 1 t))))
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ (∃ d, owns (c : Thread nD τ) (st0_8 t) fullShare (win0_8.fill (grid0.coords t) d (win0_8.cut (grid0.coords t) ((dat V c).after 8 t)))))

/-- The body at any point: each input's buffer holds its block (the row blocks with whatever lies below the array's
    end), the body leaves them and stores the result; on the rows inside the array that is `outBlk`'s (`RowLocal`). -/
theorem sound_body (hloc : RowLocal (F := F)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (win0_0.fill (grid0.coords t) d0 (iblk V c 0 t)) (win0_1.fill (grid0.coords t) d1 (iblk V c 1 t))
    (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0; unfold rpBlk; rw [Window.cut_fill]; iexact H0
  isplitl [H1]
  · iexists d1; unfold eaBlk; rw [Window.cut_fill]; iexact H1
  isplitl [H2]; · iexact H2
  isplitl [H3]; · iexact H3
  isplitl [H4]; · iexact H4
  isplitl [H5]; · iexact H5
  isplitl [H6]; · iexact H6
  isplitl [H7]; · iexact H7
  iexists _
  unfold outBlk rpBlk eaBlk
  rw [win0_8.fill_congr_cut (grid0.coords t) (hloc t d0 _ d1 _ (iblk V c 0 t) (iblk V c 1 t) (iblk V c 2 t) (iblk V c 3 t) (iblk V c 4 t) (iblk V c 5 t) (iblk V c 6 t) (iblk V c 7 t))]
  iexact H8

/-- The library's body obligation at every point. -/
theorem body_obligation (hloc : RowLocal (F := F)) (c : Dev nD) :
    BodyObligationLoose (dat (F := F) V c) (defs₀ (F := F)) Variants.none () Set.univ := fun t => by
  rw [bigSep_W0, bigSep_W0]
  exact sound_body V hloc c t

end Cert.KernelIdeal.Edge

end
-- ==== Proof.AtomBody.lean ====
/-
  The atom kernel's body, run once on whole staging buffers (any float instance): it loads its two index columns, the
  88-row table, two weight matrices and two bias rows, computes, and stores one block. What the result buffer then
  holds is named `atomOut`: the one store's payload over the loaded values.
-/
import proofs.«171124_g13383118094390_cont_week2b_154_1_alg».proof.Proof.Gen.KernelIdeal.Launch
import proofs.«171124_g13383118094390_cont_week2b_154_1_alg».proof.Proof.Gen.KernelIdeal.Skeleton
import proofs.«171124_g13383118094390_cont_week2b_154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Atom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rIdx : Rect S2048x1 := Rect.unit (s := S2048x1) ![0, 0] S2048x1.size inb_S2048x1_S2048x1_0_0
abbrev rTbl : Rect S88x256 := Rect.unit (s := S88x256) ![0, 0] S88x256.size inb_S88x256_S88x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rOut : Rect S2048x256 := Rect.unit (s := S2048x256) ![0, 0] S2048x256.size inb_S2048x256_S2048x256_0_0

/-- The block the body stores, from the seven blocks it loads. -/
def atomPay (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) : Vec F S2048x256 .f32 :=
  k1_pay1 (k1_pay2 (View.ld z0 rIdx) (View.ld t0 rIdx) (View.ld tbl rTbl) (View.ld wl rW) (View.ld bl rB) (View.ld wl2 rW) (View.ld bl2 rB))
    (Scalar.ofBits .f32 0x00000000#32)

/-- The result buffer after the body: the one store, over the whole buffer. -/
def atomOut (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) : Vec F S2048x256 .f32 :=
  View.canon [⟨rOut, atomPay z0 t0 tbl wl bl wl2 bl2⟩]

theorem coverOut (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

set_option maxHeartbeats 1000000 in
/-- The body on whole staging buffers: the seven inputs' buffers keep what they hold, the result's ends at `atomOut`. -/
theorem sound_kernel (c : Dev nD) (E : Set ℕ) (i : grid1.Coords)
    (arg1 : Memref sig .tc .vmem S2048x1 .i32) (harg1 : arg1.IsWhole) (arg2 : Memref sig .tc .vmem S2048x1 .i32) (harg2 : arg2.IsWhole)
    (arg3 : Memref sig .tc .vmem S88x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S2048x256 .f32) (harg8 : arg8.IsWhole)
    (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) (K : PUnit → sProp 𝕄) :
    iprop(owns (c : Thread nD τ) arg1 fullShare z0 ∗ owns (c : Thread nD τ) arg2 fullShare t0 ∗ owns (c : Thread nD τ) arg3 fullShare tbl
        ∗ owns (c : Thread nD τ) arg4 fullShare wl ∗ owns (c : Thread nD τ) arg5 fullShare bl ∗ owns (c : Thread nD τ) arg6 fullShare wl2
        ∗ owns (c : Thread nD τ) arg7 fullShare bl2 ∗ (∃ d, owns (c : Thread nD τ) arg8 fullShare d)
        ∗ (iprop(owns (c : Thread nD τ) arg1 fullShare z0 ∗ owns (c : Thread nD τ) arg2 fullShare t0 ∗ owns (c : Thread nD τ) arg3 fullShare tbl
            ∗ owns (c : Thread nD τ) arg4 fullShare wl ∗ owns (c : Thread nD τ) arg5 fullShare bl ∗ owns (c : Thread nD τ) arg6 fullShare wl2
            ∗ owns (c : Thread nD τ) arg7 fullShare bl2
            ∗ owns (c : Thread nD τ) arg8 fullShare (atomOut z0 t0 tbl wl bl wl2 bl2)) -∗ K ⟨⟩))
      ⊢ wp frame (wpE (defs₀ (F := F)) Variants.none c none) E
          (cc1__atom_body i arg1 harg1 arg2 harg2 arg3 harg3 arg4 harg4 arg5 harg5 arg6 harg6 arg7 harg7 arg8 harg8) K := by
  simp only [cc1__atom_body_eq_skeleton]; unfold cc1__atom_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (coverOut _)

end Cert.KernelIdeal.Atom

end
-- ==== Proof.AtomRegion.lean ====
/-
  The atom kernel as a pipeline region (any float instance), at the contents `V` the region finds in the core's buffers.
  The two index-column windows and the result window overhang their arrays at the last grid point, so a fetched buffer
  holds its block on the rows inside the array and words nobody names below them, and the obligation describes each of
  those three buffers on the rows inside the array only. The proof data name, per point, the index columns filled out
  with zero words and the result of the body on them; that the result's rows inside the array do not depend on the filler
  is the hypothesis `RowLocal`, which holds where a matrix product's row depends on the same row of its left operand only.
-/
import proofs.«171124_g13383118094390_cont_week2b_154_1_alg».proof.Proof.AtomBody
set_option maxRecDepth 16384

noncomputable section

namespace Cert.KernelIdeal.Atom

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first index column at point `t`, filled out with zero words below the array's end. -/
def zBlk (c : Dev nD) (t : Fin cfg1.N) : Vec F S2048x1 .i32 :=
  win1_0.fill (grid1.coords t) (fun _ => (0#32 : BitVec 32)) (iblk V c 0 t)
/-- The second index column at point `t`, likewise. -/
def tBlk (c : Dev nD) (t : Fin cfg1.N) : Vec F S2048x1 .i32 :=
  win1_1.fill (grid1.coords t) (fun _ => (0#32 : BitVec 32)) (iblk V c 1 t)

/-- The result block at point `t`: the body on the zero-filled index columns, the table and the four weight blocks. -/
def outBlk (c : Dev nD) (t : Fin cfg1.N) : Vec F S2048x256 .f32 :=
  atomOut (zBlk V c t) (tBlk V c t) (iblk V c 2 t) (iblk V c 3 t) (iblk V c 4 t) (iblk V c 5 t) (iblk V c 6 t)

/-- The proof data: the arrays as the region finds them; after the body each input's buffer at its block (the index
    columns zero-filled) and the result's at `outBlk`; the scoped rest and the generator register ride along. -/
def dat (c : Dev nD) : Dat τ (Elt F) Unit ℕ (UR sig nD τ) ℕ cfg1 c where
  A w := V c (Pipeline.arrRef spec1 w)
  after w t := match w with
    | ⟨0, _⟩ => zBlk V c t
    | ⟨1, _⟩ => tBlk V c t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk V c t
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = zBlk V c t := by dsimp only [dat]
theorem after_1 (c : Dev nD) (t : Fin cfg1.N) : (dat V c).after 1 t = tBlk V c t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = outBlk V c t := by dsimp only [dat]

/-! ## What the body finds in each input's buffer -/

/-- The index windows are fetched at every point: the buffer holds the block on the rows inside the array, `d` below. -/
theorem before_0 (c : Dev nD) (t : Fin cfg1.N) (d) :
    (dat V c).before 0 t d = win1_0.fill (grid1.coords t) d (iblk V c 0 t) := by
  unfold Dat.before; rw [if_pos (fetch1_0 t)]; rfl
theorem before_1 (c : Dev nD) (t : Fin cfg1.N) (d) :
    (dat V c).before 1 t d = win1_1.fill (grid1.coords t) d (iblk V c 1 t) := by
  unfold Dat.before; rw [if_pos (fetch1_1 t)]; rfl

/-- A weight window is fetched once and its block index never moves: its buffer holds the block at every point. -/
theorem before_in (w : Fin cfg1.W) (hw : (cfg1.win w).isOut = false) (hclip : ∀ t t' : Fin cfg1.N, (cfg1.win w).index t = (cfg1.win w).index t' →
      (cfg1.win w).clip (cfg1.grid.coords t) = (cfg1.win w).clip (cfg1.grid.coords t'))
    (c : Dev nD) (hafter : ∀ t, (cfg1.win w).cut (cfg1.grid.coords t) ((dat V c).after w t) = (dat V c).blockOf w t) (t : Fin cfg1.N) (d) :
    (dat V c).before w t d = (dat V c).fetched w t d :=
  (dat V c).before_in_eq_fetched w hw (fun _ => rfl) hclip hafter t d

theorem before_2 (c : Dev nD) (t : Fin cfg1.N) (d) : (dat V c).before 2 t d = iblk V c 2 t :=
  (before_in V 2 rfl (fun _ _ _ => rfl) c (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  (before_in V 3 rfl (fun _ _ _ => rfl) c (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  (before_in V 4 rfl (fun _ _ _ => rfl) c (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  (before_in V 5 rfl (fun _ _ _ => rfl) c (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  (before_in V 6 rfl (fun _ _ _ => rfl) c (fun t => by rw [after_6]; unfold Dat.blockOf iblk; rw [A_eq]; try rfl) t d).trans
    (by unfold Dat.fetched Dat.blockOf iblk; rw [A_eq]; try rfl)

/-! ## The body obligation -/

/-- The rows of the result inside the array do not depend on what fills the index columns below the array's end. -/
def RowLocal : Prop :=
  ∀ (t : Fin cfg1.N) (d0 d0' : Vec F S2048x1 .i32) (d1 d1' : Vec F S2048x1 .i32)
    (x0 : (win1_0.xblock (grid1.coords t)).Idx → Elt F .i32) (x1 : (win1_1.xblock (grid1.coords t)).Idx → Elt F .i32)
    (tbl : Vec F S88x256 .f32) (wl : Vec F S256x256 .f32) (bl : Vec F S1x256 .f32) (wl2 : Vec F S256x256 .f32) (bl2 : Vec F S1x256 .f32),
    win1_7.cut (grid1.coords t) (atomOut (win1_0.fill (grid1.coords t) d0 x0) (win1_1.fill (grid1.coords t) d1 x1) tbl wl bl wl2 bl2)
      = win1_7.cut (grid1.coords t) (atomOut (win1_0.fill (grid1.coords t) d0' x0) (win1_1.fill (grid1.coords t) d1' x1) tbl wl bl wl2 bl2)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- What it returns: the three overhanging windows' buffers stated on the rows inside the array. -/
def bodyPost (c : Dev nD) (t : Fin cfg1.N) : sProp 𝕄 :=
  iprop((dat V c).Φ t.succ ∗ (dat V c).owesAt () t.succ
    ∗ (∃ d, owns (c : Thread nD τ) (st1_0 t) fullShare (win1_0.fill (grid1.coords t) d (win1_0.cut (grid1.coords t) ((dat V c).after 0 t))))
    ∗ (∃ d, owns (c : Thread nD τ) (st1_1 t) fullShare (win1_1.fill (grid1.coords t) d (win1_1.cut (grid1.coords t) ((dat V c).after 1 t))))
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ (∃ d, owns (c : Thread nD τ) (st1_7 t) fullShare (win1_7.fill (grid1.coords t) d (win1_7.cut (grid1.coords t) ((dat V c).after 7 t)))))

/-- The body at any point: each input's buffer holds its block (the index columns with whatever lies below the array's
    end), the body leaves them and stores the result; on the rows inside the array that is `outBlk`'s (`RowLocal`). -/
theorem sound_body (hloc : RowLocal (F := F)) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (win1_0.fill (grid1.coords t) d0 (iblk V c 0 t)) (win1_1.fill (grid1.coords t) d1 (iblk V c 1 t))
    (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0; unfold zBlk; rw [Window.cut_fill]; iexact H0
  isplitl [H1]
  · iexists d1; unfold tBlk; rw [Window.cut_fill]; iexact H1
  isplitl [H2]; · iexact H2
  isplitl [H3]; · iexact H3
  isplitl [H4]; · iexact H4
  isplitl [H5]; · iexact H5
  isplitl [H6]; · iexact H6
  iexists _
  unfold outBlk zBlk tBlk
  rw [win1_7.fill_congr_cut (grid1.coords t) (hloc t d0 _ d1 _ (iblk V c 0 t) (iblk V c 1 t) (iblk V c 2 t) (iblk V c 3 t) (iblk V c 4 t) (iblk V c 5 t) (iblk V c 6 t))]
  iexact H7

/-- The library's body obligation at every point. -/
theorem body_obligation (hloc : RowLocal (F := F)) (c : Dev nD) :
    BodyObligationLoose (dat (F := F) V c) (defs₀ (F := F)) Variants.none () Set.univ := fun t => by
  rw [bigSep_W1, bigSep_W1]
  exact sound_body V hloc c t

end Cert.KernelIdeal.Atom

end
-- ==== Proof.KRun.lean ====
/-
  The kernel program's run (any float instance for which both kernels' results are row-local): @main is three host
  reshapes, the edge region, eighteen host operations, the atom region. The buffers' contents at each boundary are a
  fold from the launch memory: a host stretch applies its operations, a region leaves its arrays at what its write-backs
  leave and every other buffer as it was. Every weakly fair execution terminates, and the final memory holds every
  unscoped buffer at the last boundary's contents: the sixteen arguments as launched, the two results at the regions'
  final arrays.
-/
import proofs.«171124_g13383118094390_cont_week2b_154_1_alg».proof.Proof.EdgeRegion
import proofs.«171124_g13383118094390_cont_week2b_154_1_alg».proof.Proof.AtomRegion
import proofs.«171124_g13383118094390_cont_week2b_154_1_alg».proof.Proof.Gen.KernelIdeal.Regions
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (HostSeg RegionSeg Seg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the three reshapes (the edge region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the edge region's exit: its arrays at what the pipeline leaves, every other buffer as entered. -/
def W2 (c : Dev nD) : Valuation τ sig (Elt F) :=
  Pipeline.withArrays spec0 c (W1 m c) fun w => (Edge.dat (V1 m) c).arrAt w cfg0.N
theorem W2_arr (c : Dev nD) (w : Fin cfg0.W) :
    W2 m c (Proc.devRef .tc (Pipeline.arrRef spec0 w)) = (Edge.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Edge.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the eighteen host operations (the atom region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the atom region's exit. -/
def W4 (c : Dev nD) : Valuation τ sig (Elt F) :=
  Pipeline.withArrays spec1 c (W3 m c) fun w => (Atom.dat (V3 m) c).arrAt w cfg1.N
theorem W4_arr (c : Dev nD) (w : Fin cfg1.W) :
    W4 m c (Proc.devRef .tc (Pipeline.arrRef spec1 w)) = (Atom.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Atom.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each item leaves unchanged -/

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W3_keep (c : Dev nD) (b : Ref sig .tc) (h : b ∉ hostOps1_W) : W3 m c (Proc.devRef .tc b) = W2 m c (Proc.devRef .tc b) :=
  StableHlo.after_of_writes_sub hostOps1 _ hostOps1_writes h
/-- A buffer the edge region does not write back (no window's array, or an input window's) is as entered. -/
theorem W2_keep (c : Dev nD) (b : Ref sig .tc) (h : ∀ w : Fin cfg0.W, Pipeline.arrRef spec0 w = b → (cfg0.win w).isOut = false) :
    W2 m c (Proc.devRef .tc b) = W1 m c (Proc.devRef .tc b) := by
  by_cases hb : ∃ w, Pipeline.arrRef spec0 w = b
  · obtain ⟨w, rfl⟩ := hb
    rw [W2_arr, (Edge.dat (V1 m) c).arrAt_in w (h w rfl) _, Edge.A_eq]
  · exact W2_of_ne m c b fun w e => hb ⟨w, e⟩
theorem W4_keep (c : Dev nD) (b : Ref sig .tc) (h : ∀ w : Fin cfg1.W, Pipeline.arrRef spec1 w = b → (cfg1.win w).isOut = false) :
    W4 m c (Proc.devRef .tc b) = W3 m c (Proc.devRef .tc b) := by
  by_cases hb : ∃ w, Pipeline.arrRef spec1 w = b
  · obtain ⟨w, rfl⟩ := hb
    rw [W4_arr, (Atom.dat (V3 m) c).arrAt_in w (h w rfl) _, Atom.A_eq]
  · exact W4_of_ne m c b fun w e => hb ⟨w, e⟩

/-- A buffer no item writes ends as launched. -/
theorem W4_launch (c : Dev nD) (b : Ref sig .tc) (h0 : b ∉ hostOps0_W) (h1 : b ∉ hostOps1_W)
    (h2 : ∀ w : Fin cfg0.W, Pipeline.arrRef spec0 w = b → (cfg0.win w).isOut = false)
    (h3 : ∀ w : Fin cfg1.W, Pipeline.arrRef spec1 w = b → (cfg1.win w).isOut = false) :
    W4 m c (Proc.devRef .tc b) = m ((c : Thread nD τ).loc b) :=
  (W4_keep m c b h3).trans <| (W3_keep m c b h1).trans <| (W2_keep m c b h2).trans <| (W1_keep m c b h0).trans rfl
/-- Before the atom region likewise. -/
theorem W3_launch (c : Dev nD) (b : Ref sig .tc) (h0 : b ∉ hostOps0_W) (h1 : b ∉ hostOps1_W)
    (h2 : ∀ w : Fin cfg0.W, Pipeline.arrRef spec0 w = b → (cfg0.win w).isOut = false) :
    W3 m c (Proc.devRef .tc b) = m ((c : Thread nD τ).loc b) :=
  (W3_keep m c b h1).trans <| (W2_keep m c b h2).trans <| (W1_keep m c b h0).trans rfl
theorem W2_launch (c : Dev nD) (b : Ref sig .tc) (h0 : b ∉ hostOps0_W)
    (h2 : ∀ w : Fin cfg0.W, Pipeline.arrRef spec0 w = b → (cfg0.win w).isOut = false) :
    W2 m c (Proc.devRef .tc b) = m ((c : Thread nD τ).loc b) :=
  (W2_keep m c b h2).trans <| (W1_keep m c b h0).trans rfl

/-- The edge result at the end is the edge region's final array. -/
theorem W4_v3 (c : Dev nD) : W4 m c (Proc.devRef .tc main_v3) = (Edge.dat (V1 m) c).arrAt 8 cfg0.N :=
  (W4_of_ne m c main_v3 (by decide)).trans <| (W3_keep m c main_v3 (by decide)).trans (W2_arr m c 8)
/-- The atom result at the end is the atom region's final array. -/
theorem W4_v17 (c : Dev nD) : W4 m c (Proc.devRef .tc main_v17) = (Atom.dat (V3 m) c).arrAt 7 cfg1.N := W4_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Edge.dat (V1 m) c
  | ⟨1, _⟩ => fun c => Atom.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

variable (hE : Edge.RowLocal (F := F)) (hA : Atom.RowLocal (F := F))

/-! ## The regions as segments -/

set_option backward.isDefEq.respectTransparency.types false in
/-- The edge region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Edge.body_obligation (V1 m) hE c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The atom region over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Atom.body_obligation (V3 m) hA c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hE),
    .host (hseg hostOps1 hostOps1_sub hostOps1_fresh (W2 m)),
    .region (reg1 m hA) ]
theorem main_run (c : Dev nD) : main (F := F) c = Pipeline.Seg.run (segs m hE hA) := (main_chain c).trans (by chain_rfl)

include hE hA in
set_option backward.isDefEq.respectTransparency.types false in
/-- THE RUN: every weakly fair execution of @main terminates, and every final memory holds each unscoped buffer at the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hE hA)
    (fun c Q => by rw [main_run m hE hA c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Run

end
-- ==== Proof.Spec.lean ====
/-
  What the two programs compute, row by row, on the extended reals.

  Edge branch: a row of three positions `p` and fifty attributes `q` gives 64 + 64 hidden units
  `silu (p · W1 + b1)`, `silu (q · W12 + b12)`; the result's entry `j` is `silu` of their products with the top and
  the bottom 64 rows of `W2`, summed, plus `b2 j`.

  Atom branch: a row's two indices `z < 85`, `t < 3` pick row `z` of the 85 × 224 table and row `t` of the 3 × 32
  table; laid side by side they are 256 inputs, through two dense layers with `silu` after each.

  `silu x = x · (1 / (1 + e^{-x}))`, each operation the extended reals' own.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, by its two extents. -/
abbrev Arr2 (n0 n1 : Nat) : Type := (⟨2, ![n0, n1]⟩ : Shape).Idx → EReal
/-- A vector of extended reals. -/
abbrev Arr1 (n : Nat) : Type := (⟨1, ![n]⟩ : Shape).Idx → EReal
/-- A vector of 32-bit words. -/
abbrev Words (n : Nat) : Type := (⟨1, ![n]⟩ : Shape).Idx → BitVec 32

/-- `x · (1 / (1 + e^{-x}))`. -/
def silu (x : EReal) : EReal := x * Ideal.div 1 (1 + Ideal.exp (-x))

/-- A dense layer's unit `k` on an input row `x` of length `n`: `silu (∑ a, x a · W a k + b k)`. -/
def unit {n n' : Nat} (x : Fin n → EReal) (W : Arr2 n n') (b : Arr1 n') (k : Fin n') : EReal :=
  silu ((∑ a : Fin n, x a * W (ix2 a k)) + b (ix1 k))

/-- The top half of 128 rows. -/
def top (k : Fin 64) : Fin 128 := ⟨k.val, by omega⟩
/-- The bottom half of 128 rows. -/
def bot (k : Fin 64) : Fin 128 := ⟨64 + k.val, by omega⟩

/-- The edge branch on one row. -/
def edgeRow (p : Fin 3 → EReal) (q : Fin 50 → EReal) (W1 : Arr2 3 64) (b1 : Arr1 64) (W12 : Arr2 50 64) (b12 : Arr1 64)
    (W2 : Arr2 128 128) (b2 : Arr1 128) (j : Fin 128) : EReal :=
  silu (((∑ k : Fin 64, unit p W1 b1 k * W2 (ix2 (top k) j)) + (∑ k : Fin 64, unit q W12 b12 k * W2 (ix2 (bot k) j)))
    + b2 (ix1 j))

/-- The edge branch on the whole arrays. -/
def edge (rp : Arr2 800000 3) (ea : Arr2 800000 50) (W1 : Arr2 3 64) (b1 : Arr1 64) (W12 : Arr2 50 64) (b12 : Arr1 64)
    (W2 : Arr2 128 128) (b2 : Arr1 128) : Arr2 800000 128 :=
  fun i => edgeRow (fun a => rp (ix2 (i 0) a)) (fun a => ea (ix2 (i 0) a)) W1 b1 W12 b12 W2 b2 (i 1)

/-- The 256 inputs of the atom branch on a row with indices `z`, `t` (read as naturals, reduced into range). -/
def atomIn (z t : BitVec 32) (emb : Arr2 85 224) (tt : Arr2 3 32) (a : Fin 256) : EReal :=
  if h : a.val < 224 then emb (ix2 (⟨z.toNat % 85, Nat.mod_lt _ (by decide)⟩ : Fin 85) (⟨a.val, h⟩ : Fin 224))
  else tt (ix2 (⟨t.toNat % 3, Nat.mod_lt _ (by decide)⟩ : Fin 3) (⟨a.val - 224, by omega⟩ : Fin 32))

/-- The atom branch on one row. -/
def atomRow (z t : BitVec 32) (emb : Arr2 85 224) (tt : Arr2 3 32) (Wl : Arr2 256 256) (bl : Arr1 256) (Wl2 : Arr2 256 256)
    (bl2 : Arr1 256) (j : Fin 256) : EReal :=
  unit (fun k => unit (atomIn z t emb tt) Wl bl k) Wl2 bl2 j

/-- The atom branch on the whole arrays. -/
def atom (z tg : Words 50000) (emb : Arr2 85 224) (tt : Arr2 3 32) (Wl : Arr2 256 256) (bl : Arr1 256) (Wl2 : Arr2 256 256)
    (bl2 : Arr1 256) : Arr2 50000 256 :=
  fun i => atomRow (z (ix1 (i 0))) (tg (ix1 (i 0))) emb tt Wl bl Wl2 bl2 (i 1)

/-- The 88 × 256 table the atom kernel multiplies a row's two-hot selector with: rows 0‥84 hold the 85 × 224 table in
    columns 0‥223, rows 85‥87 the 3 × 32 table in columns 224‥255, and every other entry is zero. -/
def IsTable (tbl : Arr2 88 256) (emb : Arr2 85 224) (tt : Arr2 3 32) : Prop :=
  ∀ (k : Fin 88) (a : Fin 256), tbl (ix2 k a) =
    if hk : k.val < 85 then
      (if ha : a.val < 224 then emb (ix2 (⟨k.val, hk⟩ : Fin 85) (⟨a.val, ha⟩ : Fin 224)) else 0)
    else
      (if ha : a.val < 224 then 0 else tt (ix2 (⟨k.val - 85, by omega⟩ : Fin 3) (⟨a.val - 224, by omega⟩ : Fin 32)))

/-- The indices are in range: every `z` below 85 and every `t` below 3, as naturals. -/
def InRange (z tg : Words 50000) : Prop := (∀ r : Fin 50000, (z (ix1 r)).toNat < 85) ∧ (∀ r : Fin 50000, (tg (ix1 r)).toNat < 3)

end Cert.Spec

end
-- ==== Proof.EdgeValue.lean ====
/-
  The edge kernel's stored block, entry by entry, on the extended reals.

  The body forms two blocks of 64 hidden units per row, `silu (x0 · W1 + b1)` from the rows' three positions and
  `silu (x1 · W12 + b12)` from their fifty attributes, multiplies the first by rows 0‥63 and the second by rows 64‥127
  of `W2`, adds the two products and the bias `b2`, and applies `silu` once more. Every matrix product accumulates into
  zero, so its entry `(r, c)` is the plain sum `∑ a, l (r, a) · m (a, c)`; a bias is one row read at `(0, c)` on every
  row `r`. Hence entry `(r, j)` of the stored block reads the two row blocks on row `r` alone, and is the
  specification's row function `Cert.Spec.edgeRow` of that row's positions and attributes.

  The result buffer is written by one store over the whole buffer, so after the body it holds exactly this block.
-/
import proofs.«171124_g13383118094390_cont_week2b_154_1_alg».proof.Proof.EdgeBody
import proofs.«171124_g13383118094390_cont_week2b_154_1_alg».proof.Proof.Spec
import Idealize.ShloMosaic.Lib.ValueLayout
import Idealize.ShloMosaic.Lib.IdealHost
import Idealize.ShloMosaic.PureOps.Ideal.Laws

noncomputable section

open scoped BigOperators

namespace Cert.KernelIdeal.Edge

open Cert.KernelIdeal Cert.KernelIdeal.Gen
open Idealize.ShloMosaic Idealize.ShloMosaic.ValueIdx

/-! ## One store over the whole buffer -/

/-- The zero offsets of a matrix, as the constant function. -/
theorem zeroOff : (![0, 0] : Fin 2 → Nat) = fun _ => 0 := by
  funext a; match a with | ⟨0, _⟩ => rfl | ⟨1, _⟩ => rfl

/-- one store over the whole buffer: the buffer holds the payload (any float instance) -/
theorem edgeOut_eq {F : FTy → Type} [FloatOps F] (x0 : Vec F S2048x3 .f32) (x1 : Vec F S2048x50 .f32) (w1 : Vec F S3x64 .f32)
    (b1 : Vec F S1x64 .f32) (w12 : Vec F S50x64 .f32) (b12 : Vec F S1x64 .f32) (w2 : Vec F S128x128 .f32) (b2 : Vec F S1x128 .f32) :
    edgeOut x0 x1 w1 b1 w12 b12 w2 b2 = edgePay x0 x1 w1 b1 w12 b12 w2 b2 := by
  unfold edgeOut
  exact View.canon_unit_zero zeroOff _ _

/-! ## The activation

The body writes `silu z` as `z · (1 / (1 + exp (0 − z)))`, the `0` and the `1` as 32-bit words; on the extended reals
`0 − z = −z`. -/

theorem silu_eq (z : EReal) :
    z * Ideal.div (Ideal.ofBits .f32 0x3F800000#32) (Ideal.ofBits .f32 0x3F800000#32 + Ideal.exp (Ideal.ofBits .f32 0x00000000#32 - z))
      = Cert.Spec.silu z := by
  rw [Ideal.ofBits_one_f32, Ideal.ofBits_zero_f32, zero_sub]; rfl

/-- The same on a whole block, read at an index. -/
theorem siluBlock_apply {s : Shape} (z : FVec Ideal s .f32) (i : s.Idx) :
    mulf z (divf (broadcast s (Scalar.ofBits (F := Ideal) .f32 0x3F800000#32))
      (addf (broadcast s (Scalar.ofBits (F := Ideal) .f32 0x3F800000#32))
        (exp (subf (broadcast s (Scalar.ofBits (F := Ideal) .f32 0x00000000#32)) z)))) i = Cert.Spec.silu (z i) :=
  silu_eq (z i)

/-! ## The three matrix products, entry by entry

Each contracts the left factor's columns with the right factor's rows into a zero accumulator: entry `(r, c)` is
`∑ a, l (r, a) · m (a, c)`. The contraction index has one axis; the sum is re-indexed by its coordinate. -/

/-! ### 2048 × 3 by 3 × 64: the operands' coordinates -/

theorem lhs3_0 (i : S2048x64.Idx) (q : dot_S2048x3_S3x64_S2048x64_1_0_0_1_n_n.contr.Idx) :
    (dot_S2048x3_S3x64_S2048x64_1_0_0_1_n_n.lhsIdx i q 0).val = (i 0).val := by
  unfold DotDims.lhsIdx
  rw [dif_neg (show ¬(0 : Fin S2048x3.rank) ∈ dot_S2048x3_S3x64_S2048x64_1_0_0_1_n_n.lhsBatch by decide),
    dif_pos (show (0 : Fin S2048x3.rank) ∈ dot_S2048x3_S3x64_S2048x64_1_0_0_1_n_n.lhsNonContracting by decide)]
  rfl
theorem lhs3_1 (i : S2048x64.Idx) (q : dot_S2048x3_S3x64_S2048x64_1_0_0_1_n_n.contr.Idx) :
    (dot_S2048x3_S3x64_S2048x64_1_0_0_1_n_n.lhsIdx i q 1).val = (q ⟨0, by decide⟩).val :=
  dot_S2048x3_S3x64_S2048x64_1_0_0_1_n_n.lhsIdx_val_of_single rfl i q
theorem rhs3_0 (i : S2048x64.Idx) (q : dot_S2048x3_S3x64_S2048x64_1_0_0_1_n_n.contr.Idx) :
    (dot_S2048x3_S3x64_S2048x64_1_0_0_1_n_n.rhsIdx i q 0).val = (q ⟨0, by decide⟩).val :=
  dot_S2048x3_S3x64_S2048x64_1_0_0_1_n_n.rhsIdx_val_of_single rfl i q
theorem rhs3_1 (i : S2048x64.Idx) (q : dot_S2048x3_S3x64_S2048x64_1_0_0_1_n_n.contr.Idx) :
    (dot_S2048x3_S3x64_S2048x64_1_0_0_1_n_n.rhsIdx i q 1).val = (i 1).val := by
  unfold DotDims.rhsIdx
  rw [dif_neg (show ¬(1 : Fin S3x64.rank) ∈ dot_S2048x3_S3x64_S2048x64_1_0_0_1_n_n.rhsBatch by decide),
    dif_pos (show (1 : Fin S3x64.rank) ∈ dot_S2048x3_S3x64_S2048x64_1_0_0_1_n_n.rhsNonContracting by decide)]
  rfl

/-- 2048 × 3 by 3 × 64 at `(r, c)`. -/
theorem matmul3_apply (l : FVec Ideal S2048x3 .f32) (m : FVec Ideal S3x64 .f32) (r : Fin 2048) (c : Fin 64) :
    matmul dot_S2048x3_S3x64_S2048x64_1_0_0_1_n_n none l m (constant S2048x64 .f32 0x00000000#32) (ix2 r c)
      = ∑ a : Fin 3, l (ix2 r a) * m (ix2 a c) := by
  simp only [matmul]
  rw [Ideal.matmul_constant_zero_apply, ← Equiv.sum_comp (contrEquiv1 dot_S2048x3_S3x64_S2048x64_1_0_0_1_n_n 3 rfl rfl).symm]
  refine Finset.sum_congr rfl fun a _ => ?_
  have hk := contrEquiv1_symm_val dot_S2048x3_S3x64_S2048x64_1_0_0_1_n_n 3 rfl rfl a
  have el : dot_S2048x3_S3x64_S2048x64_1_0_0_1_n_n.lhsIdx (ix2 r c) ((contrEquiv1 dot_S2048x3_S3x64_S2048x64_1_0_0_1_n_n 3 rfl rfl).symm a) = ix2 r a :=
    funext fun ax => Fin.ext (by
      match ax with
      | ⟨0, _⟩ => exact lhs3_0 _ _
      | ⟨1, _⟩ => exact (lhs3_1 _ _).trans hk)
  have er : dot_S2048x3_S3x64_S2048x64_1_0_0_1_n_n.rhsIdx (ix2 r c) ((contrEquiv1 dot_S2048x3_S3x64_S2048x64_1_0_0_1_n_n 3 rfl rfl).symm a) = ix2 a c :=
    funext fun ax => Fin.ext (by
      match ax with
      | ⟨0, _⟩ => exact (rhs3_0 _ _).trans hk
      | ⟨1, _⟩ => exact rhs3_1 _ _)
  rw [el, er]

/-! ### 2048 × 50 by 50 × 64: the operands' coordinates -/

theorem lhs50_0 (i : S2048x64.Idx) (q : dot_S2048x50_S50x64_S2048x64_1_0_0_1_n_n.contr.Idx) :
    (dot_S2048x50_S50x64_S2048x64_1_0_0_1_n_n.lhsIdx i q 0).val = (i 0).val := by
  unfold DotDims.lhsIdx
  rw [dif_neg (show ¬(0 : Fin S2048x50.rank) ∈ dot_S2048x50_S50x64_S2048x64_1_0_0_1_n_n.lhsBatch by decide),
    dif_pos (show (0 : Fin S2048x50.rank) ∈ dot_S2048x50_S50x64_S2048x64_1_0_0_1_n_n.lhsNonContracting by decide)]
  rfl
theorem lhs50_1 (i : S2048x64.Idx) (q : dot_S2048x50_S50x64_S2048x64_1_0_0_1_n_n.contr.Idx) :
    (dot_S2048x50_S50x64_S2048x64_1_0_0_1_n_n.lhsIdx i q 1).val = (q ⟨0, by decide⟩).val :=
  dot_S2048x50_S50x64_S2048x64_1_0_0_1_n_n.lhsIdx_val_of_single rfl i q
theorem rhs50_0 (i : S2048x64.Idx) (q : dot_S2048x50_S50x64_S2048x64_1_0_0_1_n_n.contr.Idx) :
    (dot_S2048x50_S50x64_S2048x64_1_0_0_1_n_n.rhsIdx i q 0).val = (q ⟨0, by decide⟩).val :=
  dot_S2048x50_S50x64_S2048x64_1_0_0_1_n_n.rhsIdx_val_of_single rfl i q
theorem rhs50_1 (i : S2048x64.Idx) (q : dot_S2048x50_S50x64_S2048x64_1_0_0_1_n_n.contr.Idx) :
    (dot_S2048x50_S50x64_S2048x64_1_0_0_1_n_n.rhsIdx i q 1).val = (i 1).val := by
  unfold DotDims.rhsIdx
  rw [dif_neg (show ¬(1 : Fin S50x64.rank) ∈ dot_S2048x50_S50x64_S2048x64_1_0_0_1_n_n.rhsBatch by decide),
    dif_pos (show (1 : Fin S50x64.rank) ∈ dot_S2048x50_S50x64_S2048x64_1_0_0_1_n_n.rhsNonContracting by decide)]
  rfl

/-- 2048 × 50 by 50 × 64 at `(r, c)`. -/
theorem matmul50_apply (l : FVec Ideal S2048x50 .f32) (m : FVec Ideal S50x64 .f32) (r : Fin 2048) (c : Fin 64) :
    matmul dot_S2048x50_S50x64_S2048x64_1_0_0_1_n_n none l m (constant S2048x64 .f32 0x00000000#32) (ix2 r c)
      = ∑ a : Fin 50, l (ix2 r a) * m (ix2 a c) := by
  simp only [matmul]
  rw [Ideal.matmul_constant_zero_apply, ← Equiv.sum_comp (contrEquiv1 dot_S2048x50_S50x64_S2048x64_1_0_0_1_n_n 50 rfl rfl).symm]
  refine Finset.sum_congr rfl fun a _ => ?_
  have hk := contrEquiv1_symm_val dot_S2048x50_S50x64_S2048x64_1_0_0_1_n_n 50 rfl rfl a
  have el : dot_S2048x50_S50x64_S2048x64_1_0_0_1_n_n.lhsIdx (ix2 r c) ((contrEquiv1 dot_S2048x50_S50x64_S2048x64_1_0_0_1_n_n 50 rfl rfl).symm a) = ix2 r a :=
    funext fun ax => Fin.ext (by
      match ax with
      | ⟨0, _⟩ => exact lhs50_0 _ _
      | ⟨1, _⟩ => exact (lhs50_1 _ _).trans hk)
  have er : dot_S2048x50_S50x64_S2048x64_1_0_0_1_n_n.rhsIdx (ix2 r c) ((contrEquiv1 dot_S2048x50_S50x64_S2048x64_1_0_0_1_n_n 50 rfl rfl).symm a) = ix2 a c :=
    funext fun ax => Fin.ext (by
      match ax with
      | ⟨0, _⟩ => exact (rhs50_0 _ _).trans hk
      | ⟨1, _⟩ => exact rhs50_1 _ _)
  rw [el, er]

/-! ### 2048 × 64 by 64 × 128: the operands' coordinates -/

theorem lhs64_0 (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide),
    dif_pos (show (0 : Fin S2048x64.rank) ∈ dot_S2048x64_S64x128_S2048x128_1_0_0_1_n_n.lhsNonContracting by decide)]
  rfl
theorem lhs64_1 (i : S2048x128.Idx) (q : dot_S2048x64_S64x128_S2048x128_1_0_0_1_n_n.contr.Idx) :
    (dot_S2048x64_S64x128_S2048x128_1_0_0_1_n_n.lhsIdx i q 1).val = (q ⟨0, by decide⟩).val :=
  dot_S2048x64_S64x128_S2048x128_1_0_0_1_n_n.lhsIdx_val_of_single rfl i q
theorem rhs64_0 (i : S2048x128.Idx) (q : dot_S2048x64_S64x128_S2048x128_1_0_0_1_n_n.contr.Idx) :
    (dot_S2048x64_S64x128_S2048x128_1_0_0_1_n_n.rhsIdx i q 0).val = (q ⟨0, by decide⟩).val :=
  dot_S2048x64_S64x128_S2048x128_1_0_0_1_n_n.rhsIdx_val_of_single rfl i q
theorem rhs64_1 (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide),
    dif_pos (show (1 : Fin S64x128.rank) ∈ dot_S2048x64_S64x128_S2048x128_1_0_0_1_n_n.rhsNonContracting by decide)]
  rfl

/-- 2048 × 64 by 64 × 128 at `(r, c)`. -/
theorem matmul64_apply (l : FVec Ideal S2048x64 .f32) (m : FVec Ideal S64x128 .f32) (r : Fin 2048) (c : Fin 128) :
    matmul dot_S2048x64_S64x128_S2048x128_1_0_0_1_n_n none l m (constant S2048x128 .f32 0x00000000#32) (ix2 r c)
      = ∑ a : Fin 64, l (ix2 r a) * m (ix2 a c) := by
  simp only [matmul]
  rw [Ideal.matmul_constant_zero_apply, ← Equiv.sum_comp (contrEquiv1 dot_S2048x64_S64x128_S2048x128_1_0_0_1_n_n 64 rfl rfl).symm]
  refine Finset.sum_congr rfl fun a _ => ?_
  have hk := contrEquiv1_symm_val dot_S2048x64_S64x128_S2048x128_1_0_0_1_n_n 64 rfl rfl a
  have el : dot_S2048x64_S64x128_S2048x128_1_0_0_1_n_n.lhsIdx (ix2 r c) ((contrEquiv1 dot_S2048x64_S64x128_S2048x128_1_0_0_1_n_n 64 rfl rfl).symm a) = ix2 r a :=
    funext fun ax => Fin.ext (by
      match ax with
      | ⟨0, _⟩ => exact lhs64_0 _ _
      | ⟨1, _⟩ => exact (lhs64_1 _ _).trans hk)
  have er : dot_S2048x64_S64x128_S2048x128_1_0_0_1_n_n.rhsIdx (ix2 r c) ((contrEquiv1 dot_S2048x64_S64x128_S2048x128_1_0_0_1_n_n 64 rfl rfl).symm a) = ix2 a c :=
    funext fun ax => Fin.ext (by
      match ax with
      | ⟨0, _⟩ => exact (rhs64_0 _ _).trans hk
      | ⟨1, _⟩ => exact rhs64_1 _ _)
  rw [el, er]

/-! ## The bias rows

A bias is one row; cast to its own shape and broadcast down the 2048 rows it reads, at `(r, c)`, its entry `(0, c)`. -/

theorem bias64_apply (b : Vec Ideal S1x64 .f32) (r : Fin 2048) (c : Fin 64) :
    broadcastTo S2048x64 (shapeCast S1x64 b shapeCasts_S1x64_S1x64) broadcasts_S1x64_S2048x64 (ix2 r c) = b (ix2 0 c) := by
  rw [shapeCast_self]
  exact broadcastTo_1b_ab_apply b _ r c

theorem bias128_apply (b : Vec Ideal S1x128 .f32) (r : Fin 2048) (c : Fin 128) :
    broadcastTo S2048x128 (shapeCast S1x128 b shapeCasts_S1x128_S1x128) broadcasts_S1x128_S2048x128 (ix2 r c) = b (ix2 0 c) := by
  rw [shapeCast_self]
  exact broadcastTo_1b_ab_apply b _ r c

/-! ## The two halves of the second layer's weights

The body loads rows 0‥63 and rows 64‥127 of the 128 × 128 matrix as two 64 × 128 blocks: entry `(k, j)` of a block is the
matrix at the block's first row plus `k`. -/

theorem ldTop_apply (w2 : Vec Ideal S128x128 .f32) (k : Fin 64) (j : Fin 128) :
    View.ld w2 rW2top (ix2 k j) = w2 (ix2 (Cert.Spec.top k) j) := by
  refine congrArg w2 (funext fun a => Fin.ext ?_)
  match a with
  | ⟨0, _⟩ => show 0 + 1 * k.val = k.val; omega
  | ⟨1, _⟩ => show 0 + 1 * j.val = j.val; omega

theorem ldBot_apply (w2 : Vec Ideal S128x128 .f32) (k : Fin 64) (j : Fin 128) :
    View.ld w2 rW2bot (ix2 k j) = w2 (ix2 (Cert.Spec.bot k) j) := by
  refine congrArg w2 (funext fun a => Fin.ext ?_)
  match a with
  | ⟨0, _⟩ => show 64 + 1 * k.val = 64 + k.val; omega
  | ⟨1, _⟩ => show 0 + 1 * j.val = j.val; omega

/-! ## The payloads, entry by entry -/

/-- The hidden units of the attribute rows: entry `(r, k)` is unit `k` of the dense layer on row `r`. -/
theorem pay2_apply (v1 : Vec Ideal S2048x50 .f32) (v16 : Vec Ideal S50x64 .f32) (v18 : Vec Ideal S1x64 .f32) (r : Fin 2048) (k : Fin 64) :
    k0_pay2 (F := Ideal) v1 v16 v18 (ix2 r k)
      = Cert.Spec.unit (fun a => v1 (ix2 r a)) v16 (fun i => v18 (ix2 0 (i 0))) k := by
  unfold k0_pay2
  refine (siluBlock_apply _ (ix2 r k)).trans ?_
  unfold Cert.Spec.unit
  refine congrArg Cert.Spec.silu ?_
  exact congrArg₂ (· + ·) (matmul50_apply v1 v16 r k) (bias64_apply v18 r k)

/-- The hidden units of the position rows, through the top 64 rows of the second layer: entry `(r, j)` is the sum over
    the 64 units of row `r` of unit `k` times the block's entry `(k, j)`. -/
theorem pay3_apply (v0 : Vec Ideal S2048x3 .f32) (v2 : Vec Ideal S3x64 .f32) (v4 : Vec Ideal S1x64 .f32) (v30 : Vec Ideal S64x128 .f32)
    (r : Fin 2048) (j : Fin 128) :
    k0_pay3 (F := Ideal) v0 v2 v4 v30 (ix2 r j)
      = ∑ k : Fin 64, Cert.Spec.unit (fun a => v0 (ix2 r a)) v2 (fun i => v4 (ix2 0 (i 0))) k * v30 (ix2 k j) := by
  unfold k0_pay3
  refine (matmul64_apply _ v30 r j).trans ?_
  refine Finset.sum_congr rfl fun k _ => ?_
  refine congrArg (· * v30 (ix2 k j)) ?_
  refine (siluBlock_apply _ (ix2 r k)).trans ?_
  unfold Cert.Spec.unit
  refine congrArg Cert.Spec.silu ?_
  exact congrArg₂ (· + ·) (matmul3_apply v0 v2 r k) (bias64_apply v4 r k)

/-- The stored block from its parts: entry `(r, j)` is `silu` of the first part's entry, plus the second hidden block's
    row `r` through the lower weights' column `j`, plus the bias at `j`. -/
theorem pay1_apply (v29 : FVec Ideal S2048x64 .f32) (v31 : FVec Ideal S2048x128 .f32) (v32 : Vec Ideal S64x128 .f32) (v35 : Vec Ideal S1x128 .f32)
    (r : Fin 2048) (j : Fin 128) :
    k0_pay1 (F := Ideal) v29 v31 v32 (constant S2048x128 .f32 0x00000000#32) v35 (ix2 r j)
      = Cert.Spec.silu ((v31 (ix2 r j) + ∑ k : Fin 64, v29 (ix2 r k) * v32 (ix2 k j)) + v35 (ix2 0 j)) := by
  unfold k0_pay1
  refine (siluBlock_apply _ (ix2 r j)).trans ?_
  refine congrArg Cert.Spec.silu ?_
  refine congrArg₂ (· + ·) ?_ (bias128_apply v35 r j)
  exact congrArg (v31 (ix2 r j) + ·) (matmul64_apply v29 v32 r j)

/-! ## The stored block is the specification's row function -/

theorem edgePay_apply (x0 : Vec Ideal S2048x3 .f32) (x1 : Vec Ideal S2048x50 .f32) (w1 : Vec Ideal S3x64 .f32) (b1 : Vec Ideal S1x64 .f32)
    (w12 : Vec Ideal S50x64 .f32) (b12 : Vec Ideal S1x64 .f32) (w2 : Vec Ideal S128x128 .f32) (b2 : Vec Ideal S1x128 .f32)
    (r : Fin 2048) (j : Fin 128) :
    edgePay (F := Ideal) x0 x1 w1 b1 w12 b12 w2 b2 (ix2 r j)
      = Cert.Spec.edgeRow (fun a => x0 (ix2 r a)) (fun a => x1 (ix2 r a)) w1 (fun i => b1 (ix2 0 (i 0))) w12
          (fun i => b12 (ix2 0 (i 0))) w2 (fun i => b2 (ix2 0 (i 0))) j := by
  unfold edgePay
  rw [View.ld_unit_zero (S := S2048x50) zeroOff, View.ld_unit_zero (S := S50x64) zeroOff, View.ld_unit_zero (S := S1x64) zeroOff,
    View.ld_unit_zero (S := S2048x3) zeroOff, View.ld_unit_zero (S := S3x64) zeroOff, View.ld_unit_zero (S := S1x64) zeroOff,
    View.ld_unit_zero (S := S1x128) zeroOff]
  refine (pay1_apply _ _ _ _ r j).trans ?_
  unfold Cert.Spec.edgeRow
  refine congrArg Cert.Spec.silu ?_
  refine congrArg (· + b2 (ix2 0 j)) ?_
  refine congrArg₂ (· + ·) ?_ ?_
  · refine (pay3_apply x0 w1 b1 _ r j).trans ?_
    exact Finset.sum_congr rfl fun k _ => congrArg (_ * ·) (ldTop_apply w2 k j)
  · refine Finset.sum_congr rfl fun k _ => ?_
    exact congrArg₂ (· * ·) (pay2_apply x1 w12 b12 r k) (ldBot_apply w2 k j)

end Cert.KernelIdeal.Edge

end
-- ==== Proof.Cover.lean ====
/-
  Where the row blocks of the two kernels sit in their arrays, and that the result blocks cover the result arrays.

  Edge kernel: 391 points; point `t` moves rows `2048 t ‥ 2048 t + n_t − 1` of the three row arrays (three, fifty and 128
  columns, all of them), where `n_t = min 2048 (800000 − 2048 t)`: 2048 rows but at the last point, `t = 390`, whose block
  is cut at the array's end to 1280 rows. Row `r` of the result is therefore in the block of point `r / 2048`, and in that
  one only.

  Atom kernel: 25 points over 50000 rows, the last block cut to 848 rows; the two index columns and the 256-column result
  move alike.
-/
import proofs.«171124_g13383118094390_cont_week2b_154_1_alg».proof.Proof.Gen.KernelIdeal.Points
import proofs.«171124_g13383118094390_cont_week2b_154_1_alg».proof.Proof.Gen.KernelIdeal.Launch
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.ShloMosaic.ValueIdx

/-! ## The edge kernel -/

/-- The index maps and the cuts, decided over the 391 points: the three row windows sit at block row `t`, block column 0,
    and the result's block has `min 2048 (800000 − 2048 t)` rows. -/
theorem idx_edge : ∀ t : Fin cfg0.N, win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_8.xsize (grid0.coords t) (0 : Fin 2) = min 2048 (800000 - t.val * 2048) :=
  (by decide +kernel : ∀ t : Fin grid0.N, _)

/-- The three row windows are cut alike, their columns are whole, and no block passes the array's end. -/
theorem xsize_edge : ∀ t : Fin cfg0.N, win0_0.xsize (grid0.coords t) (0 : Fin 2) = win0_8.xsize (grid0.coords t) (0 : Fin 2)
    ∧ win0_1.xsize (grid0.coords t) (0 : Fin 2) = win0_8.xsize (grid0.coords t) (0 : Fin 2)
    ∧ win0_0.xsize (grid0.coords t) (1 : Fin 2) = 3 ∧ win0_1.xsize (grid0.coords t) (1 : Fin 2) = 50
    ∧ win0_8.xsize (grid0.coords t) (1 : Fin 2) = 128
    ∧ t.val * 2048 + win0_8.xsize (grid0.coords t) (0 : Fin 2) ≤ 800000 :=
  (by decide +kernel : ∀ t : Fin grid0.N, _)

/-- An index of the result is in point `t`'s block iff its row is among the block's rows (every column is). -/
theorem mem_blk_edge (t : Fin cfg0.N) (i : S800000x128.Idx) :
    i ∈ (win0_8.blk t).view.set
      ↔ t.val * 2048 ≤ (i 0).val ∧ (i 0).val < t.val * 2048 + win0_8.xsize (grid0.coords t) (0 : Fin 2) := by
  show i ∈ ((View.whole main_v3).slice (win0_8.rect t)).set ↔ _
  rw [View.set_slice_whole, Rect.mem_set_unit]
  obtain ⟨e0, e1, -⟩ := idx_edge t
  obtain ⟨-, -, -, -, x1, -⟩ := xsize_edge t
  have h1 : (i 1).val < 128 := (i 1).isLt
  constructor
  · intro h
    have h0 : win0_8.index t (0 : Fin 2) * 2048 ≤ (i 0).val
        ∧ (i 0).val < win0_8.index t (0 : Fin 2) * 2048 + win0_8.xsize (grid0.coords t) (0 : Fin 2) := h 0
    rw [e0] at h0; exact h0
  · intro h a
    match a with
    | ⟨0, _⟩ =>
      show win0_8.index t (0 : Fin 2) * 2048 ≤ (i 0).val
        ∧ (i 0).val < win0_8.index t (0 : Fin 2) * 2048 + win0_8.xsize (grid0.coords t) (0 : Fin 2)
      rw [e0]; exact h
    | ⟨1, _⟩ =>
      show win0_8.index t (1 : Fin 2) * 128 ≤ (i 1).val
        ∧ (i 1).val < win0_8.index t (1 : Fin 2) * 128 + win0_8.xsize (grid0.coords t) (1 : Fin 2)
      rw [e1, x1]; omega

/-- Every index of the result is in the block of the point its row divided by 2048 names, which is written back. -/
theorem cover_edge (i : S800000x128.Idx) :
    ∃ t : Fin cfg0.N, (cfg0.win 8).flush t = true ∧ i ∈ ((cfg0.win 8).blk t).view.set := by
  have hi : (i 0).val < 800000 := (i 0).isLt
  have hN : (i 0).val / 2048 < cfg0.N := by
    show (i 0).val / 2048 < grid0.N
    rw [N_0]; omega
  refine ⟨⟨(i 0).val / 2048, hN⟩, flush0_8 _, ?_⟩
  show i ∈ (win0_8.blk ⟨(i 0).val / 2048, hN⟩).view.set
  rw [mem_blk_edge]
  obtain ⟨-, -, -, -, -, -, ex⟩ := idx_edge ⟨(i 0).val / 2048, hN⟩
  rw [ex]
  show (i 0).val / 2048 * 2048 ≤ (i 0).val ∧ (i 0).val < (i 0).val / 2048 * 2048 + min 2048 (800000 - (i 0).val / 2048 * 2048)
  omega

/-- A row of point `t`'s block is a row of the array, -/
theorem row_lt_edge (t : Fin cfg0.N) (n : Nat) (hn : n < win0_8.xsize (grid0.coords t) (0 : Fin 2)) : t.val * 2048 + n < 800000 := by
  have := (xsize_edge t).2.2.2.2.2; omega

/-- Where an element of the result's block at point `t` sits in the array: row `2048 t` plus its own, its own column. -/
theorem emb_edge (t : Fin cfg0.N) (j : (win0_8.xblock (grid0.coords t)).Idx) :
    (win0_8.blk t).view.emb j
      = ix2 (⟨t.val * 2048 + (j 0).val, row_lt_edge t _ (j 0).isLt⟩ : Fin 800000)
          (⟨(j 1).val, (xsize_edge t).2.2.2.2.1 ▸ (j 1).isLt⟩ : Fin 128) := by
  obtain ⟨e0, e1, -⟩ := idx_edge t
  funext a; apply Fin.ext
  match a with
  | ⟨0, _⟩ =>
    show win0_8.index t (0 : Fin 2) * 2048 + 1 * (j 0).val = t.val * 2048 + (j 0).val
    rw [e0]; omega
  | ⟨1, _⟩ =>
    show win0_8.index t (1 : Fin 2) * 128 + 1 * (j 1).val = (j 1).val
    rw [e1]; omega

/-- The same for the block of the three-column input: -/
theorem emb_rp (t : Fin cfg0.N) (j : (win0_0.xblock (grid0.coords t)).Idx) :
    (win0_0.blk t).view.emb j
      = ix2 (⟨t.val * 2048 + (j 0).val, row_lt_edge t _ ((xsize_edge t).1 ▸ (j 0).isLt)⟩ : Fin 800000)
          (⟨(j 1).val, (xsize_edge t).2.2.1 ▸ (j 1).isLt⟩ : Fin 3) := by
  obtain ⟨-, -, e0, e1, -⟩ := idx_edge t
  funext a; apply Fin.ext
  match a with
  | ⟨0, _⟩ =>
    show win0_0.index t (0 : Fin 2) * 2048 + 1 * (j 0).val = t.val * 2048 + (j 0).val
    rw [e0]; omega
  | ⟨1, _⟩ =>
    show win0_0.index t (1 : Fin 2) * 3 + 1 * (j 1).val = (j 1).val
    rw [e1]; omega

/-- and of the fifty-column input. -/
theorem emb_ea (t : Fin cfg0.N) (j : (win0_1.xblock (grid0.coords t)).Idx) :
    (win0_1.blk t).view.emb j
      = ix2 (⟨t.val * 2048 + (j 0).val, row_lt_edge t _ ((xsize_edge t).2.1 ▸ (j 0).isLt)⟩ : Fin 800000)
          (⟨(j 1).val, (xsize_edge t).2.2.2.1 ▸ (j 1).isLt⟩ : Fin 50) := by
  obtain ⟨-, -, -, -, e0, e1, -⟩ := idx_edge t
  funext a; apply Fin.ext
  match a with
  | ⟨0, _⟩ =>
    show win0_1.index t (0 : Fin 2) * 2048 + 1 * (j 0).val = t.val * 2048 + (j 0).val
    rw [e0]; omega
  | ⟨1, _⟩ =>
    show win0_1.index t (1 : Fin 2) * 50 + 1 * (j 1).val = (j 1).val
    rw [e1]; omega

/-! ## The atom kernel -/

/-- The index maps and the cuts, decided over the 25 points: the two index columns and the result sit at block row `t`,
    block column 0, and the result's block has `min 2048 (50000 − 2048 t)` rows. -/
theorem idx_atom : ∀ t : Fin cfg1.N, win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_7.xsize (grid1.coords t) (0 : Fin 2) = min 2048 (50000 - t.val * 2048) :=
  (by decide +kernel : ∀ t : Fin grid1.N, _)

/-- The three windows are cut alike, their columns are whole, and no block passes the array's end. -/
theorem xsize_atom : ∀ t : Fin cfg1.N, win1_0.xsize (grid1.coords t) (0 : Fin 2) = win1_7.xsize (grid1.coords t) (0 : Fin 2)
    ∧ win1_1.xsize (grid1.coords t) (0 : Fin 2) = win1_7.xsize (grid1.coords t) (0 : Fin 2)
    ∧ win1_0.xsize (grid1.coords t) (1 : Fin 2) = 1 ∧ win1_1.xsize (grid1.coords t) (1 : Fin 2) = 1
    ∧ win1_7.xsize (grid1.coords t) (1 : Fin 2) = 256
    ∧ t.val * 2048 + win1_7.xsize (grid1.coords t) (0 : Fin 2) ≤ 50000 :=
  (by decide +kernel : ∀ t : Fin grid1.N, _)

/-- An index of the result is in point `t`'s block iff its row is among the block's rows (every column is). -/
theorem mem_blk_atom (t : Fin cfg1.N) (i : S50000x256.Idx) :
    i ∈ (win1_7.blk t).view.set
      ↔ t.val * 2048 ≤ (i 0).val ∧ (i 0).val < t.val * 2048 + win1_7.xsize (grid1.coords t) (0 : Fin 2) := by
  show i ∈ ((View.whole main_v17).slice (win1_7.rect t)).set ↔ _
  rw [View.set_slice_whole, Rect.mem_set_unit]
  obtain ⟨e0, e1, -⟩ := idx_atom t
  obtain ⟨-, -, -, -, x1, -⟩ := xsize_atom t
  have h1 : (i 1).val < 256 := (i 1).isLt
  constructor
  · intro h
    have h0 : win1_7.index t (0 : Fin 2) * 2048 ≤ (i 0).val
        ∧ (i 0).val < win1_7.index t (0 : Fin 2) * 2048 + win1_7.xsize (grid1.coords t) (0 : Fin 2) := h 0
    rw [e0] at h0; exact h0
  · intro h a
    match a with
    | ⟨0, _⟩ =>
      show win1_7.index t (0 : Fin 2) * 2048 ≤ (i 0).val
        ∧ (i 0).val < win1_7.index t (0 : Fin 2) * 2048 + win1_7.xsize (grid1.coords t) (0 : Fin 2)
      rw [e0]; exact h
    | ⟨1, _⟩ =>
      show win1_7.index t (1 : Fin 2) * 256 ≤ (i 1).val
        ∧ (i 1).val < win1_7.index t (1 : Fin 2) * 256 + win1_7.xsize (grid1.coords t) (1 : Fin 2)
      rw [e1, x1]; omega

/-- Every index of the result is in the block of the point its row divided by 2048 names, which is written back. -/
theorem cover_atom (i : S50000x256.Idx) :
    ∃ t : Fin cfg1.N, (cfg1.win 7).flush t = true ∧ i ∈ ((cfg1.win 7).blk t).view.set := by
  have hi : (i 0).val < 50000 := (i 0).isLt
  have hN : (i 0).val / 2048 < cfg1.N := by
    show (i 0).val / 2048 < grid1.N
    rw [N_1]; omega
  refine ⟨⟨(i 0).val / 2048, hN⟩, flush1_7 _, ?_⟩
  show i ∈ (win1_7.blk ⟨(i 0).val / 2048, hN⟩).view.set
  rw [mem_blk_atom]
  obtain ⟨-, -, -, -, -, -, ex⟩ := idx_atom ⟨(i 0).val / 2048, hN⟩
  rw [ex]
  show (i 0).val / 2048 * 2048 ≤ (i 0).val ∧ (i 0).val < (i 0).val / 2048 * 2048 + min 2048 (50000 - (i 0).val / 2048 * 2048)
  omega

/-- A row of point `t`'s block is a row of the array. -/
theorem row_lt_atom (t : Fin cfg1.N) (n : Nat) (hn : n < win1_7.xsize (grid1.coords t) (0 : Fin 2)) : t.val * 2048 + n < 50000 := by
  have := (xsize_atom t).2.2.2.2.2; omega

/-- Where an element of the result's block at point `t` sits in the array: row `2048 t` plus its own, its own column. -/
theorem emb_atom (t : Fin cfg1.N) (j : (win1_7.xblock (grid1.coords t)).Idx) :
    (win1_7.blk t).view.emb j
      = ix2 (⟨t.val * 2048 + (j 0).val, row_lt_atom t _ (j 0).isLt⟩ : Fin 50000)
          (⟨(j 1).val, (xsize_atom t).2.2.2.2.1 ▸ (j 1).isLt⟩ : Fin 256) := by
  obtain ⟨e0, e1, -⟩ := idx_atom t
  funext a; apply Fin.ext
  match a with
  | ⟨0, _⟩ =>
    show win1_7.index t (0 : Fin 2) * 2048 + 1 * (j 0).val = t.val * 2048 + (j 0).val
    rw [e0]; omega
  | ⟨1, _⟩ =>
    show win1_7.index t (1 : Fin 2) * 256 + 1 * (j 1).val = (j 1).val
    rw [e1]; omega

/-- The same for the block of the first index column: -/
theorem emb_z (t : Fin cfg1.N) (j : (win1_0.xblock (grid1.coords t)).Idx) :
    (win1_0.blk t).view.emb j
      = ix2 (⟨t.val * 2048 + (j 0).val, row_lt_atom t _ ((xsize_atom t).1 ▸ (j 0).isLt)⟩ : Fin 50000)
          (⟨(j 1).val, lt_of_lt_of_eq (j 1).isLt (xsize_atom t).2.2.1⟩ : Fin 1) := by
  obtain ⟨-, -, e0, e1, -⟩ := idx_atom t
  funext a; apply Fin.ext
  match a with
  | ⟨0, _⟩ =>
    show win1_0.index t (0 : Fin 2) * 2048 + 1 * (j 0).val = t.val * 2048 + (j 0).val
    rw [e0]; omega
  | ⟨1, _⟩ =>
    show win1_0.index t (1 : Fin 2) * 1 + 1 * (j 1).val = (j 1).val
    rw [e1]; omega

/-- and of the second. -/
theorem emb_t (t : Fin cfg1.N) (j : (win1_1.xblock (grid1.coords t)).Idx) :
    (win1_1.blk t).view.emb j
      = ix2 (⟨t.val * 2048 + (j 0).val, row_lt_atom t _ ((xsize_atom t).2.1 ▸ (j 0).isLt)⟩ : Fin 50000)
          (⟨(j 1).val, lt_of_lt_of_eq (j 1).isLt (xsize_atom t).2.2.2.1⟩ : Fin 1) := by
  obtain ⟨-, -, -, -, e0, e1, -⟩ := idx_atom t
  funext a; apply Fin.ext
  match a with
  | ⟨0, _⟩ =>
    show win1_1.index t (0 : Fin 2) * 2048 + 1 * (j 0).val = t.val * 2048 + (j 0).val
    rw [e0]; omega
  | ⟨1, _⟩ =>
    show win1_1.index t (1 : Fin 2) * 1 + 1 * (j 1).val = (j 1).val
    rw [e1]; omega

end Cert.KernelIdeal.Cover

end
-- ==== Proof.EdgeFinal.lean ====
/-
  The edge kernel's result array is the specification's.

  Point `t` of the 391 moves rows `2048 t ‥ 2048 t + n_t − 1` of the two row arrays into its row blocks and writes the
  same rows of the result back; the six weight blocks are the whole weight arrays at every point. Entry (r, j) of the
  block the body stores is the specification's row function of row r of the two row blocks, so it depends on that row
  only: the rows inside the array do not see what fills the blocks below the array's end, and row r of the block a point
  writes back is the specification's row `2048 t + r`. The blocks written back cover the result array, so after the
  last point the array holds the specification's value at every index.
-/
import proofs.«171124_g13383118094390_cont_week2b_154_1_alg».proof.Proof.EdgeRegion
import proofs.«171124_g13383118094390_cont_week2b_154_1_alg».proof.Proof.EdgeValue
import proofs.«171124_g13383118094390_cont_week2b_154_1_alg».proof.Proof.Cover
import proofs.«171124_g13383118094390_cont_week2b_154_1_alg».proof.Proof.Spec
import Idealize.ShloMosaic.Lib.Pipeline.Value
import Idealize.ShloMosaic.Lib.ValueIdx

set_option maxRecDepth 16384

noncomputable section

namespace Cert.KernelIdeal.Edge

open Cert.KernelIdeal Cert.KernelIdeal.Gen Cert.KernelIdeal.Cover
open Idealize.ShloMosaic Idealize.ShloMosaic.TcCoe Idealize.ShloMosaic.ValueIdx
open Idealize.SL.Sem
open Idealize.ShloMosaic.Pipeline (Dat Cfg Window)

/-! ## A filled block on the part the transfer moves -/

/-- Inside the part a transfer moves, a filled block does not depend on the filler. -/
theorem fill_indep {G : Pipeline.Grid} (w : Window sig G) {α : Type} (i : G.Coords) (d d' : w.block.Idx → α)
    (g : (w.xblock i).Idx → α) (k : w.block.Idx) (h : ∀ a, (k a).val < w.xsize i a) :
    w.fill i d g k = w.fill i d' g k := by
  have hm : w.moved i k = true := (w.moved_iff i k).mpr h
  unfold Window.fill
  rw [dif_pos hm, dif_pos hm]

/-- Row `r` of the stored block depends on row `r` of the two row blocks only. -/
theorem edgeOut_row (x0 x0' : Vec Ideal S2048x3 .f32) (x1 x1' : Vec Ideal S2048x50 .f32) (w1 : Vec Ideal S3x64 .f32) (b1 : Vec Ideal S1x64 .f32)
    (w12 : Vec Ideal S50x64 .f32) (b12 : Vec Ideal S1x64 .f32) (w2 : Vec Ideal S128x128 .f32) (b2 : Vec Ideal S1x128 .f32)
    (r : Fin 2048) (q : Fin 128) (h0 : ∀ a : Fin 3, x0 (ix2 r a) = x0' (ix2 r a)) (h1 : ∀ a : Fin 50, x1 (ix2 r a) = x1' (ix2 r a)) :
    edgeOut (F := Ideal) x0 x1 w1 b1 w12 b12 w2 b2 (ix2 r q) = edgeOut (F := Ideal) x0' x1' w1 b1 w12 b12 w2 b2 (ix2 r q) := by
  rw [edgeOut_eq, edgeOut_eq, edgePay_apply, edgePay_apply]
  rw [show (fun a => x0 (ix2 r a)) = fun a => x0' (ix2 r a) from funext h0,
    show (fun a => x1 (ix2 r a)) = fun a => x1' (ix2 r a) from funext h1]

/-- The rows of the result inside the array do not see what fills the row blocks below the array's end. -/
theorem rowLocal : RowLocal (F := Ideal) := by
  intro t d0 d0' d1 d1' x0 x1 w1 b1 w12 b12 w2 b2
  obtain ⟨e0, e1, c0, c1, c8, -⟩ := xsize_edge t
  funext j
  have hr : (j 0).val < 2048 := Nat.lt_of_lt_of_le (j 0).isLt (win0_8.xsize_le (grid0.coords t) 0)
  have hq : (j 1).val < 128 := Nat.lt_of_lt_of_le (j 1).isLt (win0_8.xsize_le (grid0.coords t) 1)
  have hj : win0_8.xinj (grid0.coords t) j = ix2 (⟨(j 0).val, hr⟩ : Fin 2048) (⟨(j 1).val, hq⟩ : Fin 128) := by
    funext a; match a with | ⟨0, _⟩ => rfl | ⟨1, _⟩ => rfl
  show edgeOut _ _ w1 b1 w12 b12 w2 b2 (win0_8.xinj (grid0.coords t) j) = edgeOut _ _ w1 b1 w12 b12 w2 b2 (win0_8.xinj (grid0.coords t) j)
  rw [hj]
  refine edgeOut_row _ _ _ _ w1 b1 w12 b12 w2 b2 _ _ (fun a => ?_) (fun a => ?_)
  · refine fill_indep win0_0 (grid0.coords t) d0 d0' x0 _ (fun b => ?_)
    match b with
    | ⟨0, _⟩ => show (j 0).val < win0_0.xsize (grid0.coords t) (0 : Fin 2); rw [e0]; exact (j 0).isLt
    | ⟨1, _⟩ => show a.val < win0_0.xsize (grid0.coords t) (1 : Fin 2); rw [c0]; exact a.isLt
  · refine fill_indep win0_1 (grid0.coords t) d1 d1' x1 _ (fun b => ?_)
    match b with
    | ⟨0, _⟩ => show (j 0).val < win0_1.xsize (grid0.coords t) (0 : Fin 2); rw [e1]; exact (j 0).isLt
    | ⟨1, _⟩ => show a.val < win0_1.xsize (grid0.coords t) (1 : Fin 2); rw [c1]; exact a.isLt

end Cert.KernelIdeal.Edge

namespace Cert.KernelIdeal.Edge

open Cert.KernelIdeal Cert.KernelIdeal.Gen Cert.KernelIdeal.Cover
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The weight blocks are the whole arrays -/

theorem iblk_2 (c : Dev nD) (t : Fin cfg0.N) : (iblk V c 2 t : Vec Ideal S3x64 .f32) = V c main_arg10 := by
  funext y
  show V c main_arg10 ((win0_2.blk t).view.emb y) = V c main_arg10 y
  refine congrArg (V c main_arg10) (funext fun a => Fin.ext ?_)
  match a with
  | ⟨0, _⟩ => show 0 * 3 + 1 * (y 0).val = (y 0).val; omega
  | ⟨1, _⟩ => show 0 * 64 + 1 * (y 1).val = (y 1).val; omega
theorem iblk_3 (c : Dev nD) (t : Fin cfg0.N) : (iblk V c 3 t : Vec Ideal S1x64 .f32) = V c main_v0 := by
  funext y
  show V c main_v0 ((win0_3.blk t).view.emb y) = V c main_v0 y
  refine congrArg (V c main_v0) (funext fun a => Fin.ext ?_)
  match a with
  | ⟨0, _⟩ => show 0 * 1 + 1 * (y 0).val = (y 0).val; omega
  | ⟨1, _⟩ => show 0 * 64 + 1 * (y 1).val = (y 1).val; omega
theorem iblk_4 (c : Dev nD) (t : Fin cfg0.N) : (iblk V c 4 t : Vec Ideal S50x64 .f32) = V c main_arg12 := by
  funext y
  show V c main_arg12 ((win0_4.blk t).view.emb y) = V c main_arg12 y
  refine congrArg (V c main_arg12) (funext fun a => Fin.ext ?_)
  match a with
  | ⟨0, _⟩ => show 0 * 50 + 1 * (y 0).val = (y 0).val; omega
  | ⟨1, _⟩ => show 0 * 64 + 1 * (y 1).val = (y 1).val; omega
theorem iblk_5 (c : Dev nD) (t : Fin cfg0.N) : (iblk V c 5 t : Vec Ideal S1x64 .f32) = V c main_v1 := by
  funext y
  show V c main_v1 ((win0_5.blk t).view.emb y) = V c main_v1 y
  refine congrArg (V c main_v1) (funext fun a => Fin.ext ?_)
  match a with
  | ⟨0, _⟩ => show 0 * 1 + 1 * (y 0).val = (y 0).val; omega
  | ⟨1, _⟩ => show 0 * 64 + 1 * (y 1).val = (y 1).val; omega
theorem iblk_6 (c : Dev nD) (t : Fin cfg0.N) : (iblk V c 6 t : Vec Ideal S128x128 .f32) = V c main_arg14 := by
  funext y
  show V c main_arg14 ((win0_6.blk t).view.emb y) = V c main_arg14 y
  refine congrArg (V c main_arg14) (funext fun a => Fin.ext ?_)
  match a with
  | ⟨0, _⟩ => show 0 * 128 + 1 * (y 0).val = (y 0).val; omega
  | ⟨1, _⟩ => show 0 * 128 + 1 * (y 1).val = (y 1).val; omega
theorem iblk_7 (c : Dev nD) (t : Fin cfg0.N) : (iblk V c 7 t : Vec Ideal S1x128 .f32) = V c main_v2 := by
  funext y
  show V c main_v2 ((win0_7.blk t).view.emb y) = V c main_v2 y
  refine congrArg (V c main_v2) (funext fun a => Fin.ext ?_)
  match a with
  | ⟨0, _⟩ => show 0 * 1 + 1 * (y 0).val = (y 0).val; omega
  | ⟨1, _⟩ => show 0 * 128 + 1 * (y 1).val = (y 1).val; omega

/-! ## The row blocks inside the array -/

/-- Row `r` of the zero-filled position block at point `t`, for `r` inside the array, is row `2048 t + r` of the array. -/
theorem rpBlk_row (c : Dev nD) (t : Fin cfg0.N) (r : Fin 2048) (hr : r.val < win0_8.xsize (grid0.coords t) (0 : Fin 2)) (a : Fin 3) :
    rpBlk V c t (ix2 r a) = V c main_arg1 (ix2 (⟨t.val * 2048 + r.val, row_lt_edge t _ hr⟩ : Fin 800000) a) := by
  obtain ⟨e0, e1, c0, c1, c8, -⟩ := xsize_edge t
  let j : (win0_0.xblock (grid0.coords t)).Idx := fun b => match b with
    | ⟨0, _⟩ => ⟨r.val, by show r.val < win0_0.xsize (grid0.coords t) (0 : Fin 2); rw [e0]; exact hr⟩
    | ⟨1, _⟩ => ⟨a.val, by show a.val < win0_0.xsize (grid0.coords t) (1 : Fin 2); rw [c0]; exact a.isLt⟩
  have hj : (ix2 r a : S2048x3.Idx) = win0_0.xinj (grid0.coords t) j := by
    funext b; match b with | ⟨0, _⟩ => rfl | ⟨1, _⟩ => rfl
  unfold rpBlk
  rw [hj, Window.fill_xinj]
  show V c main_arg1 ((win0_0.blk t).view.emb j) = _
  rw [emb_rp t j]
  rfl

/-- The same for the attribute block. -/
theorem eaBlk_row (c : Dev nD) (t : Fin cfg0.N) (r : Fin 2048) (hr : r.val < win0_8.xsize (grid0.coords t) (0 : Fin 2)) (a : Fin 50) :
    eaBlk V c t (ix2 r a) = V c main_arg2 (ix2 (⟨t.val * 2048 + r.val, row_lt_edge t _ hr⟩ : Fin 800000) a) := by
  obtain ⟨e0, e1, c0, c1, c8, -⟩ := xsize_edge t
  let j : (win0_1.xblock (grid0.coords t)).Idx := fun b => match b with
    | ⟨0, _⟩ => ⟨r.val, by show r.val < win0_1.xsize (grid0.coords t) (0 : Fin 2); rw [e1]; exact hr⟩
    | ⟨1, _⟩ => ⟨a.val, by show a.val < win0_1.xsize (grid0.coords t) (1 : Fin 2); rw [c1]; exact a.isLt⟩
  have hj : (ix2 r a : S2048x50.Idx) = win0_1.xinj (grid0.coords t) j := by
    funext b; match b with | ⟨0, _⟩ => rfl | ⟨1, _⟩ => rfl
  unfold eaBlk
  rw [hj, Window.fill_xinj]
  show V c main_arg2 ((win0_1.blk t).view.emb j) = _
  rw [emb_ea t j]
  rfl

/-! ## What a point writes back, and the array after the last point -/

/-- The result array as the specification gives it from the arrays the region finds. -/
def specOut (c : Dev nD) : Cert.Spec.Arr2 800000 128 :=
  Cert.Spec.edge (V c main_arg1) (V c main_arg2) (V c main_arg10) (fun i => V c main_v0 (ix2 0 (i 0))) (V c main_arg12)
    (fun i => V c main_v1 (ix2 0 (i 0))) (V c main_arg14) (fun i => V c main_v2 (ix2 0 (i 0)))

/-- Point `t` writes back its block of the specification's array. -/
theorem flushed_eq (c : Dev nD) (t : Fin cfg0.N) :
    (dat V c).flushed 8 t = ((cfg0.win 8).blk t).view.read (Elt Ideal) (specOut V c) := by
  show win0_8.cut (grid0.coords t) ((dat V c).after 8 t) = _
  rw [after_8]
  funext j
  have hr : (j 0).val < 2048 := Nat.lt_of_lt_of_le (j 0).isLt (win0_8.xsize_le (grid0.coords t) 0)
  have hq : (j 1).val < 128 := Nat.lt_of_lt_of_le (j 1).isLt (win0_8.xsize_le (grid0.coords t) 1)
  have hj : win0_8.xinj (grid0.coords t) j = ix2 (⟨(j 0).val, hr⟩ : Fin 2048) (⟨(j 1).val, hq⟩ : Fin 128) := by
    funext a; match a with | ⟨0, _⟩ => rfl | ⟨1, _⟩ => rfl
  show outBlk V c t (win0_8.xinj (grid0.coords t) j) = specOut V c ((win0_8.blk t).view.emb j)
  rw [hj, emb_edge t j]
  unfold outBlk
  rw [edgeOut_eq, edgePay_apply]
  rw [iblk_2, iblk_3, iblk_4, iblk_5, iblk_6, iblk_7]
  rw [show (fun a => rpBlk V c t (ix2 (⟨(j 0).val, hr⟩ : Fin 2048) a)) = fun a => V c main_arg1 (ix2 (⟨t.val * 2048 + (j 0).val, row_lt_edge t _ (j 0).isLt⟩ : Fin 800000) a)
      from funext fun a => rpBlk_row V c t ⟨(j 0).val, hr⟩ (j 0).isLt a,
    show (fun a => eaBlk V c t (ix2 (⟨(j 0).val, hr⟩ : Fin 2048) a)) = fun a => V c main_arg2 (ix2 (⟨t.val * 2048 + (j 0).val, row_lt_edge t _ (j 0).isLt⟩ : Fin 800000) a)
      from funext fun a => eaBlk_row V c t ⟨(j 0).val, hr⟩ (j 0).isLt a]
  rfl

/-- After the last point the result array is the specification's. -/
theorem final (c : Dev nD) :
    (dat V c).arrAt 8 cfg0.N = Cert.Spec.edge (V c main_arg1) (V c main_arg2) (V c main_arg10) (fun i => V c main_v0 (ix2 0 (i 0)))
      (V c main_arg12) (fun i => V c main_v1 (ix2 0 (i 0))) (V c main_arg14) (fun i => V c main_v2 (ix2 0 (i 0))) :=
  (dat V c).arrAt_eq_of_cover 8 (specOut V c) (fun t _ => flushed_eq V c t) cover_edge

end Cert.KernelIdeal.Edge

end
-- ==== Proof.AtomValue.lean ====
/-
  The atom kernel's stored block, entry by entry, on the extended reals.

  Row r of the block has two indices z = z_r and t = t_r, with z < 85 and t < 3 as naturals. The body builds the row's
  selector over the 88 table rows — oh(r, k) = 1 when k = z or k = 85 + t, and 0 otherwise; no wrap-around, since
  85 + t < 88, and the two columns differ, since z < 85 ≤ 85 + t —, multiplies it with the 88 × 256 table, and sends the
  256 results through two dense layers, x ↦ silu (x · W + b), the bias row read at every row. Because 0 · x = 0 and
  1 · x = x for every extended real, finite or not, the selector's product with the table is the sum of the table's rows
  z and 85 + t; on a table laid out as `Cert.Spec.IsTable` says, that sum is the 85 × 224 table's row z in columns
  0‥223 and the 3 × 32 table's row t in columns 224‥255: the specification's 256 inputs. So entry (r, j) of the block is
  the specification's row function of (z_r, t_r) at j, and no other row enters it.
-/
import proofs.«171124_g13383118094390_cont_week2b_154_1_alg».proof.Proof.AtomBody
import proofs.«171124_g13383118094390_cont_week2b_154_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Atom

open Cert.KernelIdeal Cert.KernelIdeal.Gen
open Idealize.ShloMosaic Idealize.ShloMosaic.ValueIdx

/-! ## The store covers the buffer; the loads read whole blocks -/

/-- The zero offsets, however spelt. -/
theorem zeroOff : (![0, 0] : Fin 2 → Nat) = fun _ => 0 := by
  funext a; match a with | ⟨0, _⟩ => rfl | ⟨1, _⟩ => rfl

section AnyInstance
variable {F : FTy → Type} [FloatOps F]

/-- One store over the whole buffer: the buffer holds the payload (any float instance). -/
theorem atomOut_eq (z0 t0 : Vec F S2048x1 .i32) (tbl : Vec F S88x256 .f32) (wl : Vec F S256x256 .f32) (bl : Vec F S1x256 .f32)
    (wl2 : Vec F S256x256 .f32) (bl2 : Vec F S1x256 .f32) :
    atomOut z0 t0 tbl wl bl wl2 bl2 = atomPay z0 t0 tbl wl bl wl2 bl2 := by
  unfold atomOut
  exact View.canon_unit_zero zeroOff _ _

/-- The two-hot selector of a row: 1 in column z and in column 85 + t. -/
def selector (z0 t0 : Vec F S2048x1 .i32) : FVec F S2048x88 .f32 :=
  sitofp .f32 (extui 32 (ori
    (cmpi .eq (broadcastTo S2048x88 (shapeCast S2048x1 z0 shapeCasts_S2048x1_S2048x1) broadcasts_S2048x1_S2048x88)
      (iota .tc S2048x88 32 [1] iota_S2048x88_d1_w32))
    (cmpi .eq (broadcastTo S2048x88 (addi (shapeCast S2048x1 t0 shapeCasts_S2048x1_S2048x1) (broadcast S2048x1 85#32)) broadcasts_S2048x1_S2048x88)
      (iota .tc S2048x88 32 [1] iota_S2048x88_d1_w32))) natLt_1_32)

/-- The selector times the table. -/
def gathered (z0 t0 : Vec F S2048x1 .i32) (tbl : Vec F S88x256 .f32) : FVec F S2048x256 .f32 :=
  matmul dot_S2048x88_S88x256_S2048x256_1_0_0_1_n_n none (selector z0 t0)
    (shapeCast S88x256 tbl shapeCasts_S88x256_S88x256) (constant S2048x256 .f32 0x00000000#32)

/-- A dense layer before its activation. -/
def affine (x : FVec F S2048x256 .f32) (w : Vec F S256x256 .f32) (b : Vec F S1x256 .f32) : FVec F S2048x256 .f32 :=
  addf (matmul dot_S2048x256_S256x256_S2048x256_1_0_0_1_n_n none x w (constant S2048x256 .f32 0x00000000#32))
    (broadcastTo S2048x256 (shapeCast S1x256 b shapeCasts_S1x256_S1x256) broadcasts_S1x256_S2048x256)

/-- The activation, entry by entry. -/
def act (v : FVec F S2048x256 .f32) : FVec F S2048x256 .f32 :=
  mulf v (divf (broadcast S2048x256 (Scalar.ofBits .f32 0x3F800000#32))
    (addf (broadcast S2048x256 (Scalar.ofBits .f32 0x3F800000#32)) (exp (subf (broadcast S2048x256 (Scalar.ofBits .f32 0x00000000#32)) v))))

/-- The stored block is the activation of the second layer of the activation of the first layer of the selector's
    product with the table; every load reads its whole block. -/
theorem atomPay_eq_stages (z0 t0 : Vec F S2048x1 .i32) (tbl : Vec F S88x256 .f32) (wl : Vec F S256x256 .f32) (bl : Vec F S1x256 .f32)
    (wl2 : Vec F S256x256 .f32) (bl2 : Vec F S1x256 .f32) :
    atomPay z0 t0 tbl wl bl wl2 bl2 = act (affine (act (affine (gathered z0 t0 tbl) wl bl)) wl2 bl2) := by
  unfold atomPay
  rw [View.ld_unit_zero (S := S2048x1) zeroOff _ z0, View.ld_unit_zero (S := S2048x1) zeroOff _ t0,
    View.ld_unit_zero (S := S88x256) zeroOff _ tbl, View.ld_unit_zero (S := S256x256) zeroOff _ wl,
    View.ld_unit_zero (S := S1x256) zeroOff _ bl, View.ld_unit_zero (S := S256x256) zeroOff _ wl2,
    View.ld_unit_zero (S := S1x256) zeroOff _ bl2]
  rfl

end AnyInstance

/-! ## Layout and contraction, read at an index -/

section Layout
variable {α : Type}

/-- A column laid along every one of 88 columns: entry (r, k) is the column's entry r. -/
theorem column_apply (v : S2048x1.Idx → α) (r : Fin 2048) (k : Fin 88) :
    broadcastTo S2048x88 v broadcasts_S2048x1_S2048x88 (ix2 r k) = v (ix2 r (0 : Fin 1)) := by
  refine broadcastTo_apply v broadcasts_S2048x1_S2048x88 (ix2 r k) (ix2 r (0 : Fin 1)) fun ax => ?_
  match ax with
  | ⟨0, _⟩ => rfl
  | ⟨1, _⟩ => rfl

/-- A row laid along every one of 2048 rows: entry (r, k) is the row's entry k. -/
theorem row_apply (v : S1x256.Idx → α) (r : Fin 2048) (k : Fin 256) :
    broadcastTo S2048x256 v broadcasts_S1x256_S2048x256 (ix2 r k) = v (ix2 (0 : Fin 1) k) := by
  refine broadcastTo_apply v broadcasts_S1x256_S2048x256 (ix2 r k) (ix2 (0 : Fin 1) k) fun ax => ?_
  match ax with
  | ⟨0, _⟩ => rfl
  | ⟨1, _⟩ => rfl

end Layout

/-! The two products' operand indices, axis by axis. -/

theorem lhs_sel_0 (i : S2048x256.Idx) (q : dot_S2048x88_S88x256_S2048x256_1_0_0_1_n_n.contr.Idx) :
    (dot_S2048x88_S88x256_S2048x256_1_0_0_1_n_n.lhsIdx i q 0).val = (i 0).val := by
  unfold DotDims.lhsIdx
  rw [dif_neg (show ¬(0 : Fin S2048x88.rank) ∈ dot_S2048x88_S88x256_S2048x256_1_0_0_1_n_n.lhsBatch by decide),
    dif_pos (show (0 : Fin S2048x88.rank) ∈ dot_S2048x88_S88x256_S2048x256_1_0_0_1_n_n.lhsNonContracting by decide)]
  rfl
theorem lhs_sel_1 (i : S2048x256.Idx) (q : dot_S2048x88_S88x256_S2048x256_1_0_0_1_n_n.contr.Idx) :
    (dot_S2048x88_S88x256_S2048x256_1_0_0_1_n_n.lhsIdx i q 1).val = (q ⟨0, by decide⟩).val :=
  dot_S2048x88_S88x256_S2048x256_1_0_0_1_n_n.lhsIdx_val_of_single rfl i q
theorem rhs_sel_0 (i : S2048x256.Idx) (q : dot_S2048x88_S88x256_S2048x256_1_0_0_1_n_n.contr.Idx) :
    (dot_S2048x88_S88x256_S2048x256_1_0_0_1_n_n.rhsIdx i q 0).val = (q ⟨0, by decide⟩).val :=
  dot_S2048x88_S88x256_S2048x256_1_0_0_1_n_n.rhsIdx_val_of_single rfl i q
theorem rhs_sel_1 (i : S2048x256.Idx) (q : dot_S2048x88_S88x256_S2048x256_1_0_0_1_n_n.contr.Idx) :
    (dot_S2048x88_S88x256_S2048x256_1_0_0_1_n_n.rhsIdx i q 1).val = (i 1).val := by
  unfold DotDims.rhsIdx
  rw [dif_neg (show ¬(1 : Fin S88x256.rank) ∈ dot_S2048x88_S88x256_S2048x256_1_0_0_1_n_n.rhsBatch by decide),
    dif_pos (show (1 : Fin S88x256.rank) ∈ dot_S2048x88_S88x256_S2048x256_1_0_0_1_n_n.rhsNonContracting by decide)]
  rfl

/-- The selector's product with the table, into zeros, at (r, a): the sum over the 88 table rows. -/
theorem product88_apply (x : FVec Ideal S2048x88 .f32) (y : FVec Ideal S88x256 .f32) (r : Fin 2048) (a : Fin 256) :
    matmul dot_S2048x88_S88x256_S2048x256_1_0_0_1_n_n none x y (constant S2048x256 .f32 0x00000000#32) (ix2 r a)
      = ∑ k : Fin 88, x (ix2 r k) * y (ix2 k a) := by
  refine (Ideal.matmul_constant_zero_apply dot_S2048x88_S88x256_S2048x256_1_0_0_1_n_n none x y (ix2 r a)).trans ?_
  rw [← Equiv.sum_comp (contrEquiv1 dot_S2048x88_S88x256_S2048x256_1_0_0_1_n_n 88 rfl rfl).symm]
  refine Finset.sum_congr rfl fun k _ => ?_
  have hk := contrEquiv1_symm_val dot_S2048x88_S88x256_S2048x256_1_0_0_1_n_n 88 rfl rfl k
  have el : dot_S2048x88_S88x256_S2048x256_1_0_0_1_n_n.lhsIdx (ix2 r a)
      ((contrEquiv1 dot_S2048x88_S88x256_S2048x256_1_0_0_1_n_n 88 rfl rfl).symm k) = ix2 r k := funext fun ax => Fin.ext (by
    match ax with
    | ⟨0, _⟩ => exact lhs_sel_0 _ _
    | ⟨1, _⟩ => exact (lhs_sel_1 _ _).trans hk)
  have er : dot_S2048x88_S88x256_S2048x256_1_0_0_1_n_n.rhsIdx (ix2 r a)
      ((contrEquiv1 dot_S2048x88_S88x256_S2048x256_1_0_0_1_n_n 88 rfl rfl).symm k) = ix2 k a := funext fun ax => Fin.ext (by
    match ax with
    | ⟨0, _⟩ => exact (rhs_sel_0 _ _).trans hk
    | ⟨1, _⟩ => exact rhs_sel_1 _ _)
  rw [el, er]

theorem lhs_dense_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_dense_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_dense_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_dense_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- A dense layer's product, into zeros, at (r, k): the sum over the 256 inputs. -/
theorem product256_apply (x : FVec Ideal S2048x256 .f32) (y : FVec Ideal S256x256 .f32) (r : Fin 2048) (k : Fin 256) :
    matmul dot_S2048x256_S256x256_S2048x256_1_0_0_1_n_n none x y (constant S2048x256 .f32 0x00000000#32) (ix2 r k)
      = ∑ a : Fin 256, x (ix2 r a) * y (ix2 a k) := by
  refine (Ideal.matmul_constant_zero_apply dot_S2048x256_S256x256_S2048x256_1_0_0_1_n_n none x y (ix2 r k)).trans ?_
  rw [← Equiv.sum_comp (contrEquiv1 dot_S2048x256_S256x256_S2048x256_1_0_0_1_n_n 256 rfl rfl).symm]
  refine Finset.sum_congr rfl fun a _ => ?_
  have hk := contrEquiv1_symm_val dot_S2048x256_S256x256_S2048x256_1_0_0_1_n_n 256 rfl rfl a
  have el : dot_S2048x256_S256x256_S2048x256_1_0_0_1_n_n.lhsIdx (ix2 r k)
      ((contrEquiv1 dot_S2048x256_S256x256_S2048x256_1_0_0_1_n_n 256 rfl rfl).symm a) = ix2 r a := funext fun ax => Fin.ext (by
    match ax with
    | ⟨0, _⟩ => exact lhs_dense_0 _ _
    | ⟨1, _⟩ => exact (lhs_dense_1 _ _).trans hk)
  have er : dot_S2048x256_S256x256_S2048x256_1_0_0_1_n_n.rhsIdx (ix2 r k)
      ((contrEquiv1 dot_S2048x256_S256x256_S2048x256_1_0_0_1_n_n 256 rfl rfl).symm a) = ix2 a k := funext fun ax => Fin.ext (by
    match ax with
    | ⟨0, _⟩ => exact (rhs_dense_0 _ _).trans hk
    | ⟨1, _⟩ => exact rhs_dense_1 _ _)
  rw [el, er]

/-! ## The selector's entries -/

/-- The selector's bit at column k of a row with indices z, t: "z is k, or t + 85 is k" on 32-bit words. -/
def selBit (z t : BitVec 32) (k : Fin 88) : BitVec 1 :=
  IntOp.ori (IntOp.cmpi .eq z (BitVec.ofNat 32 k.val)) (IntOp.cmpi .eq (IntOp.addi t 85#32) (BitVec.ofNat 32 k.val))

/-- The selector at (r, k): the bit of row r's two indices at column k, widened and read as a number. -/
theorem selector_apply (z0 t0 : Vec Ideal S2048x1 .i32) (r : Fin 2048) (k : Fin 88) :
    selector (F := Ideal) z0 t0 (ix2 r k)
      = ((((selBit (z0 (ix2 r 0)) (t0 (ix2 r 0)) k).setWidth 32).toInt : ℝ) : EReal) := by
  unfold selector
  rw [shapeCast_self, shapeCast_self]
  show ((((IntOp.ori
      (IntOp.cmpi .eq (broadcastTo S2048x88 z0 broadcasts_S2048x1_S2048x88 (ix2 r k)) (iota .tc S2048x88 32 [1] iota_S2048x88_d1_w32 (ix2 r k)))
      (IntOp.cmpi .eq (broadcastTo S2048x88 (addi t0 (broadcast S2048x1 85#32)) broadcasts_S2048x1_S2048x88 (ix2 r k))
        (iota .tc S2048x88 32 [1] iota_S2048x88_d1_w32 (ix2 r k)))).setWidth 32).toInt : ℝ) : EReal) = _
  rw [column_apply, column_apply, iota_single_apply]
  rfl

/-- A word compared with a small number's word: equal exactly when its value is that number. -/
theorem cmpi_eq_ofNat (x : BitVec 32) (n : Nat) (hn : n < 2 ^ 32) :
    IntOp.cmpi .eq x (BitVec.ofNat 32 n) = if x.toNat = n then 1#1 else 0#1 := by
  have hk : (BitVec.ofNat 32 n).toNat = n := by rw [BitVec.toNat_ofNat]; exact Nat.mod_eq_of_lt hn
  show BitVec.ofBool (x == BitVec.ofNat 32 n) = _
  by_cases h : x.toNat = n
  · have e : x = BitVec.ofNat 32 n := BitVec.eq_of_toNat_eq (h.trans hk.symm)
    rw [if_pos h, e]
    simp
  · have e : ¬x = BitVec.ofNat 32 n := fun e => h (by rw [e]; exact hk)
    rw [if_neg h, show (x == BitVec.ofNat 32 n) = false from beq_false_of_ne e]
    rfl

/-- With z below 85 and t below 3 the bit is set in exactly the columns z and 85 + t; read as a number it is 1 there
    and 0 elsewhere. -/
theorem selBit_value (z t : BitVec 32) (hz : z.toNat < 85) (ht : t.toNat < 3) (k : Fin 88) :
    ((((selBit z t k).setWidth 32).toInt : ℝ) : EReal) = if k.val = z.toNat ∨ k.val = 85 + t.toNat then 1 else 0 := by
  have h85 : (IntOp.addi t 85#32).toNat = 85 + t.toNat := by
    show (t + 85#32).toNat = _
    rw [BitVec.toNat_add]
    show (t.toNat + 85) % 2 ^ 32 = _
    omega
  unfold selBit
  rw [cmpi_eq_ofNat z k.val (by have := k.isLt; omega), cmpi_eq_ofNat _ k.val (by have := k.isLt; omega), h85]
  by_cases h1 : z.toNat = k.val <;> by_cases h2 : 85 + t.toNat = k.val
  · rw [if_pos h1, if_pos h2, if_pos (Or.inl h1.symm)]
    show ((((1#1 ||| 1#1 : BitVec 1).setWidth 32).toInt : ℝ) : EReal) = 1
    rw [show ((1#1 ||| 1#1 : BitVec 1).setWidth 32).toInt = 1 by decide]; norm_num
  · rw [if_pos h1, if_neg h2, if_pos (Or.inl h1.symm)]
    show ((((1#1 ||| 0#1 : BitVec 1).setWidth 32).toInt : ℝ) : EReal) = 1
    rw [show ((1#1 ||| 0#1 : BitVec 1).setWidth 32).toInt = 1 by decide]; norm_num
  · rw [if_neg h1, if_pos h2, if_pos (Or.inr h2.symm)]
    show ((((0#1 ||| 1#1 : BitVec 1).setWidth 32).toInt : ℝ) : EReal) = 1
    rw [show ((0#1 ||| 1#1 : BitVec 1).setWidth 32).toInt = 1 by decide]; norm_num
  · rw [if_neg h1, if_neg h2, if_neg (by rintro (h | h); exact h1 h.symm; exact h2 h.symm)]
    show ((((0#1 ||| 0#1 : BitVec 1).setWidth 32).toInt : ℝ) : EReal) = 0
    rw [show ((0#1 ||| 0#1 : BitVec 1).setWidth 32).toInt = 0 by decide]; norm_num

/-! ## The selector times the table picks the row's 256 inputs -/

/-- A sum against a two-hot selector is the two selected terms. -/
theorem sum_twoHot (f : Fin 88 → EReal) (p q : Fin 88) (hpq : p ≠ q) :
    (∑ k : Fin 88, (if k.val = p.val ∨ k.val = q.val then (1 : EReal) else 0) * f k) = f p + f q := by
  have e : ∀ k : Fin 88, (if k.val = p.val ∨ k.val = q.val then (1 : EReal) else 0) * f k
      = (if k = p then f k else 0) + (if k = q then f k else 0) := by
    intro k
    by_cases h1 : k = p
    · subst h1
      rw [if_pos (Or.inl rfl), if_pos rfl, if_neg hpq, one_mul, add_zero]
    · by_cases h2 : k = q
      · subst h2
        rw [if_pos (Or.inr rfl), if_neg h1, if_pos rfl, one_mul, zero_add]
      · rw [if_neg (by rintro (h | h); exact h1 (Fin.ext h); exact h2 (Fin.ext h)), if_neg h1, if_neg h2, zero_mul, add_zero]
  rw [Finset.sum_congr rfl fun k _ => e k, Finset.sum_add_distrib, Finset.sum_ite_eq' Finset.univ p f,
    Finset.sum_ite_eq' Finset.univ q f, if_pos (Finset.mem_univ p), if_pos (Finset.mem_univ q)]

/-- On a table laid out as `IsTable` says, the selector's product with it is, in row r, the specification's 256 inputs of
    that row's indices: rows z and 85 + t of the table, of which one is zero in each column. -/
theorem gathered_apply (z0 t0 : Vec Ideal S2048x1 .i32) (tbl : Vec Ideal S88x256 .f32)
    (emb : Cert.Spec.Arr2 85 224) (tt : Cert.Spec.Arr2 3 32) (htbl : Cert.Spec.IsTable tbl emb tt)
    (r : Fin 2048) (hz : (z0 (ix2 r 0)).toNat < 85) (ht : (t0 (ix2 r 0)).toNat < 3) (a : Fin 256) :
    gathered (F := Ideal) z0 t0 tbl (ix2 r a) = Cert.Spec.atomIn (z0 (ix2 r 0)) (t0 (ix2 r 0)) emb tt a := by
  unfold gathered
  rw [shapeCast_self]
  refine (product88_apply (selector (F := Ideal) z0 t0) tbl r a).trans ?_
  rw [Finset.sum_congr rfl fun k _ => by rw [selector_apply z0 t0 r k, selBit_value _ _ hz ht k]]
  have hp : (z0 (ix2 r 0)).toNat < 88 := by omega
  have hq : 85 + (t0 (ix2 r 0)).toNat < 88 := by omega
  refine (sum_twoHot (fun k => tbl (ix2 k a)) ⟨_, hp⟩ ⟨_, hq⟩ (fun h => by have := congrArg Fin.val h; simp only at this; omega)).trans ?_
  show tbl (ix2 (⟨_, hp⟩ : Fin 88) a) + tbl (ix2 (⟨_, hq⟩ : Fin 88) a) = _
  rw [htbl ⟨_, hp⟩ a, htbl ⟨_, hq⟩ a]
  unfold Cert.Spec.atomIn
  by_cases ha : a.val < 224
  · rw [dif_pos (show (⟨(z0 (ix2 r 0)).toNat, hp⟩ : Fin 88).val < 85 from hz), dif_pos ha,
      dif_neg (show ¬(⟨85 + (t0 (ix2 r 0)).toNat, hq⟩ : Fin 88).val < 85 by show ¬85 + _ < 85; omega), dif_pos ha, dif_pos ha, add_zero]
    congr 2
    exact Fin.ext (Nat.mod_eq_of_lt hz).symm
  · rw [dif_pos (show (⟨(z0 (ix2 r 0)).toNat, hp⟩ : Fin 88).val < 85 from hz), dif_neg ha,
      dif_neg (show ¬(⟨85 + (t0 (ix2 r 0)).toNat, hq⟩ : Fin 88).val < 85 by show ¬85 + _ < 85; omega), dif_neg ha, dif_neg ha, zero_add]
    congr 2
    exact Fin.ext (by show 85 + (t0 (ix2 r 0)).toNat - 85 = (t0 (ix2 r 0)).toNat % 3; rw [Nat.mod_eq_of_lt ht]; omega)

/-! ## The dense layers -/

/-- The activation is `silu`: `0 - x` is `-x`, and the two constants are one. -/
theorem act_apply (v : FVec Ideal S2048x256 .f32) (i : S2048x256.Idx) : act (F := Ideal) v i = Cert.Spec.silu (v i) := by
  unfold act Cert.Spec.silu
  show v i * Ideal.div (Ideal.ofBits .f32 0x3F800000#32)
    (Ideal.ofBits .f32 0x3F800000#32 + Ideal.exp (Ideal.ofBits .f32 0x00000000#32 - v i)) = _
  rw [Ideal.ofBits_one_f32, Ideal.ofBits_zero_f32, zero_sub]

/-- A layer before its activation at (r, k): the row's 256 entries against column k of the weights, plus the bias at k. -/
theorem affine_apply (x : FVec Ideal S2048x256 .f32) (w : Vec Ideal S256x256 .f32) (b : Vec Ideal S1x256 .f32) (r : Fin 2048) (k : Fin 256) :
    affine (F := Ideal) x w b (ix2 r k) = (∑ a : Fin 256, x (ix2 r a) * w (ix2 a k)) + b (ix2 (0 : Fin 1) k) := by
  unfold affine
  rw [shapeCast_self]
  show matmul dot_S2048x256_S256x256_S2048x256_1_0_0_1_n_n none x w (constant S2048x256 .f32 0x00000000#32) (ix2 r k)
    + broadcastTo S2048x256 b broadcasts_S1x256_S2048x256 (ix2 r k) = _
  rw [product256_apply, row_apply]

/-! ## The stored block at an index -/

/-- Entry (r, j) of the stored block is the specification's row function of row r's two indices, at j. -/
theorem atomPay_apply (z0 t0 : Vec Ideal S2048x1 .i32) (tbl : Vec Ideal S88x256 .f32) (wl : Vec Ideal S256x256 .f32) (bl : Vec Ideal S1x256 .f32)
    (wl2 : Vec Ideal S256x256 .f32) (bl2 : Vec Ideal S1x256 .f32)
    (emb : Cert.Spec.Arr2 85 224) (tt : Cert.Spec.Arr2 3 32) (htbl : Cert.Spec.IsTable tbl emb tt)
    (r : Fin 2048) (hz : (z0 (ix2 r 0)).toNat < 85) (ht : (t0 (ix2 r 0)).toNat < 3) (j : Fin 256) :
    atomPay (F := Ideal) z0 t0 tbl wl bl wl2 bl2 (ix2 r j)
      = Cert.Spec.atomRow (z0 (ix2 r 0)) (t0 (ix2 r 0)) emb tt wl (fun i => bl (ix2 0 (i 0))) wl2 (fun i => bl2 (ix2 0 (i 0))) j := by
  rw [atomPay_eq_stages, act_apply, affine_apply]
  unfold Cert.Spec.atomRow
  show Cert.Spec.silu ((∑ a : Fin 256, act (affine (gathered z0 t0 tbl) wl bl) (ix2 r a) * wl2 (ix2 a j)) + bl2 (ix2 (0 : Fin 1) j))
    = Cert.Spec.silu ((∑ a : Fin 256, Cert.Spec.unit (Cert.Spec.atomIn (z0 (ix2 r 0)) (t0 (ix2 r 0)) emb tt) wl (fun i => bl (ix2 0 (i 0))) a * wl2 (ix2 a j))
      + bl2 (ix2 (0 : Fin 1) j))
  refine congrArg (fun s => Cert.Spec.silu (s + bl2 (ix2 (0 : Fin 1) j))) (Finset.sum_congr rfl fun a _ => ?_)
  refine congrArg (· * wl2 (ix2 a j)) ?_
  rw [act_apply, affine_apply]
  show Cert.Spec.silu ((∑ a' : Fin 256, gathered z0 t0 tbl (ix2 r a') * wl (ix2 a' a)) + bl (ix2 (0 : Fin 1) a))
    = Cert.Spec.silu ((∑ a' : Fin 256, Cert.Spec.atomIn (z0 (ix2 r 0)) (t0 (ix2 r 0)) emb tt a' * wl (ix2 a' a)) + bl (ix2 (0 : Fin 1) a))
  refine congrArg (fun s => Cert.Spec.silu (s + bl (ix2 (0 : Fin 1) a))) (Finset.sum_congr rfl fun a' _ => ?_)
  rw [gathered_apply z0 t0 tbl emb tt htbl r hz ht a']

end Cert.KernelIdeal.Atom

end
-- ==== Proof.AtomFinal.lean ====
/-
  The atom region's result array is the specification of the arrays the region finds.

  Entry (r, j) of the block the body stores reads the two index columns at row r only: the selector of row r is built
  from z_r and t_r, and a matrix product's row r is a sum over row r of its left operand. So a row of the result inside
  the array — a row the write-back moves — does not depend on what lies in the index columns' buffers below the array's
  end: the three row windows are cut alike, and a filled block read inside its moved part is what was filled in.

  At point t the zero-filled index columns' row n, for n inside the cut, is row 2048 t + n of the index arrays, the table
  and the four weight blocks are their whole arrays, and the moved part of the result block sits at rows 2048 t + n of the
  result array. With every index in range (z < 85, t < 3) row 2048 t + n of the block is therefore the specification's
  row function of that row's two indices, which is what the specification of the whole arrays reads there; and the
  written-back blocks cover the result array.
-/
import proofs.«171124_g13383118094390_cont_week2b_154_1_alg».proof.Proof.AtomRegion
import proofs.«171124_g13383118094390_cont_week2b_154_1_alg».proof.Proof.AtomValue
import proofs.«171124_g13383118094390_cont_week2b_154_1_alg».proof.Proof.Cover
import proofs.«171124_g13383118094390_cont_week2b_154_1_alg».proof.Proof.Spec
import Idealize.ShloMosaic.Lib.Pipeline.Value

set_option maxRecDepth 16384

noncomputable section

open scoped BigOperators

namespace Cert.KernelIdeal.Atom

open Cert.KernelIdeal Cert.KernelIdeal.Gen Cert.KernelIdeal.Cover
open Idealize.ShloMosaic Idealize.ShloMosaic.TcCoe Idealize.ShloMosaic.ValueIdx
open Idealize.SL.Sem
open Idealize.ShloMosaic.Pipeline (Dat Cfg Window)

/-! ## A row of the stored block, for any two index words -/

/-- The selector's product with a table at column `a`, for a row whose index words are `z`, `t`. -/
def pick (z t : BitVec 32) (tbl : Vec Ideal S88x256 .f32) (a : Fin 256) : EReal :=
  ∑ k : Fin 88, ((((selBit z t k).setWidth 32).toInt : ℝ) : EReal) * tbl (ix2 k a)

theorem gathered_pick (z0 t0 : Vec Ideal S2048x1 .i32) (tbl : Vec Ideal S88x256 .f32) (r : Fin 2048) (a : Fin 256) :
    gathered (F := Ideal) z0 t0 tbl (ix2 r a) = pick (z0 (ix2 r 0)) (t0 (ix2 r 0)) tbl a := by
  unfold gathered pick
  rw [shapeCast_self]
  refine (product88_apply (selector (F := Ideal) z0 t0) tbl r a).trans ?_
  exact Finset.sum_congr rfl fun k _ => by rw [selector_apply z0 t0 r k]

/-- The two dense layers on the picked inputs: a row of the stored block as a function of the row's two index words. -/
def rowOf (z t : BitVec 32) (tbl : Vec Ideal S88x256 .f32) (wl : Vec Ideal S256x256 .f32) (bl : Vec Ideal S1x256 .f32)
    (wl2 : Vec Ideal S256x256 .f32) (bl2 : Vec Ideal S1x256 .f32) (j : Fin 256) : EReal :=
  Cert.Spec.unit (fun k => Cert.Spec.unit (pick z t tbl) wl (fun i => bl (ix2 0 (i 0))) k) wl2 (fun i => bl2 (ix2 0 (i 0))) j

/-- Entry (r, j) of the stored block reads the two index columns at row r only. -/
theorem atomPay_rowOf (z0 t0 : Vec Ideal S2048x1 .i32) (tbl : Vec Ideal S88x256 .f32) (wl : Vec Ideal S256x256 .f32) (bl : Vec Ideal S1x256 .f32)
    (wl2 : Vec Ideal S256x256 .f32) (bl2 : Vec Ideal S1x256 .f32) (r : Fin 2048) (j : Fin 256) :
    atomPay (F := Ideal) z0 t0 tbl wl bl wl2 bl2 (ix2 r j) = rowOf (z0 (ix2 r 0)) (t0 (ix2 r 0)) tbl wl bl wl2 bl2 j := by
  rw [atomPay_eq_stages, act_apply, affine_apply]
  unfold rowOf
  show Cert.Spec.silu ((∑ a : Fin 256, act (affine (gathered z0 t0 tbl) wl bl) (ix2 r a) * wl2 (ix2 a j)) + bl2 (ix2 (0 : Fin 1) j))
    = Cert.Spec.silu ((∑ a : Fin 256, Cert.Spec.unit (pick (z0 (ix2 r 0)) (t0 (ix2 r 0)) tbl) wl (fun i => bl (ix2 0 (i 0))) a * wl2 (ix2 a j))
      + bl2 (ix2 (0 : Fin 1) j))
  refine congrArg (fun s => Cert.Spec.silu (s + bl2 (ix2 (0 : Fin 1) j))) (Finset.sum_congr rfl fun a _ => ?_)
  refine congrArg (· * wl2 (ix2 a j)) ?_
  rw [act_apply, affine_apply]
  show Cert.Spec.silu ((∑ a' : Fin 256, gathered z0 t0 tbl (ix2 r a') * wl (ix2 a' a)) + bl (ix2 (0 : Fin 1) a))
    = Cert.Spec.silu ((∑ a' : Fin 256, pick (z0 (ix2 r 0)) (t0 (ix2 r 0)) tbl a' * wl (ix2 a' a)) + bl (ix2 (0 : Fin 1) a))
  refine congrArg (fun s => Cert.Spec.silu (s + bl (ix2 (0 : Fin 1) a))) (Finset.sum_congr rfl fun a' _ => ?_)
  rw [gathered_pick]

/-! ## Rows inside the array do not see the filler -/

/-- A filled block at an index inside the part the transfer moves reads what was filled in. -/
theorem fill_of_lt {sg : RefSig} {G : Pipeline.Grid} (w : Pipeline.Window sg G) {α : Type} (i : G.Coords) (d : w.block.Idx → α)
    (g : (w.xblock i).Idx → α) (jj : w.block.Idx) (hmv : ∀ a, (jj a).val < w.xsize i a) :
    w.fill i d g jj = g (fun a => ⟨(jj a).val, hmv a⟩) := by
  unfold Pipeline.Window.fill
  rw [dif_pos ((w.moved_iff i jj).mpr hmv)]

/-- Row `n` of the first index column is moved at point `t` when the result's row `n` is. -/
theorem moved_z (t : Fin cfg1.N) (n : Nat) (hn : n < win1_7.xsize (grid1.coords t) (0 : Fin 2)) (h : n < 2048) :
    ∀ a, ((ix2 (⟨n, h⟩ : Fin 2048) (0 : Fin 1) : S2048x1.Idx) a).val < win1_0.xsize (grid1.coords t) a := by
  obtain ⟨x0, -, c0, -, -, -⟩ := xsize_atom t
  intro a
  match a with
  | ⟨0, _⟩ => show n < win1_0.xsize (grid1.coords t) (0 : Fin 2); rw [x0]; exact hn
  | ⟨1, _⟩ => show 0 < win1_0.xsize (grid1.coords t) (1 : Fin 2); rw [c0]; exact Nat.one_pos

/-- and of the second. -/
theorem moved_t (t : Fin cfg1.N) (n : Nat) (hn : n < win1_7.xsize (grid1.coords t) (0 : Fin 2)) (h : n < 2048) :
    ∀ a, ((ix2 (⟨n, h⟩ : Fin 2048) (0 : Fin 1) : S2048x1.Idx) a).val < win1_1.xsize (grid1.coords t) a := by
  obtain ⟨-, x1, -, c1, -, -⟩ := xsize_atom t
  intro a
  match a with
  | ⟨0, _⟩ => show n < win1_1.xsize (grid1.coords t) (0 : Fin 2); rw [x1]; exact hn
  | ⟨1, _⟩ => show 0 < win1_1.xsize (grid1.coords t) (1 : Fin 2); rw [c1]; exact Nat.one_pos

/-- An index of the result's moved part, by its two coordinates. -/
theorem xinj_out (t : Fin cfg1.N) (j : (win1_7.xblock (grid1.coords t)).Idx) (hr : (j 0).val < 2048) (hq : (j 1).val < 256) :
    win1_7.xinj (grid1.coords t) j = ix2 (⟨(j 0).val, hr⟩ : Fin 2048) (⟨(j 1).val, hq⟩ : Fin 256) := by
  funext a
  match a with
  | ⟨0, _⟩ => rfl
  | ⟨1, _⟩ => rfl

theorem rowLocal : RowLocal (F := Ideal) := by
  intro t d0 d0' d1 d1' x0 x1 tbl wl bl wl2 bl2
  funext j
  have hr : (j 0).val < 2048 := lt_of_lt_of_le (j 0).isLt (win1_7.xsize_le (grid1.coords t) 0)
  have hq : (j 1).val < 256 := lt_of_lt_of_le (j 1).isLt (win1_7.xsize_le (grid1.coords t) 1)
  show atomOut (win1_0.fill (grid1.coords t) d0 x0) (win1_1.fill (grid1.coords t) d1 x1) tbl wl bl wl2 bl2 (win1_7.xinj (grid1.coords t) j)
    = atomOut (win1_0.fill (grid1.coords t) d0' x0) (win1_1.fill (grid1.coords t) d1' x1) tbl wl bl wl2 bl2 (win1_7.xinj (grid1.coords t) j)
  rw [atomOut_eq, atomOut_eq, xinj_out t j hr hq]
  refine (atomPay_rowOf _ _ tbl wl bl wl2 bl2 ⟨(j 0).val, hr⟩ ⟨(j 1).val, hq⟩).trans
    (Eq.trans ?_ (atomPay_rowOf _ _ tbl wl bl wl2 bl2 ⟨(j 0).val, hr⟩ ⟨(j 1).val, hq⟩).symm)
  rw [fill_of_lt win1_0 (grid1.coords t) d0 x0 _ (moved_z t _ (j 0).isLt hr), fill_of_lt win1_0 (grid1.coords t) d0' x0 _ (moved_z t _ (j 0).isLt hr),
    fill_of_lt win1_1 (grid1.coords t) d1 x1 _ (moved_t t _ (j 0).isLt hr), fill_of_lt win1_1 (grid1.coords t) d1' x1 _ (moved_t t _ (j 0).isLt hr)]

/-! ## What each point writes back, and the result array -/

section Final
variable (V : (c : Dev nD) → (b : Ref sig .tc) → Buf (Elt Ideal) ((c : Thread nD τ).loc b))

/-- The table's window is the whole array at every point. -/
theorem blk_tbl (c : Dev nD) (t : Fin cfg1.N) : iblk V c 2 t = V c main_v12 := by
  funext y
  show V c main_v12 (((cfg1.win 2).blk t).view.emb y) = V c main_v12 y
  refine congrArg (V c main_v12) ?_
  funext a; apply Fin.ext
  match a with
  | ⟨0, _⟩ => show win1_2.index t (0 : Fin 2) * 88 + 1 * (y 0).val = (y 0).val; rw [show win1_2.index t (0 : Fin 2) = 0 from rfl]; omega
  | ⟨1, _⟩ => show win1_2.index t (1 : Fin 2) * 256 + 1 * (y 1).val = (y 1).val; rw [show win1_2.index t (1 : Fin 2) = 0 from rfl]; omega

/-- So are the two weight matrices' -/
theorem blk_wl (c : Dev nD) (t : Fin cfg1.N) : iblk V c 3 t = V c main_arg6 := by
  funext y
  show V c main_arg6 (((cfg1.win 3).blk t).view.emb y) = V c main_arg6 y
  refine congrArg (V c main_arg6) ?_
  funext a; apply Fin.ext
  match a with
  | ⟨0, _⟩ => show win1_3.index t (0 : Fin 2) * 256 + 1 * (y 0).val = (y 0).val; rw [show win1_3.index t (0 : Fin 2) = 0 from rfl]; omega
  | ⟨1, _⟩ => show win1_3.index t (1 : Fin 2) * 256 + 1 * (y 1).val = (y 1).val; rw [show win1_3.index t (1 : Fin 2) = 0 from rfl]; omega
theorem blk_wl2 (c : Dev nD) (t : Fin cfg1.N) : iblk V c 5 t = V c main_arg8 := by
  funext y
  show V c main_arg8 (((cfg1.win 5).blk t).view.emb y) = V c main_arg8 y
  refine congrArg (V c main_arg8) ?_
  funext a; apply Fin.ext
  match a with
  | ⟨0, _⟩ => show win1_5.index t (0 : Fin 2) * 256 + 1 * (y 0).val = (y 0).val; rw [show win1_5.index t (0 : Fin 2) = 0 from rfl]; omega
  | ⟨1, _⟩ => show win1_5.index t (1 : Fin 2) * 256 + 1 * (y 1).val = (y 1).val; rw [show win1_5.index t (1 : Fin 2) = 0 from rfl]; omega

/-- and the two bias rows'. -/
theorem blk_bl (c : Dev nD) (t : Fin cfg1.N) : iblk V c 4 t = V c main_v15 := by
  funext y
  show V c main_v15 (((cfg1.win 4).blk t).view.emb y) = V c main_v15 y
  refine congrArg (V c main_v15) ?_
  funext a; apply Fin.ext
  match a with
  | ⟨0, _⟩ => show win1_4.index t (0 : Fin 2) * 1 + 1 * (y 0).val = (y 0).val; rw [show win1_4.index t (0 : Fin 2) = 0 from rfl]; omega
  | ⟨1, _⟩ => show win1_4.index t (1 : Fin 2) * 256 + 1 * (y 1).val = (y 1).val; rw [show win1_4.index t (1 : Fin 2) = 0 from rfl]; omega
theorem blk_bl2 (c : Dev nD) (t : Fin cfg1.N) : iblk V c 6 t = V c main_v16 := by
  funext y
  show V c main_v16 (((cfg1.win 6).blk t).view.emb y) = V c main_v16 y
  refine congrArg (V c main_v16) ?_
  funext a; apply Fin.ext
  match a with
  | ⟨0, _⟩ => show win1_6.index t (0 : Fin 2) * 1 + 1 * (y 0).val = (y 0).val; rw [show win1_6.index t (0 : Fin 2) = 0 from rfl]; omega
  | ⟨1, _⟩ => show win1_6.index t (1 : Fin 2) * 256 + 1 * (y 1).val = (y 1).val; rw [show win1_6.index t (1 : Fin 2) = 0 from rfl]; omega

/-- Row `n` of the zero-filled first index column at point `t`, inside the array, is the array's row `2048 t + n`. -/
theorem zBlk_apply (c : Dev nD) (t : Fin cfg1.N) (n : Nat) (hn : n < win1_7.xsize (grid1.coords t) (0 : Fin 2)) (h : n < 2048) :
    zBlk V c t (ix2 (⟨n, h⟩ : Fin 2048) (0 : Fin 1))
      = V c main_v13 (ix2 (⟨t.val * 2048 + n, row_lt_atom t n hn⟩ : Fin 50000) (0 : Fin 1)) := by
  unfold zBlk
  rw [fill_of_lt win1_0 (grid1.coords t) _ _ _ (moved_z t n hn h)]
  show V c main_v13 ((win1_0.blk t).view.emb _) = _
  rw [emb_z]
  rfl

/-- The same for the second. -/
theorem tBlk_apply (c : Dev nD) (t : Fin cfg1.N) (n : Nat) (hn : n < win1_7.xsize (grid1.coords t) (0 : Fin 2)) (h : n < 2048) :
    tBlk V c t (ix2 (⟨n, h⟩ : Fin 2048) (0 : Fin 1))
      = V c main_v14 (ix2 (⟨t.val * 2048 + n, row_lt_atom t n hn⟩ : Fin 50000) (0 : Fin 1)) := by
  unfold tBlk
  rw [fill_of_lt win1_1 (grid1.coords t) _ _ _ (moved_t t n hn h)]
  show V c main_v14 ((win1_1.blk t).view.emb _) = _
  rw [emb_t]
  rfl

/-- What point `t` writes back is its block of the specification of the arrays the region finds. -/
theorem flushed_eq (c : Dev nD) (emb : Cert.Spec.Arr2 85 224) (tt : Cert.Spec.Arr2 3 32)
    (htbl : Cert.Spec.IsTable (V c main_v12) emb tt)
    (hr : Cert.Spec.InRange (fun i => V c main_v13 (ix2 (i 0) 0)) (fun i => V c main_v14 (ix2 (i 0) 0))) (t : Fin cfg1.N) :
    (dat V c).flushed 7 t = ((cfg1.win 7).blk t).view.read (Elt Ideal)
      (Cert.Spec.atom (fun i => V c main_v13 (ix2 (i 0) 0)) (fun i => V c main_v14 (ix2 (i 0) 0)) emb tt (V c main_arg6)
        (fun i => V c main_v15 (ix2 0 (i 0))) (V c main_arg8) (fun i => V c main_v16 (ix2 0 (i 0)))) := by
  show win1_7.cut (grid1.coords t) ((dat V c).after 7 t) = _
  rw [after_7]
  funext j
  have hr' : (j 0).val < 2048 := lt_of_lt_of_le (j 0).isLt (win1_7.xsize_le (grid1.coords t) 0)
  have hq : (j 1).val < 256 := lt_of_lt_of_le (j 1).isLt (win1_7.xsize_le (grid1.coords t) 1)
  show outBlk V c t (win1_7.xinj (grid1.coords t) j)
    = Cert.Spec.atom (fun i => V c main_v13 (ix2 (i 0) 0)) (fun i => V c main_v14 (ix2 (i 0) 0)) emb tt (V c main_arg6)
        (fun i => V c main_v15 (ix2 0 (i 0))) (V c main_arg8) (fun i => V c main_v16 (ix2 0 (i 0))) ((win1_7.blk t).view.emb j)
  rw [emb_atom t j, xinj_out t j hr' hq]
  unfold outBlk
  rw [atomOut_eq, blk_tbl, blk_wl, blk_bl, blk_wl2, blk_bl2]
  have ez := zBlk_apply V c t (j 0).val (j 0).isLt hr'
  have et := tBlk_apply V c t (j 0).val (j 0).isLt hr'
  refine (atomPay_apply (zBlk V c t) (tBlk V c t) (V c main_v12) (V c main_arg6) (V c main_v15) (V c main_arg8) (V c main_v16) emb tt htbl
    ⟨(j 0).val, hr'⟩ (by rw [ez]; exact hr.1 _) (by rw [et]; exact hr.2 _) ⟨(j 1).val, hq⟩).trans ?_
  rw [ez, et]
  rfl

/-- The result array after the region is the specification of the arrays the region finds. -/
theorem final (c : Dev nD) (emb : Cert.Spec.Arr2 85 224) (tt : Cert.Spec.Arr2 3 32)
    (htbl : Cert.Spec.IsTable (V c main_v12) emb tt)
    (hr : Cert.Spec.InRange (fun i => V c main_v13 (ix2 (i 0) 0)) (fun i => V c main_v14 (ix2 (i 0) 0))) :
    (dat V c).arrAt 7 cfg1.N
      = Cert.Spec.atom (fun i => V c main_v13 (ix2 (i 0) 0)) (fun i => V c main_v14 (ix2 (i 0) 0)) emb tt (V c main_arg6)
          (fun i => V c main_v15 (ix2 0 (i 0))) (V c main_arg8) (fun i => V c main_v16 (ix2 0 (i 0))) :=
  (dat V c).arrAt_eq_of_cover 7 _ (fun t _ => flushed_eq V c emb tt htbl hr t) cover_atom

end Final

end Cert.KernelIdeal.Atom

end
-- ==== Proof.HostGlue.lean ====
/-
  What the operations between the kernel regions leave in the arrays the regions read.

  A vector reshaped to a row `[1, n]` or to a column `[n, 1]` keeps its entries: entry `(0, k)`, resp. `(r, 0)`, is
  the vector's entry `k`, resp. `r`.

  The 88 × 256 table is a table of zeros into which the 85 × 224 table is written at `(0, 0)` and then the 3 × 32 table
  at `(85, 224)`. A scatter whose body returns the update is a fold of overwrites, one per update entry; with one index
  vector `(o0, o1)` and both update axes window axes, update entry `(p, q)` lands at `(o0 + p, o1 + q)`, distinct entries
  land at distinct places, so the result reads the update inside the window and the operand outside. The two windows
  `[0, 85) × [0, 224)` and `[85, 88) × [224, 256)` do not meet.
-/
import proofs.«171124_g13383118094390_cont_week2b_154_1_alg».proof.Proof.Gen.KernelIdeal.Launch
import proofs.«171124_g13383118094390_cont_week2b_154_1_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Glue

open Idealize.ShloMosaic Idealize.ShloMosaic.ValueIdx
open Cert.KernelIdeal Cert.KernelIdeal.Gen

variable {F : FTy → Type} [FloatOps F]

/-- A vector laid out as a column: entry `(r, 0)` of the `[n, 1]` array is entry `r` of the `[n]` array. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The three reshapes before the first region -/

theorem v0_apply (V : Valuation τ sig (Elt F)) (k : Fin 64) :
    StableHlo.after hostOps0 V (Proc.devRef .tc main_v0) (ix2 0 k) = V (Proc.devRef .tc main_arg11) (ix1 k) := by
  have e : (StableHlo.after hostOps0 V (Proc.devRef .tc main_v0) : S1x64.Idx → Elt F .f32)
      = shapeCast S1x64 (V (Proc.devRef .tc main_arg11)) shapeCasts_S64_S1x64 := by
    after_results; rfl
  exact (congrFun e _).trans (shapeCast_a_1a_apply _ _ 0 k)

theorem v1_apply (V : Valuation τ sig (Elt F)) (k : Fin 64) :
    StableHlo.after hostOps0 V (Proc.devRef .tc main_v1) (ix2 0 k) = V (Proc.devRef .tc main_arg13) (ix1 k) := by
  have e : (StableHlo.after hostOps0 V (Proc.devRef .tc main_v1) : S1x64.Idx → Elt F .f32)
      = shapeCast S1x64 (V (Proc.devRef .tc main_arg13)) shapeCasts_S64_S1x64 := by
    after_results; rfl
  exact (congrFun e _).trans (shapeCast_a_1a_apply _ _ 0 k)

theorem v2_apply (V : Valuation τ sig (Elt F)) (k : Fin 128) :
    StableHlo.after hostOps0 V (Proc.devRef .tc main_v2) (ix2 0 k) = V (Proc.devRef .tc main_arg15) (ix1 k) := by
  have e : (StableHlo.after hostOps0 V (Proc.devRef .tc main_v2) : S1x128.Idx → Elt F .f32)
      = shapeCast S1x128 (V (Proc.devRef .tc main_arg15)) shapeCasts_S128_S1x128 := by
    after_results; rfl
  exact (congrFun e _).trans (shapeCast_a_1a_apply _ _ 0 k)

/-! ## The four reshapes before the second region -/

theorem v13_apply (V : Valuation τ sig (Elt F)) (r : Fin 50000) :
    StableHlo.after hostOps1 V (Proc.devRef .tc main_v13) (ix2 r 0) = V (Proc.devRef .tc main_arg0) (ix1 r) := by
  have e : (StableHlo.after hostOps1 V (Proc.devRef .tc main_v13) : S50000x1.Idx → Elt F .i32)
      = shapeCast S50000x1 (V (Proc.devRef .tc main_arg0)) shapeCasts_S50000_S50000x1 := by
    after_results; rfl
  exact (congrFun e _).trans (shapeCast_a_a1_apply _ _ r 0)

theorem v14_apply (V : Valuation τ sig (Elt F)) (r : Fin 50000) :
    StableHlo.after hostOps1 V (Proc.devRef .tc main_v14) (ix2 r 0) = V (Proc.devRef .tc main_arg3) (ix1 r) := by
  have e : (StableHlo.after hostOps1 V (Proc.devRef .tc main_v14) : S50000x1.Idx → Elt F .i32)
      = shapeCast S50000x1 (V (Proc.devRef .tc main_arg3)) shapeCasts_S50000_S50000x1 := by
    after_results; rfl
  exact (congrFun e _).trans (shapeCast_a_a1_apply _ _ r 0)

theorem v15_apply (V : Valuation τ sig (Elt F)) (k : Fin 256) :
    StableHlo.after hostOps1 V (Proc.devRef .tc main_v15) (ix2 0 k) = V (Proc.devRef .tc main_arg7) (ix1 k) := by
  have e : (StableHlo.after hostOps1 V (Proc.devRef .tc main_v15) : S1x256.Idx → Elt F .f32)
      = shapeCast S1x256 (V (Proc.devRef .tc main_arg7)) shapeCasts_S256_S1x256 := by
    after_results; rfl
  exact (congrFun e _).trans (shapeCast_a_1a_apply _ _ 0 k)

theorem v16_apply (V : Valuation τ sig (Elt F)) (k : Fin 256) :
    StableHlo.after hostOps1 V (Proc.devRef .tc main_v16) (ix2 0 k) = V (Proc.devRef .tc main_arg9) (ix1 k) := by
  have e : (StableHlo.after hostOps1 V (Proc.devRef .tc main_v16) : S1x256.Idx → Elt F .f32)
      = shapeCast S1x256 (V (Proc.devRef .tc main_arg9)) shapeCasts_S256_S1x256 := by
    after_results; rfl
  exact (congrFun e _).trans (shapeCast_a_1a_apply _ _ 0 k)

/-! ## A scatter whose body returns the update, read at an index

The scatter is the left fold of one step per update index, in row-major order: the step of update index `j` overwrites the
operand's entry at `j`'s result index (when that is inside the operand) with the update's entry `j`. An operand index that
is no update index's result index keeps the operand's entry; one that is exactly one update index's result index reads
that update's entry. -/

section Scatter
variable {α : Type} {s si u : Shape} {w : Nat}

/-- One step of the fold. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ b => b) x idx upd = (List.finRange u.numel).foldl (setStep d idx upd) x := rfl

/-- Steps none of which lands at `i'` leave the entry at `i'`. -/
private theorem foldl_setStep_of_not_hit (d : ScatterDims s si u) (idx : IVec si w) (upd : u.Idx → α) (i' : s.Idx) :
    ∀ (l : List (Fin u.numel)) (x : s.Idx → α), (∀ n ∈ l, d.resultIdx? (u.rowMajor.symm n) idx ≠ some i') →
      l.foldl (setStep d idx upd) x i' = x i'
  | [], _, _ => rfl
  | n :: l, x, h => by
    rw [List.foldl_cons, foldl_setStep_of_not_hit d idx upd i' l _ fun m hm => h m (List.mem_cons_of_mem _ hm)]
    have hn := h n List.mem_cons_self
    unfold setStep
    cases hr : d.resultIdx? (u.rowMajor.symm n) idx with
    | none => rfl
    | some i =>
      show (if i' = i then _ else x i') = x i'
      rw [if_neg]
      intro e; exact hn (hr.trans (by rw [e]))

/-- Among steps without repeats of which exactly `n0` lands at `i'`, the entry at `i'` ends as `n0`'s update. -/
private theorem foldl_setStep_of_hit (d : ScatterDims s si u) (idx : IVec si w) (upd : u.Idx → α) (i' : s.Idx) (n0 : Fin u.numel)
    (h0 : d.resultIdx? (u.rowMajor.symm n0) idx = some i') :
    ∀ (l : List (Fin u.numel)) (x : s.Idx → α), l.Nodup → n0 ∈ l →
      (∀ n ∈ l, n ≠ n0 → d.resultIdx? (u.rowMajor.symm n) idx ≠ some i') →
      l.foldl (setStep d idx upd) x i' = upd (u.rowMajor.symm n0)
  | [], _, _, hm, _ => absurd hm List.not_mem_nil
  | n :: l, x, hnd, hm, h => by
    rw [List.foldl_cons]
    by_cases hn : n = n0
    · subst hn
      rw [foldl_setStep_of_not_hit d idx upd i' l _ fun m hm' =>
        h m (List.mem_cons_of_mem _ hm') (fun e => (List.nodup_cons.mp hnd).1 (e ▸ hm'))]
      unfold setStep
      rw [h0]
      exact if_pos rfl
    · exact foldl_setStep_of_hit d idx upd i' n0 h0 l _ (List.nodup_cons.mp hnd).2
        ((List.mem_cons.mp hm).resolve_left (fun e => hn e.symm)) fun m hm' => h m (List.mem_cons_of_mem _ hm')

/-- An operand index that is no update index's result index keeps the operand's entry. -/
theorem scatter_set_of_not_hit (d : ScatterDims s si u) (x : s.Idx → α) (idx : IVec si w) (upd : u.Idx → α) (i' : s.Idx)
    (h : ∀ j : u.Idx, d.resultIdx? j idx ≠ some i') : Host.scatter d (fun _ b => b) x idx upd i' = x i' := by
  rw [scatter_eq_foldl]
  exact foldl_setStep_of_not_hit d idx upd i' _ x fun n _ => h _

/-- An operand index that is the result index of the update index `j0` and of no other reads the update's entry `j0`. -/
theorem scatter_set_of_hit (d : ScatterDims s si u) (x : s.Idx → α) (idx : IVec si w) (upd : u.Idx → α) (i' : s.Idx) (j0 : u.Idx)
    (h0 : d.resultIdx? j0 idx = some i') (h : ∀ j : u.Idx, d.resultIdx? j idx = some i' → j = j0) :
    Host.scatter d (fun _ b => b) x idx upd i' = upd j0 := by
  rw [scatter_eq_foldl]
  have e : u.rowMajor.symm (u.rowMajor j0) = j0 := u.rowMajor.symm_apply_apply j0
  rw [← e]
  refine foldl_setStep_of_hit d idx upd i' (u.rowMajor j0) (by rw [e]; exact h0) _ x (List.nodup_finRange _) (List.mem_finRange _) ?_
  intro n _ hn hr
  exact hn (by rw [← h _ hr]; exact (u.rowMajor.apply_symm_apply n).symm)

end Scatter

/-! ## A two-dimensional window written at an offset

A scatter of a matrix `[n0, n1]` into a matrix `[m0, m1]` with ONE index vector `[o0, o1]`, both update axes window axes: the
update's entry `(p, q)` lands at `(o0 + p, o1 + q)`. -/

section Window
variable {α : Type} {m0 m1 n0 n1 w : Nat}

/-- The dimension numbers of such a scatter. -/
abbrev winDims (m0 m1 n0 n1 : Nat) (wf : ScatterDims.WF ⟨2, ![m0, m1]⟩ ⟨1, ![2]⟩ ⟨2, ![n0, n1]⟩ [0, 1] [] [0, 1] 0) :
    ScatterDims ⟨2, ![m0, m1]⟩ ⟨1, ![2]⟩ ⟨2, ![n0, n1]⟩ where
  updateWindowDims := [0, 1]
  insertedWindowDims := []
  scatterDimsToOperandDims := [0, 1]
  indexVectorDim := 0
  wf := wf

theorem winDims_window (wf) (j : (⟨2, ![n0, n1]⟩ : Shape).Idx) (a : Fin 2) :
    (winDims m0 m1 n0 n1 wf).window j a = (j a).val := by
  match a with
  | ⟨0, _⟩ => rfl
  | ⟨1, _⟩ => rfl

theorem winDims_start (wf) (j : (⟨2, ![n0, n1]⟩ : Shape).Idx) (idx : IVec ⟨1, ![2]⟩ w) (a : Fin 2) :
    (winDims m0 m1 n0 n1 wf).start j idx a = (idx (ix1 a)).toInt := by
  have hsi : ∀ (c : Fin 2) (hc : c.val < (winDims m0 m1 n0 n1 wf).scatterDimsToOperandDims.length),
      (winDims m0 m1 n0 n1 wf).siIdx j ⟨c.val, hc⟩ = ix1 c := by
    intro c hc; funext b
    match b with
    | ⟨0, _⟩ => rfl
  have m0' : (0 : Fin 2) ∈ (winDims m0 m1 n0 n1 wf).scatterDimsToOperandDims := List.mem_cons_self
  have m1' : (1 : Fin 2) ∈ (winDims m0 m1 n0 n1 wf).scatterDimsToOperandDims := List.mem_cons_of_mem _ List.mem_cons_self
  revert a
  rw [Fin.forall_fin_two]
  constructor
  · unfold ScatterDims.start
    rw [dif_pos m0']
    exact congrArg (fun i => (idx i).toInt) (hsi 0 Nat.zero_lt_two)
  · unfold ScatterDims.start
    rw [dif_pos m1']
    exact congrArg (fun i => (idx i).toInt) (hsi 1 Nat.one_lt_two)

/-- Where update index `j` lands, by coordinates. -/
theorem winDims_resultIdx?_iff (wf) (j : (⟨2, ![n0, n1]⟩ : Shape).Idx) (idx : IVec ⟨1, ![2]⟩ w)
    (i' : (⟨2, ![m0, m1]⟩ : Shape).Idx) :
    (winDims m0 m1 n0 n1 wf).resultIdx? j idx = some i' ↔
      (idx (ix1 0)).toInt + ((j 0).val : Int) = ((i' 0).val : Int) ∧ (idx (ix1 1)).toInt + ((j 1).val : Int) = ((i' 1).val : Int) := by
  unfold ScatterDims.resultIdx?
  simp only [winDims_start, winDims_window]
  constructor
  · intro h
    split at h
    · rename_i hh
      have e := Option.some.inj h
      subst e
      exact ⟨(Int.toNat_of_nonneg (hh 0).1).symm, (Int.toNat_of_nonneg (hh 1).1).symm⟩
    · cases h
  · intro h
    have hh : ∀ a : Fin 2, 0 ≤ (idx (ix1 a)).toInt + ((j a).val : Int) ∧
        (idx (ix1 a)).toInt + ((j a).val : Int) < ((⟨2, ![m0, m1]⟩ : Shape).size a : Int) :=
      Fin.forall_fin_two.mpr
        ⟨⟨by rw [h.1]; exact Int.natCast_nonneg _, by rw [h.1]; exact Int.ofNat_lt.mpr (i' 0).isLt⟩,
         ⟨by rw [h.2]; exact Int.natCast_nonneg _, by rw [h.2]; exact Int.ofNat_lt.mpr (i' 1).isLt⟩⟩
    rw [dif_pos hh]
    congr 1
    funext a
    revert a
    rw [Fin.forall_fin_two]
    exact ⟨Fin.ext (by show Int.toNat _ = _; rw [h.1]; rfl), Fin.ext (by show Int.toNat _ = _; rw [h.2]; rfl)⟩

/-- The scatter read at `(k, a)`: inside the window the update's entry, elsewhere the operand's. -/
theorem scatter_window_apply (wf) (x : (⟨2, ![m0, m1]⟩ : Shape).Idx → α) (idx : IVec ⟨1, ![2]⟩ w)
    (upd : (⟨2, ![n0, n1]⟩ : Shape).Idx → α) (o0 o1 : Nat) (h0 : (idx (ix1 0)).toInt = (o0 : Int))
    (h1 : (idx (ix1 1)).toInt = (o1 : Int)) (k : Fin m0) (a : Fin m1) :
    Host.scatter (winDims m0 m1 n0 n1 wf) (fun _ b => b) x idx upd (ix2 k a) =
      if h : (o0 ≤ k.val ∧ k.val < o0 + n0) ∧ (o1 ≤ a.val ∧ a.val < o1 + n1) then
        upd (ix2 (⟨k.val - o0, by omega⟩ : Fin n0) (⟨a.val - o1, by omega⟩ : Fin n1))
      else x (ix2 k a) := by
  split
  · rename_i h
    refine scatter_set_of_hit _ x idx upd _ _ ((winDims_resultIdx?_iff wf _ idx _).mpr ?_) ?_
    · rw [h0, h1]
      show ((o0 : Int) + ((k.val - o0 : Nat) : Int) = (k.val : Int)) ∧ ((o1 : Int) + ((a.val - o1 : Nat) : Int) = (a.val : Int))
      omega
    · intro j hj
      have hj' := (winDims_resultIdx?_iff wf j idx _).mp hj
      rw [h0, h1] at hj'
      have e0 : (o0 : Int) + ((j 0).val : Int) = (k.val : Int) := hj'.1
      have e1 : (o1 : Int) + ((j 1).val : Int) = (a.val : Int) := hj'.2
      have ea : j 0 = (⟨k.val - o0, by omega⟩ : Fin n0) := Fin.ext (by show (j 0).val = k.val - o0; omega)
      have eb : j 1 = (⟨a.val - o1, by omega⟩ : Fin n1) := Fin.ext (by show (j 1).val = a.val - o1; omega)
      rw [eq_ix2 j, ea, eb]
      rfl
  · rename_i h
    refine scatter_set_of_not_hit _ x idx upd _ fun j hj => h ?_
    have hj' := (winDims_resultIdx?_iff wf j idx _).mp hj
    rw [h0, h1] at hj'
    have e0 : (o0 : Int) + ((j 0).val : Int) = (k.val : Int) := hj'.1
    have e1 : (o1 : Int) + ((j 1).val : Int) = (a.val : Int) := hj'.2
    have := idx2_lt0 j
    have := idx2_lt1 j
    omega

end Window

/-! ## The 88 × 256 table

A table of zeros, then the 85 × 224 table written at `(0, 0)`, then the 3 × 32 table written at `(85, 224)`. -/

theorem v12_table (V : Valuation τ sig (Elt Ideal)) :
    Cert.Spec.IsTable (StableHlo.after hostOps1 V (Proc.devRef .tc main_v12)) (V (Proc.devRef .tc main_arg4))
      (V (Proc.devRef .tc main_arg5)) := by
  have e : (StableHlo.after hostOps1 V (Proc.devRef .tc main_v12) : S88x256.Idx → EReal) =
      Host.scatter scatter_S88x256_S2_S3x32_01_n_01_0 (fun _ b => b)
        (Host.scatter scatter_S88x256_S2_S85x224_01_n_01_0 (fun _ b => b)
          (broadcastInDim S88x256 ![] bcast_S_S88x256 (constant (F := Ideal) S_ .f32 0x00000000#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (V (Proc.devRef .tc main_arg4)))
        (concatenate S2 0 [⟨S1, broadcastInDim S1 ![] bcast_S_S1 (constantI S_ 32 85#32)⟩,
          ⟨S1, broadcastInDim S1 ![] bcast_S_S1 (constantI S_ 32 224#32)⟩] concatenates_S1_S1_S2_d0)
        (V (Proc.devRef .tc main_arg5)) := by
    after_results
  intro k a
  refine (congrFun e (ix2 k a)).trans ?_
  have d1 : scatter_S88x256_S2_S85x224_01_n_01_0 = winDims 88 256 85 224 scatter_S88x256_S2_S85x224_01_n_01_0_wf := rfl
  have d2 : scatter_S88x256_S2_S3x32_01_n_01_0 = winDims 88 256 3 32 scatter_S88x256_S2_S3x32_01_n_01_0_wf := rfl
  rw [d1, d2]
  have z : ∀ i : S88x256.Idx,
      broadcastInDim S88x256 ![] bcast_S_S88x256 (constant (F := Ideal) S_ .f32 0x00000000#32) i = (0 : EReal) :=
    fun _ => Ideal.ofBits_zero_f32
  rw [scatter_window_apply _ _ _ _ 85 224 rfl rfl k a]
  by_cases hk : k.val < 85
  · have c2 : ¬((85 ≤ k.val ∧ k.val < 85 + 3) ∧ (224 ≤ a.val ∧ a.val < 224 + 32)) := by omega
    rw [dif_neg c2, scatter_window_apply _ _ _ _ 0 0 rfl rfl k a]
    by_cases ha : a.val < 224
    · have c1 : (0 ≤ k.val ∧ k.val < 0 + 85) ∧ (0 ≤ a.val ∧ a.val < 0 + 224) := by omega
      rw [dif_pos c1]
      simp only [dif_pos hk, dif_pos ha]
      rfl
    · have c1 : ¬((0 ≤ k.val ∧ k.val < 0 + 85) ∧ (0 ≤ a.val ∧ a.val < 0 + 224)) := by omega
      rw [dif_neg c1, z]
      simp only [dif_pos hk, dif_neg ha]
  · by_cases ha : a.val < 224
    · have c2 : ¬((85 ≤ k.val ∧ k.val < 85 + 3) ∧ (224 ≤ a.val ∧ a.val < 224 + 32)) := by omega
      have c1 : ¬((0 ≤ k.val ∧ k.val < 0 + 85) ∧ (0 ≤ a.val ∧ a.val < 0 + 224)) := by omega
      rw [dif_neg c2, scatter_window_apply _ _ _ _ 0 0 rfl rfl k a, dif_neg c1, z]
      simp only [dif_neg hk, dif_pos ha]
    · have c2 : (85 ≤ k.val ∧ k.val < 85 + 3) ∧ (224 ≤ a.val ∧ a.val < 224 + 32) := by
        have := k.isLt; have := a.isLt; omega
      rw [dif_pos c2]
      simp only [dif_neg hk, dif_neg ha]

end Cert.KernelIdeal.Glue

end
-- ==== Proof.KValue.lean ====
/-
  The kernel program's two results, named. The run leaves every unscoped buffer at the last boundary's contents; the
  sixteen arguments are written by nothing, so they end as launched. The edge result is the edge region's final array,
  which is the edge branch of what the region finds in its arrays: the launched arrays, and the three bias rows, each a
  launched vector laid out as a row. The atom result is the atom region's final array, which — the two launched index
  vectors being in range — is the atom branch of what that region finds: the two index columns, each a launched vector
  laid out as a column, the 88 × 256 table made of the two launched tables, the launched weights and the two bias rows.
-/
import proofs.«171124_g13383118094390_cont_week2b_154_1_alg».proof.Proof.KRun
import proofs.«171124_g13383118094390_cont_week2b_154_1_alg».proof.Proof.EdgeFinal
import proofs.«171124_g13383118094390_cont_week2b_154_1_alg».proof.Proof.AtomFinal
import proofs.«171124_g13383118094390_cont_week2b_154_1_alg».proof.Proof.HostGlue
import proofs.«171124_g13383118094390_cont_week2b_154_1_alg».proof.Proof.Spec

noncomputable section

namespace Cert.KernelIdeal.Run

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The regions' inputs, read back to the launch memory -/

/-- A bias row of shape [1, n] made before the edge region, read along its row, is the launched vector. -/
theorem row0_v0 (c : Dev nD) : (fun i => V1 m c main_v0 (ix2 0 (i 0))) = m ((c.tc : Thread nD τ).loc main_arg11) := by
  funext i
  exact (Glue.v0_apply (W0 m c) (i 0)).trans (congrArg (m ((c.tc : Thread nD τ).loc main_arg11)) (eq_ix1 i).symm)
theorem row0_v1 (c : Dev nD) : (fun i => V1 m c main_v1 (ix2 0 (i 0))) = m ((c.tc : Thread nD τ).loc main_arg13) := by
  funext i
  exact (Glue.v1_apply (W0 m c) (i 0)).trans (congrArg (m ((c.tc : Thread nD τ).loc main_arg13)) (eq_ix1 i).symm)
theorem row0_v2 (c : Dev nD) : (fun i => V1 m c main_v2 (ix2 0 (i 0))) = m ((c.tc : Thread nD τ).loc main_arg15) := by
  funext i
  exact (Glue.v2_apply (W0 m c) (i 0)).trans (congrArg (m ((c.tc : Thread nD τ).loc main_arg15)) (eq_ix1 i).symm)

/-- An index column of shape [n, 1] made before the atom region, read down its column, is the launched index vector. -/
theorem col1_v13 (c : Dev nD) : (fun i => V3 m c main_v13 (ix2 (i 0) 0)) = m ((c.tc : Thread nD τ).loc main_arg0) := by
  funext i
  exact ((Glue.v13_apply (W2 m c) (i 0)).trans (congrFun (W2_launch m c main_arg0 (by decide) (by decide)) _)).trans
    (congrArg (m ((c.tc : Thread nD τ).loc main_arg0)) (eq_ix1 i).symm)
theorem col1_v14 (c : Dev nD) : (fun i => V3 m c main_v14 (ix2 (i 0) 0)) = m ((c.tc : Thread nD τ).loc main_arg3) := by
  funext i
  exact ((Glue.v14_apply (W2 m c) (i 0)).trans (congrFun (W2_launch m c main_arg3 (by decide) (by decide)) _)).trans
    (congrArg (m ((c.tc : Thread nD τ).loc main_arg3)) (eq_ix1 i).symm)
/-- A bias row made before the atom region likewise. -/
theorem row1_v15 (c : Dev nD) : (fun i => V3 m c main_v15 (ix2 0 (i 0))) = m ((c.tc : Thread nD τ).loc main_arg7) := by
  funext i
  exact ((Glue.v15_apply (W2 m c) (i 0)).trans (congrFun (W2_launch m c main_arg7 (by decide) (by decide)) _)).trans
    (congrArg (m ((c.tc : Thread nD τ).loc main_arg7)) (eq_ix1 i).symm)
theorem row1_v16 (c : Dev nD) : (fun i => V3 m c main_v16 (ix2 0 (i 0))) = m ((c.tc : Thread nD τ).loc main_arg9) := by
  funext i
  exact ((Glue.v16_apply (W2 m c) (i 0)).trans (congrFun (W2_launch m c main_arg9 (by decide) (by decide)) _)).trans
    (congrArg (m ((c.tc : Thread nD τ).loc main_arg9)) (eq_ix1 i).symm)

/-- The 88 × 256 table the atom region reads is the one made of the two launched tables. -/
theorem table_v12 (c : Dev nD) : Cert.Spec.IsTable (V3 m c main_v12) (m ((c.tc : Thread nD τ).loc main_arg4)) (m ((c.tc : Thread nD τ).loc main_arg5)) := by
  have h := Glue.v12_table (W2 m c)
  rw [W2_launch m c main_arg4 (by decide) (by decide), W2_launch m c main_arg5 (by decide) (by decide)] at h
  exact h

/-! ## The two results -/

/-- The edge branch takes equal arguments to equal results. -/
theorem edge_congr {rp rp' : Cert.Spec.Arr2 800000 3} {ea ea' : Cert.Spec.Arr2 800000 50} {W1 W1' : Cert.Spec.Arr2 3 64}
    {b1 b1' : Cert.Spec.Arr1 64} {W12 W12' : Cert.Spec.Arr2 50 64} {b12 b12' : Cert.Spec.Arr1 64}
    {W2 W2' : Cert.Spec.Arr2 128 128} {b2 b2' : Cert.Spec.Arr1 128}
    (h1 : rp = rp') (h2 : ea = ea') (h3 : W1 = W1') (h4 : b1 = b1') (h5 : W12 = W12') (h6 : b12 = b12') (h7 : W2 = W2') (h8 : b2 = b2') :
    Cert.Spec.edge rp ea W1 b1 W12 b12 W2 b2 = Cert.Spec.edge rp' ea' W1' b1' W12' b12' W2' b2' := by
  subst h1 h2 h3 h4 h5 h6 h7 h8; rfl

/-- The atom branch likewise, the two tables fixed. -/
theorem atom_congr {z z' tg tg' : Cert.Spec.Words 50000} (emb : Cert.Spec.Arr2 85 224) (tt : Cert.Spec.Arr2 3 32)
    {Wl Wl' : Cert.Spec.Arr2 256 256} {bl bl' : Cert.Spec.Arr1 256} {Wl2 Wl2' : Cert.Spec.Arr2 256 256} {bl2 bl2' : Cert.Spec.Arr1 256}
    (h1 : z = z') (h2 : tg = tg') (h3 : Wl = Wl') (h4 : bl = bl') (h5 : Wl2 = Wl2') (h6 : bl2 = bl2') :
    Cert.Spec.atom z tg emb tt Wl bl Wl2 bl2 = Cert.Spec.atom z' tg' emb tt Wl' bl' Wl2' bl2' := by
  subst h1 h2 h3 h4 h5 h6; rfl

/-- Being in range is a property of the index vectors' entries. -/
theorem inRange_congr {z z' tg tg' : Cert.Spec.Words 50000} (h1 : z = z') (h2 : tg = tg') (h : Cert.Spec.InRange z' tg') :
    Cert.Spec.InRange z tg := by
  subst h1 h2; exact h

/-- The edge region's final array is the edge branch of the launched arrays. -/
theorem edge_value (c : Dev nD) :
    (Edge.dat (V1 m) c).arrAt 8 cfg0.N
      = Cert.Spec.edge (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  exact (Edge.final (V1 m) c).trans (edge_congr (W1_keep m c main_arg1 (by decide)) (W1_keep m c main_arg2 (by decide))
    (W1_keep m c main_arg10 (by decide)) (row0_v0 m c) (W1_keep m c main_arg12 (by decide)) (row0_v1 m c)
    (W1_keep m c main_arg14 (by decide)) (row0_v2 m c))

/-- The atom region's final array is the atom branch of the launched arrays, the indices being in range. -/
theorem atom_value (c : Dev nD) (hr : Cert.Spec.InRange (m ((c.tc : Thread nD τ).loc main_arg0)) (m ((c.tc : Thread nD τ).loc main_arg3))) :
    (Atom.dat (V3 m) c).arrAt 7 cfg1.N
      = Cert.Spec.atom (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have hr' : Cert.Spec.InRange (fun i => V3 m c main_v13 (ix2 (i 0) 0)) (fun i => V3 m c main_v14 (ix2 (i 0) 0)) :=
    inRange_congr (col1_v13 m c) (col1_v14 m c) hr
  exact (Atom.final (V3 m) c _ _ (table_v12 m c) hr').trans (atom_congr _ _ (col1_v13 m c) (col1_v14 m c)
    (W3_launch m c main_arg6 (by decide) (by decide) (by decide)) (row1_v15 m c)
    (W3_launch m c main_arg8 (by decide) (by decide) (by decide)) (row1_v16 m c))

/-! ## The run -/

/-- For launch memories whose indices are in range: every weakly fair execution of @main terminates with the atom result
    and the edge result at the two branches of the launched arrays, and the sixteen arguments as launched. -/
theorem value_run (m : (ℓ : Loc nD τ sig) → Buf (Elt Ideal) ℓ) (ρ : Dev nD → PrngReg)
    (hr : ∀ c : Dev nD, Cert.Spec.InRange (m ((c.tc : Thread nD τ).loc main_arg0)) (m ((c.tc : Thread nD τ).loc main_arg3))) :
    θ_run defs (onTc (τ := τ) (main (F := Ideal))) ⟨m, fun _ => 0, ρ⟩ fun r => ∀ c : Dev nD,
      r.2.mem ((c.tc : Thread nD τ).loc main_v17) = Cert.Spec.atom (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v3) = Cert.Spec.edge (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c =>
    ⟨((h c _ (mem_uc main_v17 (by decide))).trans (W4_v17 m c)).trans (atom_value m c (hr c)),
      ((h c _ (mem_uc main_v3 (by decide))).trans (W4_v3 m c)).trans (edge_value m c),
      (h c _ (mem_uc main_arg0 (by decide))).trans (W4_launch m c main_arg0 (by decide) (by decide) (by decide) (by decide)),
      (h c _ (mem_uc main_arg1 (by decide))).trans (W4_launch m c main_arg1 (by decide) (by decide) (by decide) (by decide)),
      (h c _ (mem_uc main_arg2 (by decide))).trans (W4_launch m c main_arg2 (by decide) (by decide) (by decide) (by decide)),
      (h c _ (mem_uc main_arg3 (by decide))).trans (W4_launch m c main_arg3 (by decide) (by decide) (by decide) (by decide)),
      (h c _ (mem_uc main_arg4 (by decide))).trans (W4_launch m c main_arg4 (by decide) (by decide) (by decide) (by decide)),
      (h c _ (mem_uc main_arg5 (by decide))).trans (W4_launch m c main_arg5 (by decide) (by decide) (by decide) (by decide)),
      (h c _ (mem_uc main_arg6 (by decide))).trans (W4_launch m c main_arg6 (by decide) (by decide) (by decide) (by decide)),
      (h c _ (mem_uc main_arg7 (by decide))).trans (W4_launch m c main_arg7 (by decide) (by decide) (by decide) (by decide)),
      (h c _ (mem_uc main_arg8 (by decide))).trans (W4_launch m c main_arg8 (by decide) (by decide) (by decide) (by decide)),
      (h c _ (mem_uc main_arg9 (by decide))).trans (W4_launch m c main_arg9 (by decide) (by decide) (by decide) (by decide)),
      (h c _ (mem_uc main_arg10 (by decide))).trans (W4_launch m c main_arg10 (by decide) (by decide) (by decide) (by decide)),
      (h c _ (mem_uc main_arg11 (by decide))).trans (W4_launch m c main_arg11 (by decide) (by decide) (by decide) (by decide)),
      (h c _ (mem_uc main_arg12 (by decide))).trans (W4_launch m c main_arg12 (by decide) (by decide) (by decide) (by decide)),
      (h c _ (mem_uc main_arg13 (by decide))).trans (W4_launch m c main_arg13 (by decide) (by decide) (by decide) (by decide)),
      (h c _ (mem_uc main_arg14 (by decide))).trans (W4_launch m c main_arg14 (by decide) (by decide) (by decide) (by decide)),
      (h c _ (mem_uc main_arg15 (by decide))).trans (W4_launch m c main_arg15 (by decide) (by decide) (by decide) (by decide))⟩)
    (run m ρ Edge.rowLocal Atom.rowLocal)

end Cert.KernelIdeal.Run

end
-- ==== Proof.KbEdgeBody.lean ====
/-
  The edge kernel's body, run once on whole staging buffers (any float instance): it loads its two row blocks and six
  weight blocks, computes, and stores one block. What the result buffer then holds is named `edgeOut`: the one
  store's payload over the loaded values.
-/
import proofs.«171124_g13383118094390_cont_week2b_154_1_alg».proof.Proof.Gen.Kernel.Launch
import proofs.«171124_g13383118094390_cont_week2b_154_1_alg».proof.Proof.Gen.Kernel.Skeleton
import proofs.«171124_g13383118094390_cont_week2b_154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rRp : Rect S2048x3 := Rect.unit (s := S2048x3) ![0, 0] S2048x3.size inb_S2048x3_S2048x3_0_0
abbrev rEa : Rect S2048x50 := Rect.unit (s := S2048x50) ![0, 0] S2048x50.size inb_S2048x50_S2048x50_0_0
abbrev rW1 : Rect S3x64 := Rect.unit (s := S3x64) ![0, 0] S3x64.size inb_S3x64_S3x64_0_0
abbrev rB64 : Rect S1x64 := Rect.unit (s := S1x64) ![0, 0] S1x64.size inb_S1x64_S1x64_0_0
abbrev rW12 : Rect S50x64 := Rect.unit (s := S50x64) ![0, 0] S50x64.size inb_S50x64_S50x64_0_0
abbrev rW2top : Rect S128x128 := Rect.unit (s := S128x128) ![0, 0] S64x128.size inb_S128x128_S64x128_0_0
abbrev rW2bot : Rect S128x128 := Rect.unit (s := S128x128) ![64, 0] S64x128.size inb_S128x128_S64x128_64_0
abbrev rB128 : Rect S1x128 := Rect.unit (s := S1x128) ![0, 0] S1x128.size inb_S1x128_S1x128_0_0
abbrev rOut : Rect S2048x128 := Rect.unit (s := S2048x128) ![0, 0] S2048x128.size inb_S2048x128_S2048x128_0_0

/-- The block the body stores, from the eight blocks it loads. -/
def edgePay (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) : Vec F S2048x128 .f32 :=
  k0_pay1 (k0_pay2 (View.ld x1 rEa) (View.ld w12 rW12) (View.ld b12 rB64))
    (k0_pay3 (View.ld x0 rRp) (View.ld w1 rW1) (View.ld b1 rB64) (View.ld w2 rW2top))
    (View.ld w2 rW2bot) (constant S2048x128 .f32 0x00000000#32) (View.ld b2 rB128)

/-- The result buffer after the body: the one store, over the whole buffer. -/
def edgeOut (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) : Vec F S2048x128 .f32 :=
  View.canon [⟨rOut, edgePay x0 x1 w1 b1 w12 b12 w2 b2⟩]

theorem coverOut (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

set_option maxHeartbeats 1000000 in
/-- The body on whole staging buffers: the eight inputs' buffers keep what they hold, the result's ends at `edgeOut`. -/
theorem sound_kernel (c : Dev nD) (E : Set ℕ) (i : grid0.Coords)
    (arg1 : Memref sig .tc .vmem S2048x3 .f32) (harg1 : arg1.IsWhole) (arg2 : Memref sig .tc .vmem S2048x50 .f32) (harg2 : arg2.IsWhole)
    (arg3 : Memref sig .tc .vmem S3x64 .f32) (harg3 : arg3.IsWhole) (arg4 : Memref sig .tc .vmem S1x64 .f32) (harg4 : arg4.IsWhole)
    (arg5 : Memref sig .tc .vmem S50x64 .f32) (harg5 : arg5.IsWhole) (arg6 : Memref sig .tc .vmem S1x64 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S2048x128 .f32) (harg9 : arg9.IsWhole)
    (x0 : Vec F S2048x3 .f32) (x1 : Vec F S2048x50 .f32) (w1 : Vec F S3x64 .f32) (b1 : Vec F S1x64 .f32)
    (w12 : Vec F S50x64 .f32) (b12 : Vec F S1x64 .f32) (w2 : Vec F S128x128 .f32) (b2 : Vec F S1x128 .f32) (K : PUnit → sProp 𝕄) :
    iprop(owns (c : Thread nD τ) arg1 fullShare x0 ∗ owns (c : Thread nD τ) arg2 fullShare x1 ∗ owns (c : Thread nD τ) arg3 fullShare w1
        ∗ owns (c : Thread nD τ) arg4 fullShare b1 ∗ owns (c : Thread nD τ) arg5 fullShare w12 ∗ owns (c : Thread nD τ) arg6 fullShare b12
        ∗ owns (c : Thread nD τ) arg7 fullShare w2 ∗ owns (c : Thread nD τ) arg8 fullShare b2 ∗ (∃ d, owns (c : Thread nD τ) arg9 fullShare d)
        ∗ (iprop(owns (c : Thread nD τ) arg1 fullShare x0 ∗ owns (c : Thread nD τ) arg2 fullShare x1 ∗ owns (c : Thread nD τ) arg3 fullShare w1
            ∗ owns (c : Thread nD τ) arg4 fullShare b1 ∗ owns (c : Thread nD τ) arg5 fullShare w12 ∗ owns (c : Thread nD τ) arg6 fullShare b12
            ∗ owns (c : Thread nD τ) arg7 fullShare w2 ∗ owns (c : Thread nD τ) arg8 fullShare b2
            ∗ owns (c : Thread nD τ) arg9 fullShare (edgeOut x0 x1 w1 b1 w12 b12 w2 b2)) -∗ K ⟨⟩))
      ⊢ wp frame (wpE (defs₀ (F := F)) Variants.none c none) E
          (cc0__edge_body i arg1 harg1 arg2 harg2 arg3 harg3 arg4 harg4 arg5 harg5 arg6 harg6 arg7 harg7 arg8 harg8 arg9 harg9) K := by
  simp only [cc0__edge_body_eq_skeleton]; unfold cc0__edge_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (coverOut _)

end Cert.Kernel.Edge

end
-- ==== Proof.KbEdgeRegion.lean ====
/-
  The edge kernel as a pipeline region (any float instance), at the contents `V` the region finds in the core's buffers.
  The two row windows and the result window overhang their arrays at the last grid point, so a fetched buffer holds its
  block on the rows inside the array and words nobody names below them, and the obligation describes each of those three
  buffers on the rows inside the array only. The proof data name, per point, the row blocks filled out with zeros and the
  result of the body on them; that the result's rows inside the array do not depend on the filler is the hypothesis
  `RowLocal`, which holds where a matrix product's row depends on the same row of its left operand only.
-/
import proofs.«171124_g13383118094390_cont_week2b_154_1_alg».proof.Proof.KbEdgeBody
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The position rows at point `t`, filled out with zeros below the array's end. -/
def rpBlk (c : Dev nD) (t : Fin cfg0.N) : Vec F S2048x3 .f32 :=
  win0_0.fill (grid0.coords t) (fun _ => Scalar.ofBits .f32 0#32) (iblk V c 0 t)
/-- The attribute rows at point `t`, likewise. -/
def eaBlk (c : Dev nD) (t : Fin cfg0.N) : Vec F S2048x50 .f32 :=
  win0_1.fill (grid0.coords t) (fun _ => Scalar.ofBits .f32 0#32) (iblk V c 1 t)

/-- The result block at point `t`: the body on the zero-filled row blocks and the six weight blocks. -/
def outBlk (c : Dev nD) (t : Fin cfg0.N) : Vec F S2048x128 .f32 :=
  edgeOut (rpBlk V c t) (eaBlk V c t) (iblk V c 2 t) (iblk V c 3 t) (iblk V c 4 t) (iblk V c 5 t) (iblk V c 6 t) (iblk V c 7 t)

/-- The proof data: the arrays as the region finds them; after the body each input's buffer at its block (the row
    blocks zero-filled) and the result's at `outBlk`; the scoped rest and the generator register ride along. -/
def dat (c : Dev nD) : Dat τ (Elt F) Unit ℕ (UR sig nD τ) ℕ cfg0 c where
  A w := V c (Pipeline.arrRef spec0 w)
  after w t := match w with
    | ⟨0, _⟩ => rpBlk V c t
    | ⟨1, _⟩ => eaBlk V c t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => outBlk V c t
  Φ _ := Pipeline.ΦA spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = rpBlk V c t := by dsimp only [dat]
theorem after_1 (c : Dev nD) (t : Fin cfg0.N) : (dat V c).after 1 t = eaBlk V c t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = outBlk V c t := by dsimp only [dat]

/-! ## What the body finds in each input's buffer -/

/-- The row windows are fetched at every point: the buffer holds the block on the rows inside the array, `d` below. -/
theorem before_0 (c : Dev nD) (t : Fin cfg0.N) (d) :
    (dat V c).before 0 t d = win0_0.fill (grid0.coords t) d (iblk V c 0 t) := by
  unfold Dat.before; rw [if_pos (fetch0_0 t)]; rfl
theorem before_1 (c : Dev nD) (t : Fin cfg0.N) (d) :
    (dat V c).before 1 t d = win0_1.fill (grid0.coords t) d (iblk V c 1 t) := by
  unfold Dat.before; rw [if_pos (fetch0_1 t)]; rfl

/-- A weight window is fetched once and its block index never moves: its buffer holds the block at every point. -/
theorem before_in (w : Fin cfg0.W) (hw : (cfg0.win w).isOut = false) (hclip : ∀ t t' : Fin cfg0.N, (cfg0.win w).index t = (cfg0.win w).index t' →
      (cfg0.win w).clip (cfg0.grid.coords t) = (cfg0.win w).clip (cfg0.grid.coords t'))
    (c : Dev nD) (hafter : ∀ t, (cfg0.win w).cut (cfg0.grid.coords t) ((dat V c).after w t) = (dat V c).blockOf w t) (t : Fin cfg0.N) (d) :
    (dat V c).before w t d = (dat V c).fetched w t d :=
  (dat V c).before_in_eq_fetched w hw (fun _ => rfl) hclip hafter t d

theorem before_2 (c : Dev nD) (t : Fin cfg0.N) (d) : (dat V c).before 2 t d = iblk V c 2 t :=
  (before_in V 2 rfl (fun _ _ _ => rfl) c (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  (before_in V 3 rfl (fun _ _ _ => rfl) c (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  (before_in V 4 rfl (fun _ _ _ => rfl) c (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  (before_in V 5 rfl (fun _ _ _ => rfl) c (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  (before_in V 6 rfl (fun _ _ _ => rfl) c (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  (before_in V 7 rfl (fun _ _ _ => rfl) c (fun t => by rw [after_7]; unfold Dat.blockOf iblk; rw [A_eq]; try rfl) t d).trans
    (by unfold Dat.fetched Dat.blockOf iblk; rw [A_eq]; try rfl)

/-! ## The body obligation -/

/-- The rows of the result inside the array do not depend on what fills the row blocks below the array's end. -/
def RowLocal : Prop :=
  ∀ (t : Fin cfg0.N) (d0 d0' : Vec F S2048x3 .f32) (d1 d1' : Vec F S2048x50 .f32)
    (x0 : (win0_0.xblock (grid0.coords t)).Idx → Elt F .f32) (x1 : (win0_1.xblock (grid0.coords t)).Idx → Elt F .f32)
    (w1 : Vec F S3x64 .f32) (b1 : Vec F S1x64 .f32) (w12 : Vec F S50x64 .f32) (b12 : Vec F S1x64 .f32) (w2 : Vec F S128x128 .f32) (b2 : Vec F S1x128 .f32),
    win0_8.cut (grid0.coords t) (edgeOut (win0_0.fill (grid0.coords t) d0 x0) (win0_1.fill (grid0.coords t) d1 x1) w1 b1 w12 b12 w2 b2)
      = win0_8.cut (grid0.coords t) (edgeOut (win0_0.fill (grid0.coords t) d0' x0) (win0_1.fill (grid0.coords t) d1' x1) w1 b1 w12 b12 w2 b2)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- What it returns: the three overhanging windows' buffers stated on the rows inside the array. -/
def bodyPost (c : Dev nD) (t : Fin cfg0.N) : sProp 𝕄 :=
  iprop((dat V c).Φ t.succ ∗ (dat V c).owesAt () t.succ
    ∗ (∃ d, owns (c : Thread nD τ) (st0_0 t) fullShare (win0_0.fill (grid0.coords t) d (win0_0.cut (grid0.coords t) ((dat V c).after 0 t))))
    ∗ (∃ d, owns (c : Thread nD τ) (st0_1 t) fullShare (win0_1.fill (grid0.coords t) d (win0_1.cut (grid0.coords t) ((dat V c).after 1 t))))
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ (∃ d, owns (c : Thread nD τ) (st0_8 t) fullShare (win0_8.fill (grid0.coords t) d (win0_8.cut (grid0.coords t) ((dat V c).after 8 t)))))

/-- The body at any point: each input's buffer holds its block (the row blocks with whatever lies below the array's
    end), the body leaves them and stores the result; on the rows inside the array that is `outBlk`'s (`RowLocal`). -/
theorem sound_body (hloc : RowLocal (F := F)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _
    (win0_0.fill (grid0.coords t) d0 (iblk V c 0 t)) (win0_1.fill (grid0.coords t) d1 (iblk V c 1 t))
    (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0; unfold rpBlk; rw [Window.cut_fill]; iexact H0
  isplitl [H1]
  · iexists d1; unfold eaBlk; rw [Window.cut_fill]; iexact H1
  isplitl [H2]; · iexact H2
  isplitl [H3]; · iexact H3
  isplitl [H4]; · iexact H4
  isplitl [H5]; · iexact H5
  isplitl [H6]; · iexact H6
  isplitl [H7]; · iexact H7
  iexists _
  unfold outBlk rpBlk eaBlk
  rw [win0_8.fill_congr_cut (grid0.coords t) (hloc t d0 _ d1 _ (iblk V c 0 t) (iblk V c 1 t) (iblk V c 2 t) (iblk V c 3 t) (iblk V c 4 t) (iblk V c 5 t) (iblk V c 6 t) (iblk V c 7 t))]
  iexact H8

/-- The library's body obligation at every point. -/
theorem body_obligation (hloc : RowLocal (F := F)) (c : Dev nD) :
    BodyObligationLoose (dat (F := F) V c) (defs₀ (F := F)) Variants.none () Set.univ := fun t => by
  rw [bigSep_W0, bigSep_W0]
  exact sound_body V hloc c t

end Cert.Kernel.Edge

end
-- ==== Proof.KbEdgeForget.lean ====
/-
  The edge kernel's body obligation with the result window forgotten: the result's staging buffer is handed to the body
  at contents nothing names and taken back at contents nothing names, so nothing is asked of how the result's rows depend
  on what lies below the array's end in the row blocks. The other eight windows are stated exactly as in the region's
  own obligation; the body is the same.
-/
import proofs.«171124_g13383118094390_cont_week2b_154_1_alg».proof.Proof.KbEdgeRegion
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows forgotten: the result's, window 8. -/
abbrev fgt : Fin cfg0.W → Bool := fun w => w.val == 8

/-- What the body is called with at point `t`: the inputs' buffers as fetched, the result's at any contents. -/
def bodyPreF (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ X, owns (c : Thread nD τ) (st0_8 t) fullShare X))

/-- What it returns: the two overhanging inputs' buffers stated on the rows inside the array, the other inputs' at their
    blocks, the result's at any contents. -/
def bodyPostF (c : Dev nD) (t : Fin cfg0.N) : sProp 𝕄 :=
  iprop((dat V c).Φ t.succ ∗ (dat V c).owesAt () t.succ
    ∗ (∃ d, owns (c : Thread nD τ) (st0_0 t) fullShare (win0_0.fill (grid0.coords t) d (win0_0.cut (grid0.coords t) ((dat V c).after 0 t))))
    ∗ (∃ d, owns (c : Thread nD τ) (st0_1 t) fullShare (win0_1.fill (grid0.coords t) d (win0_1.cut (grid0.coords t) ((dat V c).after 1 t))))
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ (∃ X, owns (c : Thread nD τ) (st0_8 t) fullShare X))

/-- The body at any point: each input's buffer holds its block (the row blocks with whatever lies below the array's
    end), the body leaves them and stores a result. -/
theorem sound_body_fgt (c : Dev nD) (t : Fin cfg0.N) :
    bodyPreF V c t ⊢ wp frame (wpE (defs₀ (F := F)) Variants.none c none) Set.univ (bodyAt0 t) (fun _ => bodyPostF V c t) := by
  unfold bodyPreF bodyPostF bodyAt0
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩
  iapply (sound_kernel c Set.univ _ _ _ _ _ _ _ _ _ _ _ _ _ _ _ _ _ _ _
    (win0_0.fill (grid0.coords t) d0 (iblk V c 0 t)) (win0_1.fill (grid0.coords t) d1 (iblk V c 1 t))
    (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists X; iexact H8
  iintro ⟨H0, H1, H2, H3, H4, H5, H6, H7, H8⟩
  isplitl [HΦ]; · iexact HΦ
  isplitl [Ho]; · iexact Ho
  isplitl [H0]
  · iexists d0; unfold rpBlk; rw [Window.cut_fill]; iexact H0
  isplitl [H1]
  · iexists d1; unfold eaBlk; rw [Window.cut_fill]; iexact H1
  isplitl [H2]; · iexact H2
  isplitl [H3]; · iexact H3
  isplitl [H4]; · iexact H4
  isplitl [H5]; · iexact H5
  isplitl [H6]; · iexact H6
  isplitl [H7]; · iexact H7
  iexists _
  iexact H8

/-- The library's body obligation at every point, the result window forgotten. -/
theorem body_obligation_fgt (c : Dev nD) :
    BodyObligationLoose (dat (F := F) V c) (defs₀ (F := F)) Variants.none () Set.univ fgt := fun t => by
  rw [bigSep_W0, bigSep_W0]
  exact sound_body_fgt V c t

/-- The same of the proof data read as relations with the result window forgotten. -/
theorem body_obligationR (c : Dev nD) :
    ((dat (F := F) V c).toRForget fgt).BodyObligation (defs₀ (F := F)) Variants.none () Set.univ :=
  (body_obligation_fgt V c).toRForget

end Cert.Kernel.Edge

end
-- ==== Proof.KbAtomBody.lean ====
/-
  The atom kernel's body, run once on whole staging buffers (any float instance): it loads its two index columns, the
  88-row table, two weight matrices and two bias rows, computes, and stores one block. What the result buffer then
  holds is named `atomOut`: the one store's payload over the loaded values.
-/
import proofs.«171124_g13383118094390_cont_week2b_154_1_alg».proof.Proof.Gen.Kernel.Launch
import proofs.«171124_g13383118094390_cont_week2b_154_1_alg».proof.Proof.Gen.Kernel.Skeleton
import proofs.«171124_g13383118094390_cont_week2b_154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Atom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rIdx : Rect S2048x1 := Rect.unit (s := S2048x1) ![0, 0] S2048x1.size inb_S2048x1_S2048x1_0_0
abbrev rTbl : Rect S88x256 := Rect.unit (s := S88x256) ![0, 0] S88x256.size inb_S88x256_S88x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rOut : Rect S2048x256 := Rect.unit (s := S2048x256) ![0, 0] S2048x256.size inb_S2048x256_S2048x256_0_0

/-- The block the body stores, from the seven blocks it loads. -/
def atomPay (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) : Vec F S2048x256 .f32 :=
  k1_pay1 (k1_pay2 (View.ld z0 rIdx) (View.ld t0 rIdx) (View.ld tbl rTbl) (View.ld wl rW) (View.ld bl rB) (View.ld wl2 rW) (View.ld bl2 rB))
    (Scalar.ofBits .f32 0x00000000#32)

/-- The result buffer after the body: the one store, over the whole buffer. -/
def atomOut (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) : Vec F S2048x256 .f32 :=
  View.canon [⟨rOut, atomPay z0 t0 tbl wl bl wl2 bl2⟩]

theorem coverOut (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

set_option maxHeartbeats 1000000 in
/-- The body on whole staging buffers: the seven inputs' buffers keep what they hold, the result's ends at `atomOut`. -/
theorem sound_kernel (c : Dev nD) (E : Set ℕ) (i : grid1.Coords)
    (arg1 : Memref sig .tc .vmem S2048x1 .i32) (harg1 : arg1.IsWhole) (arg2 : Memref sig .tc .vmem S2048x1 .i32) (harg2 : arg2.IsWhole)
    (arg3 : Memref sig .tc .vmem S88x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S2048x256 .f32) (harg8 : arg8.IsWhole)
    (z0 : Vec F S2048x1 .i32) (t0 : Vec F S2048x1 .i32) (tbl : Vec F S88x256 .f32) (wl : Vec F S256x256 .f32)
    (bl : Vec F S1x256 .f32) (wl2 : Vec F S256x256 .f32) (bl2 : Vec F S1x256 .f32) (K : PUnit → sProp 𝕄) :
    iprop(owns (c : Thread nD τ) arg1 fullShare z0 ∗ owns (c : Thread nD τ) arg2 fullShare t0 ∗ owns (c : Thread nD τ) arg3 fullShare tbl
        ∗ owns (c : Thread nD τ) arg4 fullShare wl ∗ owns (c : Thread nD τ) arg5 fullShare bl ∗ owns (c : Thread nD τ) arg6 fullShare wl2
        ∗ owns (c : Thread nD τ) arg7 fullShare bl2 ∗ (∃ d, owns (c : Thread nD τ) arg8 fullShare d)
        ∗ (iprop(owns (c : Thread nD τ) arg1 fullShare z0 ∗ owns (c : Thread nD τ) arg2 fullShare t0 ∗ owns (c : Thread nD τ) arg3 fullShare tbl
            ∗ owns (c : Thread nD τ) arg4 fullShare wl ∗ owns (c : Thread nD τ) arg5 fullShare bl ∗ owns (c : Thread nD τ) arg6 fullShare wl2
            ∗ owns (c : Thread nD τ) arg7 fullShare bl2
            ∗ owns (c : Thread nD τ) arg8 fullShare (atomOut z0 t0 tbl wl bl wl2 bl2)) -∗ K ⟨⟩))
      ⊢ wp frame (wpE (defs₀ (F := F)) Variants.none c none) E
          (cc1__atom_body i arg1 harg1 arg2 harg2 arg3 harg3 arg4 harg4 arg5 harg5 arg6 harg6 arg7 harg7 arg8 harg8) K := by
  simp only [cc1__atom_body_eq_skeleton]; unfold cc1__atom_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (coverOut _)

end Cert.Kernel.Atom

end
-- ==== Proof.KbAtomRegion.lean ====
/-
  The atom kernel as a pipeline region (any float instance), at the contents `V` the region finds in the core's buffers.
  The two index-column windows and the result window overhang their arrays at the last grid point, so a fetched buffer
  holds its block on the rows inside the array and words nobody names below them, and the obligation describes each of
  those three buffers on the rows inside the array only. The proof data name, per point, the index columns filled out
  with zero words and the result of the body on them; that the result's rows inside the array do not depend on the filler
  is the hypothesis `RowLocal`, which holds where a matrix product's row depends on the same row of its left operand only.
-/
import proofs.«171124_g13383118094390_cont_week2b_154_1_alg».proof.Proof.KbAtomBody
set_option maxRecDepth 16384

noncomputable section

namespace Cert.Kernel.Atom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it: the part inside the array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first index column at point `t`, filled out with zero words below the array's end. -/
def zBlk (c : Dev nD) (t : Fin cfg1.N) : Vec F S2048x1 .i32 :=
  win1_0.fill (grid1.coords t) (fun _ => (0#32 : BitVec 32)) (iblk V c 0 t)
/-- The second index column at point `t`, likewise. -/
def tBlk (c : Dev nD) (t : Fin cfg1.N) : Vec F S2048x1 .i32 :=
  win1_1.fill (grid1.coords t) (fun _ => (0#32 : BitVec 32)) (iblk V c 1 t)

/-- The result block at point `t`: the body on the zero-filled index columns, the table and the four weight blocks. -/
def outBlk (c : Dev nD) (t : Fin cfg1.N) : Vec F S2048x256 .f32 :=
  atomOut (zBlk V c t) (tBlk V c t) (iblk V c 2 t) (iblk V c 3 t) (iblk V c 4 t) (iblk V c 5 t) (iblk V c 6 t)

/-- The proof data: the arrays as the region finds them; after the body each input's buffer at its block (the index
    columns zero-filled) and the result's at `outBlk`; the scoped rest and the generator register ride along. -/
def dat (c : Dev nD) : Dat τ (Elt F) Unit ℕ (UR sig nD τ) ℕ cfg1 c where
  A w := V c (Pipeline.arrRef spec1 w)
  after w t := match w with
    | ⟨0, _⟩ => zBlk V c t
    | ⟨1, _⟩ => tBlk V c t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk V c t
  Φ _ := Pipeline.ΦA spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = zBlk V c t := by dsimp only [dat]
theorem after_1 (c : Dev nD) (t : Fin cfg1.N) : (dat V c).after 1 t = tBlk V c t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = outBlk V c t := by dsimp only [dat]

/-! ## What the body finds in each input's buffer -/

/-- The index windows are fetched at every point: the buffer holds the block on the rows inside the array, `d` below. -/
theorem before_0 (c : Dev nD) (t : Fin cfg1.N) (d) :
    (dat V c).before 0 t d = win1_0.fill (grid1.coords t) d (iblk V c 0 t) := by
  unfold Dat.before; rw [if_pos (fetch1_0 t)]; rfl
theorem before_1 (c : Dev nD) (t : Fin cfg1.N) (d) :
    (dat V c).before 1 t d = win1_1.fill (grid1.coords t) d (iblk V c 1 t) := by
  unfold Dat.before; rw [if_pos (fetch1_1 t)]; rfl

/-- A weight window is fetched once and its block index never moves: its buffer holds the block at every point. -/
theorem before_in (w : Fin cfg1.W) (hw : (cfg1.win w).isOut = false) (hclip : ∀ t t' : Fin cfg1.N, (cfg1.win w).index t = (cfg1.win w).index t' →
      (cfg1.win w).clip (cfg1.grid.coords t) = (cfg1.win w).clip (cfg1.grid.coords t'))
    (c : Dev nD) (hafter : ∀ t, (cfg1.win w).cut (cfg1.grid.coords t) ((dat V c).after w t) = (dat V c).blockOf w t) (t : Fin cfg1.N) (d) :
    (dat V c).before w t d = (dat V c).fetched w t d :=
  (dat V c).before_in_eq_fetched w hw (fun _ => rfl) hclip hafter t d

theorem before_2 (c : Dev nD) (t : Fin cfg1.N) (d) : (dat V c).before 2 t d = iblk V c 2 t :=
  (before_in V 2 rfl (fun _ _ _ => rfl) c (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  (before_in V 3 rfl (fun _ _ _ => rfl) c (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  (before_in V 4 rfl (fun _ _ _ => rfl) c (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  (before_in V 5 rfl (fun _ _ _ => rfl) c (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  (before_in V 6 rfl (fun _ _ _ => rfl) c (fun t => by rw [after_6]; unfold Dat.blockOf iblk; rw [A_eq]; try rfl) t d).trans
    (by unfold Dat.fetched Dat.blockOf iblk; rw [A_eq]; try rfl)

/-! ## The body obligation -/

/-- The rows of the result inside the array do not depend on what fills the index columns below the array's end. -/
def RowLocal : Prop :=
  ∀ (t : Fin cfg1.N) (d0 d0' : Vec F S2048x1 .i32) (d1 d1' : Vec F S2048x1 .i32)
    (x0 : (win1_0.xblock (grid1.coords t)).Idx → Elt F .i32) (x1 : (win1_1.xblock (grid1.coords t)).Idx → Elt F .i32)
    (tbl : Vec F S88x256 .f32) (wl : Vec F S256x256 .f32) (bl : Vec F S1x256 .f32) (wl2 : Vec F S256x256 .f32) (bl2 : Vec F S1x256 .f32),
    win1_7.cut (grid1.coords t) (atomOut (win1_0.fill (grid1.coords t) d0 x0) (win1_1.fill (grid1.coords t) d1 x1) tbl wl bl wl2 bl2)
      = win1_7.cut (grid1.coords t) (atomOut (win1_0.fill (grid1.coords t) d0' x0) (win1_1.fill (grid1.coords t) d1' x1) tbl wl bl wl2 bl2)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- What it returns: the three overhanging windows' buffers stated on the rows inside the array. -/
def bodyPost (c : Dev nD) (t : Fin cfg1.N) : sProp 𝕄 :=
  iprop((dat V c).Φ t.succ ∗ (dat V c).owesAt () t.succ
    ∗ (∃ d, owns (c : Thread nD τ) (st1_0 t) fullShare (win1_0.fill (grid1.coords t) d (win1_0.cut (grid1.coords t) ((dat V c).after 0 t))))
    ∗ (∃ d, owns (c : Thread nD τ) (st1_1 t) fullShare (win1_1.fill (grid1.coords t) d (win1_1.cut (grid1.coords t) ((dat V c).after 1 t))))
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ (∃ d, owns (c : Thread nD τ) (st1_7 t) fullShare (win1_7.fill (grid1.coords t) d (win1_7.cut (grid1.coords t) ((dat V c).after 7 t)))))

/-- The body at any point: each input's buffer holds its block (the index columns with whatever lies below the array's
    end), the body leaves them and stores the result; on the rows inside the array that is `outBlk`'s (`RowLocal`). -/
theorem sound_body (hloc : RowLocal (F := F)) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (win1_0.fill (grid1.coords t) d0 (iblk V c 0 t)) (win1_1.fill (grid1.coords t) d1 (iblk V c 1 t))
    (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0; unfold zBlk; rw [Window.cut_fill]; iexact H0
  isplitl [H1]
  · iexists d1; unfold tBlk; rw [Window.cut_fill]; iexact H1
  isplitl [H2]; · iexact H2
  isplitl [H3]; · iexact H3
  isplitl [H4]; · iexact H4
  isplitl [H5]; · iexact H5
  isplitl [H6]; · iexact H6
  iexists _
  unfold outBlk zBlk tBlk
  rw [win1_7.fill_congr_cut (grid1.coords t) (hloc t d0 _ d1 _ (iblk V c 0 t) (iblk V c 1 t) (iblk V c 2 t) (iblk V c 3 t) (iblk V c 4 t) (iblk V c 5 t) (iblk V c 6 t))]
  iexact H7

/-- The library's body obligation at every point. -/
theorem body_obligation (hloc : RowLocal (F := F)) (c : Dev nD) :
    BodyObligationLoose (dat (F := F) V c) (defs₀ (F := F)) Variants.none () Set.univ := fun t => by
  rw [bigSep_W1, bigSep_W1]
  exact sound_body V hloc c t

end Cert.Kernel.Atom

end
-- ==== Proof.KbAtomForget.lean ====
/-
  The atom kernel's body obligation with the result window forgotten: the result's staging buffer is handed to the body
  at contents nothing names and taken back at contents nothing names, so nothing is asked of how the result's rows depend
  on what lies below the array's end in the index columns. The other seven windows are stated exactly as in the region's
  own obligation; the body is the same.
-/
import proofs.«171124_g13383118094390_cont_week2b_154_1_alg».proof.Proof.KbAtomRegion
set_option maxRecDepth 16384

noncomputable section

namespace Cert.Kernel.Atom

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows forgotten: the result's, window 7. -/
abbrev fgt : Fin cfg1.W → Bool := fun w => w.val == 7

/-- What the body is called with at point `t`: the inputs' buffers as fetched, the result's at any contents. -/
def bodyPreF (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ X, owns (c : Thread nD τ) (st1_7 t) fullShare X))

/-- What it returns: the two overhanging inputs' buffers stated on the rows inside the array, the other inputs' at their
    blocks, the result's at any contents. -/
def bodyPostF (c : Dev nD) (t : Fin cfg1.N) : sProp 𝕄 :=
  iprop((dat V c).Φ t.succ ∗ (dat V c).owesAt () t.succ
    ∗ (∃ d, owns (c : Thread nD τ) (st1_0 t) fullShare (win1_0.fill (grid1.coords t) d (win1_0.cut (grid1.coords t) ((dat V c).after 0 t))))
    ∗ (∃ d, owns (c : Thread nD τ) (st1_1 t) fullShare (win1_1.fill (grid1.coords t) d (win1_1.cut (grid1.coords t) ((dat V c).after 1 t))))
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ (∃ X, owns (c : Thread nD τ) (st1_7 t) fullShare X))

/-- The body at any point: each input's buffer holds its block (the index columns with whatever lies below the array's
    end), the body leaves them and stores a result. -/
theorem sound_body_fgt (c : Dev nD) (t : Fin cfg1.N) :
    bodyPreF V c t ⊢ wp frame (wpE (defs₀ (F := F)) Variants.none c none) Set.univ (bodyAt1 t) (fun _ => bodyPostF V c t) := by
  unfold bodyPreF bodyPostF bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%X, H7⟩⟩
  iapply (sound_kernel c Set.univ _ _ _ _ _ _ _ _ _ _ _ _ _ _ _ _ _
    (win1_0.fill (grid1.coords t) d0 (iblk V c 0 t)) (win1_1.fill (grid1.coords t) d1 (iblk V c 1 t))
    (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists X; iexact H7
  iintro ⟨H0, H1, H2, H3, H4, H5, H6, H7⟩
  isplitl [HΦ]; · iexact HΦ
  isplitl [Ho]; · iexact Ho
  isplitl [H0]
  · iexists d0; unfold zBlk; rw [Window.cut_fill]; iexact H0
  isplitl [H1]
  · iexists d1; unfold tBlk; rw [Window.cut_fill]; iexact H1
  isplitl [H2]; · iexact H2
  isplitl [H3]; · iexact H3
  isplitl [H4]; · iexact H4
  isplitl [H5]; · iexact H5
  isplitl [H6]; · iexact H6
  iexists _
  iexact H7

/-- The library's body obligation at every point, the result window forgotten. -/
theorem body_obligation_fgt (c : Dev nD) :
    BodyObligationLoose (dat (F := F) V c) (defs₀ (F := F)) Variants.none () Set.univ fgt := fun t => by
  rw [bigSep_W1, bigSep_W1]
  exact sound_body_fgt V c t

/-- The same of the proof data read as relations with the result window forgotten. -/
theorem body_obligationR (c : Dev nD) :
    ((dat (F := F) V c).toRForget fgt).BodyObligation (defs₀ (F := F)) Variants.none () Set.univ :=
  (body_obligation_fgt V c).toRForget

end Cert.Kernel.Atom

end
-- ==== Proof.KbHostGlue2.lean ====
/-
  The arrays the second region starts from do not depend on what the first region left in its result array.

  Between the two regions eighteen operations run. They read six argument arrays and constants and write a constant, the
  88 × 256 table with its intermediate values, and four reshaped vectors; none reads the first region's result array.
  Of the second region's eight arrays, two are argument arrays no operation writes and one is its own result array,
  which no operation writes either: each holds what it held before. The other five are each a fixed term of argument
  arrays: a reshape of one vector, or the table of zeros with two argument tables written into it. So two starting
  states that agree everywhere but on the first region's result array give the same eight arrays.
-/
import proofs.«171124_g13383118094390_cont_week2b_154_1_alg».proof.Proof.Gen.Kernel.Regions
import Idealize.ShloMosaic.Lib.StableHlo.Run

noncomputable section

namespace Cert.Kernel.Glue

open Idealize.ShloMosaic
open Cert.Kernel Cert.Kernel.Gen

variable {F : FTy → Type} [FloatOps F]

/-! ## The five written arrays as terms of argument arrays -/

theorem v13_term (V : Valuation τ sig (Elt F)) :
    (StableHlo.after hostOps1 V (Proc.devRef .tc main_v13) : S50000x1.Idx → Elt F .i32)
      = shapeCast S50000x1 (V (Proc.devRef .tc main_arg0)) shapeCasts_S50000_S50000x1 := by
  after_results; rfl

theorem v14_term (V : Valuation τ sig (Elt F)) :
    (StableHlo.after hostOps1 V (Proc.devRef .tc main_v14) : S50000x1.Idx → Elt F .i32)
      = shapeCast S50000x1 (V (Proc.devRef .tc main_arg3)) shapeCasts_S50000_S50000x1 := by
  after_results; rfl

theorem v15_term (V : Valuation τ sig (Elt F)) :
    (StableHlo.after hostOps1 V (Proc.devRef .tc main_v15) : S1x256.Idx → Elt F .f32)
      = shapeCast S1x256 (V (Proc.devRef .tc main_arg7)) shapeCasts_S256_S1x256 := by
  after_results; rfl

theorem v16_term (V : Valuation τ sig (Elt F)) :
    (StableHlo.after hostOps1 V (Proc.devRef .tc main_v16) : S1x256.Idx → Elt F .f32)
      = shapeCast S1x256 (V (Proc.devRef .tc main_arg9)) shapeCasts_S256_S1x256 := by
  after_results; rfl

/-- The table: zeros, then the 85 × 224 argument table written at (0, 0), then the 3 × 32 one at (85, 224). -/
theorem v12_term (V : Valuation τ sig (Elt F)) :
    (StableHlo.after hostOps1 V (Proc.devRef .tc main_v12) : S88x256.Idx → Elt F .f32) =
      Host.scatter scatter_S88x256_S2_S3x32_01_n_01_0 (fun _ b => b)
        (Host.scatter scatter_S88x256_S2_S85x224_01_n_01_0 (fun _ b => b)
          (broadcastInDim S88x256 ![] bcast_S_S88x256 (constant (F := F) S_ .f32 0x00000000#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (V (Proc.devRef .tc main_arg4)))
        (concatenate S2 0 [⟨S1, broadcastInDim S1 ![] bcast_S_S1 (constantI S_ 32 85#32)⟩,
          ⟨S1, broadcastInDim S1 ![] bcast_S_S1 (constantI S_ 32 224#32)⟩] concatenates_S1_S1_S2_d0)
        (V (Proc.devRef .tc main_arg5)) := by
  after_results

/-! ## The eight arrays -/

/-- Two states that agree off the first region's result array give the second region the same arrays. -/
theorem entry1_indep (V V' : Valuation τ sig (Elt F))
    (h : ∀ b : Ref sig .tc, b ≠ main_v3 → V' (Proc.devRef .tc b) = V (Proc.devRef .tc b)) (w : Fin cfg1.W) :
    StableHlo.after hostOps1 V' (Proc.devRef .tc (Pipeline.arrRef spec1 w))
      = StableHlo.after hostOps1 V (Proc.devRef .tc (Pipeline.arrRef spec1 w)) := by
  match w with
  | ⟨0, _⟩ =>
    show StableHlo.after hostOps1 V' (Proc.devRef .tc main_v13) = StableHlo.after hostOps1 V (Proc.devRef .tc main_v13)
    exact (v13_term V').trans ((congrArg (fun x => shapeCast S50000x1 x shapeCasts_S50000_S50000x1) (h main_arg0 (by decide))).trans
      (v13_term V).symm)
  | ⟨1, _⟩ =>
    show StableHlo.after hostOps1 V' (Proc.devRef .tc main_v14) = StableHlo.after hostOps1 V (Proc.devRef .tc main_v14)
    exact (v14_term V').trans ((congrArg (fun x => shapeCast S50000x1 x shapeCasts_S50000_S50000x1) (h main_arg3 (by decide))).trans
      (v14_term V).symm)
  | ⟨2, _⟩ =>
    show StableHlo.after hostOps1 V' (Proc.devRef .tc main_v12) = StableHlo.after hostOps1 V (Proc.devRef .tc main_v12)
    refine (v12_term V').trans (Eq.trans ?_ (v12_term V).symm)
    rw [h main_arg4 (by decide), h main_arg5 (by decide)]
  | ⟨3, _⟩ =>
    show StableHlo.after hostOps1 V' (Proc.devRef .tc main_arg6) = StableHlo.after hostOps1 V (Proc.devRef .tc main_arg6)
    rw [StableHlo.after_of_writes_sub hostOps1 V' hostOps1_writes (by decide),
      StableHlo.after_of_writes_sub hostOps1 V hostOps1_writes (by decide)]
    exact h main_arg6 (by decide)
  | ⟨4, _⟩ =>
    show StableHlo.after hostOps1 V' (Proc.devRef .tc main_v15) = StableHlo.after hostOps1 V (Proc.devRef .tc main_v15)
    exact (v15_term V').trans ((congrArg (fun x => shapeCast S1x256 x shapeCasts_S256_S1x256) (h main_arg7 (by decide))).trans
      (v15_term V).symm)
  | ⟨5, _⟩ =>
    show StableHlo.after hostOps1 V' (Proc.devRef .tc main_arg8) = StableHlo.after hostOps1 V (Proc.devRef .tc main_arg8)
    rw [StableHlo.after_of_writes_sub hostOps1 V' hostOps1_writes (by decide),
      StableHlo.after_of_writes_sub hostOps1 V hostOps1_writes (by decide)]
    exact h main_arg8 (by decide)
  | ⟨6, _⟩ =>
    show StableHlo.after hostOps1 V' (Proc.devRef .tc main_v16) = StableHlo.after hostOps1 V (Proc.devRef .tc main_v16)
    exact (v16_term V').trans ((congrArg (fun x => shapeCast S1x256 x shapeCasts_S256_S1x256) (h main_arg9 (by decide))).trans
      (v16_term V).symm)
  | ⟨7, _⟩ =>
    show StableHlo.after hostOps1 V' (Proc.devRef .tc main_v17) = StableHlo.after hostOps1 V (Proc.devRef .tc main_v17)
    rw [StableHlo.after_of_writes_sub hostOps1 V' hostOps1_writes (by decide),
      StableHlo.after_of_writes_sub hostOps1 V hostOps1_writes (by decide)]
    exact h main_v17 (by decide)
  | ⟨n + 8, hn⟩ => exact absurd hn (Nat.not_lt.2 (Nat.le_add_left _ _))

end Cert.Kernel.Glue

end
-- ==== Proof.KbFrameB.lean ====
/-
  The frame of the word-level kernel program: every weakly fair execution of @main terminates and the sixteen argument
  arrays end holding what they held at launch. Stated for any float instance.

  @main is three reshapes, the edge region, eighteen host operations, the atom region. Nothing is said of the two result
  arrays: each region's result window is forgotten, so after a region its result array holds contents nothing names, and
  the thread state between two items says of the buffers only what is needed later. After the edge region: every buffer
  but the edge result array holds what it held before. After the eighteen operations: the buffers are those operations
  applied to such contents; none of them reads the edge result array, so the eight arrays the atom region starts from are
  the same as if the edge region had changed nothing, and the atom region's proof data are fixed at those before the run.
  After the atom region: every buffer but the atom result array is as before it. An argument array is written by no host
  operation and is an input window's array or no window's array in either region, so it reads back as launched.
-/
import proofs.«171124_g13383118094390_cont_week2b_154_1_alg».proof.Proof.KbEdgeForget
import proofs.«171124_g13383118094390_cont_week2b_154_1_alg».proof.Proof.KbAtomForget
import proofs.«171124_g13383118094390_cont_week2b_154_1_alg».proof.Proof.KbHostGlue2
import proofs.«171124_g13383118094390_cont_week2b_154_1_alg».proof.Proof.Gen.Kernel.Regions
set_option maxRecDepth 16384

noncomputable section

namespace Cert.Kernel.RunB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries that are functions of the launch memory -/

/-- Core `c`'s buffers at launch. -/
abbrev W0 : Dev nD → Valuation τ sig (Elt F) := fun c b => m ((c : Dev nD), b)
/-- After the three reshapes: what the edge region starts from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- The eighteen operations applied to `W1`: what the atom region would start from had the edge region changed nothing.
    Its eight arrays ARE what the atom region starts from, whatever the edge region left in its result array. -/
abbrev W3 : Dev nD → Valuation τ sig (Elt F) := fun c => StableHlo.after hostOps1 (W1 m c)
abbrev V3 : (c : Dev nD) → (b : Ref sig .tc) → Buf (Elt F) ((c : Thread nD τ).loc b) := fun c b => W3 m c b

/-! ## What is known of the buffers at the later boundaries -/

/-- After the edge region: as `W1` except, possibly, in the edge result array. -/
def After0 (c : Dev nD) (W : Valuation τ sig (Elt F)) : Prop :=
  ∀ b : Ref sig .tc, b ≠ main_v3 → W (Proc.devRef .tc b) = W1 m c (Proc.devRef .tc b)
/-- After the eighteen operations: those applied to such contents. -/
def After1 (c : Dev nD) (W : Valuation τ sig (Elt F)) : Prop :=
  ∃ W2, After0 m c W2 ∧ W = StableHlo.after hostOps1 W2
/-- After the atom region: as such contents except, possibly, in the atom result array. -/
def After2 (c : Dev nD) (W : Valuation τ sig (Elt F)) : Prop :=
  ∃ W3, After1 m c W3 ∧ ∀ b : Ref sig .tc, b ≠ main_v17 → W (Proc.devRef .tc b) = W3 (Proc.devRef .tc b)

/-- The atom region's arrays after the eighteen operations do not see what the edge region left in its result array. -/
theorem After1.arr {c : Dev nD} {W : Valuation τ sig (Elt F)} (h : After1 m c W) (w : Fin cfg1.W) :
    W (Proc.devRef .tc (Pipeline.arrRef spec1 w)) = W3 m c (Proc.devRef .tc (Pipeline.arrRef spec1 w)) := by
  obtain ⟨W2, h2, rfl⟩ := h
  exact Glue.entry1_indep (W1 m c) W2 h2 w

/-- A buffer no item writes holds at the end what it held at launch. -/
theorem After2.launch {c : Dev nD} {W : Valuation τ sig (Elt F)} (h : After2 m c W) (b : Ref sig .tc)
    (h0 : b ∉ hostOps0_W) (h1 : b ∉ hostOps1_W) (h3 : b ≠ main_v3) (h17 : b ≠ main_v17) :
    W (Proc.devRef .tc b) = m ((c : Thread nD τ).loc b) := by
  obtain ⟨W3', ⟨W2, h2, rfl⟩, h4⟩ := h
  rw [h4 b h17, StableHlo.after_of_writes_sub hostOps1 W2 hostOps1_writes h1, h2 b h3]
  exact StableHlo.after_of_writes_sub hostOps0 _ hostOps0_writes h0

/-! ## The proof data -/

/-- Each region's proof data at the contents it starts from, its result window forgotten. -/
def rdats : (p : Fin 2) → (c : Dev nD) → RDat τ (Elt F) Unit ℕ (UR sig nD τ) ℕ (Pipeline.pin (pcfgs (F := F)) adm p) c
  | ⟨0, _⟩ => fun c => (Edge.dat (V1 m) c).toRForget Edge.fgt
  | ⟨1, _⟩ => fun c => (Atom.dat (V3 m) c).toRForget Atom.fgt
/-- The same data before the forgetting: the arrays' points-tos are stated alike of both. -/
def pdats : (p : Fin 2) → (c : Dev nD) → Dat τ (Elt F) Unit ℕ (UR sig nD τ) ℕ (Pipeline.pin (pcfgs (F := F)) adm p) c
  | ⟨0, _⟩ => fun c => Edge.dat (V1 m) c
  | ⟨1, _⟩ => fun c => Atom.dat (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The thread states between the items -/

/-- Every unscoped buffer held at `W`, beside the rest. -/
abbrev heldAt (c : Dev nD) (W : Valuation τ sig (Elt F)) : sProp 𝕄 :=
  iprop(StableHlo.held (c : Thread nD τ) (Pipeline.ucRefs τ sig) W ∗ R c)
/-- After the edge region. -/
def T2 (c : Dev nD) : sProp 𝕄 := iprop(∃ W, ⌜After0 m c W⌝ ∗ heldAt c W)
/-- After the eighteen operations. -/
def T3 (c : Dev nD) : sProp 𝕄 := iprop(∃ W, ⌜After1 m c W⌝ ∗ heldAt c W)
/-- After the atom region, without the `owes`. -/
def T4 (c : Dev nD) : sProp 𝕄 :=
  iprop(∃ W, ⌜After2 m c W⌝ ∗ StableHlo.held (c : Thread nD τ) (Pipeline.ucRefs τ sig) W ∗ ∃ r, prngReg c r)

/-! ## The eighteen operations between the regions -/

set_option backward.isDefEq.respectTransparency.types false in
/-- The host stretch between the regions, run from whatever the edge region left. -/
def host1 : Pipeline.HostSeg (Name := ℕ) (U := UR sig nD τ) (pcfgs (F := F)) defs₀ 𝒱₀ L lv where
  prog := StableHlo.seq hostOps1
  pre := T2 m
  post := T3 m
  run c {β} k K := by
    unfold T2 T3
    iintro ⟨Hk, Hbd, ⟨%W, %hW, Hh⟩, Hla⟩
    iapply ((hseg hostOps1 hostOps1_sub hostOps1_fresh (fun _ => W)).run c k K)
    isplitl [Hk]
    · iintro ⟨Hbd, Hh⟩
      iapply Hk
      isplitl [Hbd]; · iexact Hbd
      iexists (StableHlo.after hostOps1 W)
      isplitr; · ipureintro; exact ⟨W, hW, rfl⟩
      iapply (show (hseg hostOps1 hostOps1_sub hostOps1_fresh (fun _ => W)).post c ⊢ heldAt c (StableHlo.after hostOps1 W) from .rfl)
      iexact Hh
    isplitl [Hbd]; · iexact Hbd
    isplitl [Hh]
    · iapply (show heldAt c W ⊢ (hseg hostOps1 hostOps1_sub hostOps1_fresh (fun _ => W)).pre c from .rfl)
      iexact Hh
    iexact Hla

/-! ## The regions as segments -/

/-- Every window of the edge region but the result's is an input. -/
theorem in0 : ∀ w : Fin cfg0.W, Pipeline.arrRef spec0 w ≠ main_v3 → (cfg0.win w).isOut = false := by decide
/-- Every window of the atom region but the result's is an input. -/
theorem in1 : ∀ w : Fin cfg1.W, Pipeline.arrRef spec1 w ≠ main_v17 → (cfg1.win w).isOut = false := by decide

/-- The edge region's arrays put back among the buffers: all but the result array hold what they held. -/
theorem after0_withArrays (c : Dev nD) (Fs : (w : Fin cfg0.W) → Buf (Elt F) ((cfg0.win w).arr.view.loc (c.tc : Thread nD τ)))
    (hFs : ∀ w, (rdats m 0 c).ArrAt w cfg0.N (Fs w)) : After0 m c (Pipeline.withArrays spec0 c (W1 m c) Fs) := by
  intro b hb
  by_cases hw : ∃ w, Pipeline.arrRef spec0 w = b
  · obtain ⟨w, rfl⟩ := hw
    rw [Pipeline.withArrays_arr spec0 launch0.win.arr_inj c _ _ w]
    have h := hFs w
    rw [(rdats m 0 c).ArrAt_in w (in0 w hb) cfg0.N] at h
    exact h.trans (Edge.A_eq (V1 m) c w)
  · exact Pipeline.withArrays_of_ne spec0 c _ _ b fun w e => hw ⟨w, e⟩

/-- The atom region's arrays put back among the buffers: all but the result array hold what they held. -/
theorem after2_withArrays (c : Dev nD) (W : Valuation τ sig (Elt F)) (hW : After1 m c W)
    (Fs : (w : Fin cfg1.W) → Buf (Elt F) ((cfg1.win w).arr.view.loc (c.tc : Thread nD τ)))
    (hFs : ∀ w, (rdats m 1 c).ArrAt w cfg1.N (Fs w)) : After2 m c (Pipeline.withArrays spec1 c W Fs) := by
  refine ⟨W, hW, fun b hb => ?_⟩
  by_cases hw : ∃ w, Pipeline.arrRef spec1 w = b
  · obtain ⟨w, rfl⟩ := hw
    rw [Pipeline.withArrays_arr spec1 launch1.win.arr_inj c _ _ w]
    have h := hFs w
    rw [(rdats m 1 c).ArrAt_in w (in1 w hb) cfg1.N] at h
    exact h.trans ((Atom.A_eq (V3 m) c w).trans (hW.arr m w).symm)
  · exact Pipeline.withArrays_of_ne spec1 c _ _ b fun w e => hw ⟨w, e⟩

set_option backward.isDefEq.respectTransparency.types false in
/-- The edge region over the thread state: entered from every unscoped buffer at `W1`, left with its result array at
    contents nothing names. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := Edge.body_obligationR (V1 m) c
  hwaits := Pipeline.RDat.hwaits_of_owed_zero _ _ _ _ L lv 0 fun _ _ => rfl
  pre c := heldAt c (W1 m c)
  post := T2 m
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    unfold T2 Pipeline.RDat.arraysAt
    iintro ⟨Ha, HO, HY, Hrest⟩
    ihave Ha' := (BI.bigSep_exists_pi Finset.univ (fun w F => iprop(⌜(rdats m 0 c).ArrAt w cfg0.N F⌝
        ∗ (cfg0.win w).arr.view.loc (c.tc : Thread nD τ) ↦[(cfg0.win w).arr.view.set]{(rdats m 0 c).share w} F))) $$ Ha
    icases Ha' with ⟨%Fs, Ha⟩
    ihave Ha2 := (BI.bigSep_pure_sep Finset.univ (fun w => (rdats m 0 c).ArrAt w cfg0.N (Fs w))
        (fun w => (cfg0.win w).arr.view.loc (c.tc : Thread nD τ) ↦[(cfg0.win w).arr.view.set]{(rdats m 0 c).share w} Fs w)) $$ Ha
    icases Ha2 with ⟨%hFs, Ha⟩
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => Pipeline.withArrays spec0 c (W1 m c) Fs b) Fs
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists (Pipeline.withArrays spec0 c (W1 m c) Fs)
    isplitr; · ipureintro; exact after0_withArrays m c Fs fun w => hFs w (Finset.mem_univ w)
    isplitl [Ha Hrest]
    · iapply hjoin
      isplitl [Ha]
      · iapply (show (bigSep Finset.univ fun w => ((cfg0.win w).arr.view.loc (c.tc : Thread nD τ) ↦[(cfg0.win w).arr.view.set]{(rdats m 0 c).share w} Fs w : sProp 𝕄))
            ⊢ (pdats m 0 c).arrays Fs from .rfl)
        iexact Ha
      iexact Hrest
    isplitl [HY]; · iexact HY
    unfold Pipeline.RDat.owesAt Pipeline.owesWithin
    icases HO with ⟨%W, -, HO⟩; iexists W; iexact HO

set_option backward.isDefEq.respectTransparency.types false in
/-- The atom region over the thread state: entered from the buffers after the eighteen operations, whatever the edge
    region left, and left with its own result array at contents nothing names. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Atom.body_obligationR (V3 m) c
  hwaits := Pipeline.RDat.hwaits_of_owed_zero _ _ _ _ L lv 1 fun _ _ => rfl
  pre := T3 m
  post c := iprop(T4 m c ∗ ∃ W, owes (c : Thread nD τ) (0 : CellTallies nD τ sig Unit) W)
  X c := iprop(∃ r, prngReg c r)
  Y c := iprop(∃ r, prngReg c r)
  Z c := iprop(∃ W : Valuation τ sig (Elt F), ⌜After1 m c W⌝
    ∗ Pipeline.unscopedRest (Ix := Unit) (Name := ℕ) (U := UR sig nD τ) (Lvl := ℕ) spec1 c (fun b => W b))
  hentry c := by
    rw [Pipeline.ownSems0_none]
    unfold T3
    iintro ⟨⟨%W, %hW, Hub, Hp, HO⟩, -, -⟩
    have hsplit := Pipeline.RDat.arrays_of_unscopedBufs (p := 1) (pcfgs (F := F)) adm (rdats m) launch1.win launch1.arr_whole c
      ((pdats m 1 c).share_full fun _ => rfl) (fun b => W b)
      (fun w => (Atom.A_eq (V3 m) c w).trans (hW.arr m w).symm)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wo, HO⟩; iexists Wo; isplitr; · ipureintro; exact fun _ _ => Or.inl trivial
      iexact HO
    isplitl [Hp]; · iexact Hp
    iexists W
    isplitr; · ipureintro; exact hW
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold T4 Pipeline.RDat.arraysAt
    iintro ⟨Ha, HO, HY, ⟨%W, %hW, Hrest⟩⟩
    ihave Ha' := (BI.bigSep_exists_pi Finset.univ (fun w F => iprop(⌜(rdats m 1 c).ArrAt w cfg1.N F⌝
        ∗ (cfg1.win w).arr.view.loc (c.tc : Thread nD τ) ↦[(cfg1.win w).arr.view.set]{(rdats m 1 c).share w} F))) $$ Ha
    icases Ha' with ⟨%Fs, Ha⟩
    ihave Ha2 := (BI.bigSep_pure_sep Finset.univ (fun w => (rdats m 1 c).ArrAt w cfg1.N (Fs w))
        (fun w => (cfg1.win w).arr.view.loc (c.tc : Thread nD τ) ↦[(cfg1.win w).arr.view.set]{(rdats m 1 c).share w} Fs w)) $$ Ha
    icases Ha2 with ⟨%hFs, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W b) (fun b => Pipeline.withArrays spec1 c W Fs b) Fs
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    isplitl [Ha Hrest HY]
    · iexists (Pipeline.withArrays spec1 c W Fs)
      isplitr; · ipureintro; exact after2_withArrays m c W hW Fs fun w => hFs w (Finset.mem_univ w)
      isplitl [Ha Hrest]
      · iapply hjoin
        isplitl [Ha]
        · iapply (show (bigSep Finset.univ fun w => ((cfg1.win w).arr.view.loc (c.tc : Thread nD τ) ↦[(cfg1.win w).arr.view.set]{(rdats m 1 c).share w} Fs w : sProp 𝕄))
              ⊢ (pdats m 1 c).arrays Fs from .rfl)
          iexact Ha
        iexact Hrest
      iexact HY
    unfold Pipeline.RDat.owesAt Pipeline.owesWithin
    icases HO with ⟨%Wo, -, HO⟩; iexists Wo; iexact HO

/-! ## @main as segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .host (host1 m),
    .region (reg1 m) ]
theorem main_run (c : Dev nD) : main (F := F) c = Pipeline.RDat.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FRAME: every weakly fair execution of @main terminates, and every final memory holds each of the sixteen
    arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => heldAt c (W0 m c)) (Tₙ := T4 m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ W : Valuation τ sig (Elt F), After2 m c W ∧ ∀ b ∈ Pipeline.ucRefs τ sig, s.mem (((c : Thread nD τ)).1, b) = W b)
    (hfin := fun c s' => by
      unfold T4
      iintro ⟨⟨%W, %hW, Hh, -⟩, HSI⟩
      unfold StableHlo.held
      imodintro
      ihave Hr := (pointsTo_read_all (Pipeline.ucRefs τ sig) (fun b => (((c : Thread nD τ)).1, b)) W s') $$ [Hh HSI]
      · isplitl [Hh] <;> iassumption
      icases Hr with ⟨%h, HSI⟩
      isplitr; · ipureintro; exact ⟨W, hW, h⟩
      iexact HSI)
    (hQ := fun s h c => by
      obtain ⟨W, hW, hr⟩ := h c
      exact ⟨(hr _ (mem_uc main_arg0 (by decide))).trans (hW.launch m main_arg0 (by decide) (by decide) (by decide) (by decide)),
        (hr _ (mem_uc main_arg1 (by decide))).trans (hW.launch m main_arg1 (by decide) (by decide) (by decide) (by decide)),
        (hr _ (mem_uc main_arg2 (by decide))).trans (hW.launch m main_arg2 (by decide) (by decide) (by decide) (by decide)),
        (hr _ (mem_uc main_arg3 (by decide))).trans (hW.launch m main_arg3 (by decide) (by decide) (by decide) (by decide)),
        (hr _ (mem_uc main_arg4 (by decide))).trans (hW.launch m main_arg4 (by decide) (by decide) (by decide) (by decide)),
        (hr _ (mem_uc main_arg5 (by decide))).trans (hW.launch m main_arg5 (by decide) (by decide) (by decide) (by decide)),
        (hr _ (mem_uc main_arg6 (by decide))).trans (hW.launch m main_arg6 (by decide) (by decide) (by decide) (by decide)),
        (hr _ (mem_uc main_arg7 (by decide))).trans (hW.launch m main_arg7 (by decide) (by decide) (by decide) (by decide)),
        (hr _ (mem_uc main_arg8 (by decide))).trans (hW.launch m main_arg8 (by decide) (by decide) (by decide) (by decide)),
        (hr _ (mem_uc main_arg9 (by decide))).trans (hW.launch m main_arg9 (by decide) (by decide) (by decide) (by decide)),
        (hr _ (mem_uc main_arg10 (by decide))).trans (hW.launch m main_arg10 (by decide) (by decide) (by decide) (by decide)),
        (hr _ (mem_uc main_arg11 (by decide))).trans (hW.launch m main_arg11 (by decide) (by decide) (by decide) (by decide)),
        (hr _ (mem_uc main_arg12 (by decide))).trans (hW.launch m main_arg12 (by decide) (by decide) (by decide) (by decide)),
        (hr _ (mem_uc main_arg13 (by decide))).trans (hW.launch m main_arg13 (by decide) (by decide) (by decide) (by decide)),
        (hr _ (mem_uc main_arg14 (by decide))).trans (hW.launch m main_arg14 (by decide) (by decide) (by decide) (by decide)),
        (hr _ (mem_uc main_arg15 (by decide))).trans (hW.launch m main_arg15 (by decide) (by decide) (by decide) (by decide))⟩)

end Cert.Kernel.RunB

end
-- ==== Proof.RefTerms.lean ====
/-
  The reference's two results as pure terms of its argument arrays: its host operations composed, the outlined
  functions written out where they are called (any float instance).
-/
import proofs.«171124_g13383118094390_cont_week2b_154_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- `x · (1 / (1 + exp (-x)))` over an edge-sized array, as the outlined function spells it. -/
def siluE (x : FVec F S800000x128 .f32) : FVec F S800000x128 .f32 :=
  mulf x (Host.divf (broadcastInDim S800000x128 ![] bcast_S_S800000x128 (constant S_ .f32 0x3F800000#32))
    (addf (broadcastInDim S800000x128 ![] bcast_S_S800000x128 (constant S_ .f32 0x3F800000#32)) (Host.exp (Host.negf x))))

/-- The same over an atom-sized array. -/
def siluH (x : FVec F S50000x256 .f32) : FVec F S50000x256 .f32 :=
  mulf x (Host.divf (broadcastInDim S50000x256 ![] bcast_S_S50000x256 (constant S_ .f32 0x3F800000#32))
    (addf (broadcastInDim S50000x256 ![] bcast_S_S50000x256 (constant S_ .f32 0x3F800000#32)) (Host.exp (Host.negf x))))

/-- The edge result: both input layers, side by side, `silu`, the 128 × 128 layer, `silu`. -/
def resE (a1 : FVec F S800000x3 .f32) (a2 : FVec F S800000x50 .f32) (a10 : FVec F S3x64 .f32) (a11 : FVec F S64 .f32)
    (a12 : FVec F S50x64 .f32) (a13 : FVec F S64 .f32) (a14 : FVec F S128x128 .f32) (a15 : FVec F S128 .f32) : FVec F S800000x128 .f32 :=
  siluE (addf (Host.dotGeneral dot_S800000x128_S128x128_S800000x128_1_0_0_1_n_n none
      (siluE (concatenate S800000x128 1
        [⟨S800000x64, addf (Host.dotGeneral dot_S800000x3_S3x64_S800000x64_1_0_0_1_n_n none a1 a10)
            (broadcastInDim S800000x64 ![0, 1] bcast_S1x64_S800000x64_0_1 (broadcastInDim S1x64 ![1] bcast_S64_S1x64_1 a11))⟩,
         ⟨S800000x64, addf (Host.dotGeneral dot_S800000x50_S50x64_S800000x64_1_0_0_1_n_n none a2 a12)
            (broadcastInDim S800000x64 ![0, 1] bcast_S1x64_S800000x64_0_1 (broadcastInDim S1x64 ![1] bcast_S64_S1x64_1 a13))⟩]
        concatenates_S800000x64_S800000x64_S800000x128_d1)) a14)
    (broadcastInDim S800000x128 ![0, 1] bcast_S1x128_S800000x128_0_1 (broadcastInDim S1x128 ![1] bcast_S128_S1x128_1 a15)))

/-- The start indices of a row gather: a negative index has the axis' extent `n` added, then the vector is a column. -/
def takeIdx (n : BitVec 32) (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 n))) idx)

/-- Which rows' indices are in range `0 ≤ i ≤ hi`. -/
def takeOk (hi : BitVec 32) (i5 : IVec S50000x1 32) : IVec S50000 1 :=
  (fun x v => Host.reduce IntOp.andi x v reducesTo_S50000x1_S50000_d1 h_S_)
    (andi (cmpi .sge i5 (broadcastInDim S50000x1 ![] bcast_S_S50000x1 (constantI S_ 32 0#32)))
      (cmpi .sle i5 (broadcastInDim S50000x1 ![0, 1] bcast_S1x1_S50000x1_0_1 (broadcastInDim S1x1 ![1] bcast_S1_S1x1_1 (constantI S1 32 hi)))))
    (constantI S_ 1 1#1)

/-- Rows of the 85 × 224 table taken at `idx`, a fill word where the index is out of range. -/
def takeEmb (tbl : FVec F S85x224 .f32) (idx : IVec S50000 32) : FVec F S50000x224 .f32 :=
  select (broadcastInDim S50000x224 ![0] bcast_S50000_S50000x224_0 (takeOk 84#32 (takeIdx 85#32 idx)))
    (Host.gather gather_S85x224_S50000x1_S50000x224_1_0_n_n_0_1_1224 tbl (takeIdx 85#32 idx))
    (broadcastInDim S50000x224 ![] bcast_S_S50000x224 (constant S_ .f32 0x7FC00000#32))

/-- Rows of the 3 × 32 table taken at `idx`, likewise. -/
def takeTag (tbl : FVec F S3x32 .f32) (idx : IVec S50000 32) : FVec F S50000x32 .f32 :=
  select (broadcastInDim S50000x32 ![0] bcast_S50000_S50000x32_0 (takeOk 2#32 (takeIdx 3#32 idx)))
    (Host.gather gather_S3x32_S50000x1_S50000x32_1_0_n_n_0_1_132 tbl (takeIdx 3#32 idx))
    (broadcastInDim S50000x32 ![] bcast_S_S50000x32 (constant S_ .f32 0x7FC00000#32))

/-- The atom result: the two gathers side by side, two dense layers, `silu` after each. -/
def resH (a0 : IVec S50000 32) (a3 : IVec S50000 32) (a4 : FVec F S85x224 .f32) (a5 : FVec F S3x32 .f32)
    (a6 : FVec F S256x256 .f32) (a7 : FVec F S256 .f32) (a8 : FVec F S256x256 .f32) (a9 : FVec F S256 .f32) : FVec F S50000x256 .f32 :=
  siluH (addf (Host.dotGeneral dot_S50000x256_S256x256_S50000x256_1_0_0_1_n_n none
      (siluH (addf (Host.dotGeneral dot_S50000x256_S256x256_S50000x256_1_0_0_1_n_n none
          (concatenate S50000x256 1 [⟨S50000x224, takeEmb a4 a0⟩, ⟨S50000x32, takeTag a5 a3⟩] concatenates_S50000x224_S50000x32_S50000x256_d1) a6)
        (broadcastInDim S50000x256 ![0, 1] bcast_S1x256_S50000x256_0_1 (broadcastInDim S1x256 ![1] bcast_S256_S1x256_1 a7)))) a8)
    (broadcastInDim S50000x256 ![0, 1] bcast_S1x256_S50000x256_0_1 (broadcastInDim S1x256 ![1] bcast_S256_S1x256_1 a9)))

end Cert.ReferenceIdeal.RefValue

end
-- ==== Proof.RefRun.lean ====
/-
  The reference program's run. Its @main is a straight line of 104 array operations once the outlined functions
  (`silu` on the edge arrays and on the atom arrays, the two row gathers and the selection inside each) are written
  out where they are called. The line is cut into four stretches: the edge half's input layers (8 operations), the
  rest of the edge half from the side-by-side join on (23), the two gathers (46), the atom half from its join on (27).
  Each stretch's result is a pure term of the contents it starts from; a buffer no operation of a stretch writes keeps
  its contents; the four compose to `resH` and `resE` of the arguments' launch contents, and every argument is unchanged.
-/
import proofs.«171124_g13383118094390_cont_week2b_154_1_alg».proof.Proof.RefTerms
import Idealize.ShloMosaic.Lib.Pipeline.Regions
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The four stretches

For each: its operations in order, that they touch TensorCore buffers only and determine their results, the list of
buffers they write, and that any other buffer is left as it was. -/

/-- The edge half's two input layers: each a product with its weight, the bias spread over the rows, the sum. -/
abbrev opsA : List (HloOp τ sig (Elt F)) :=
  [ binary main_arg1 main_arg10 main_v0 ((fun l r => Host.dotGeneral dot_S800000x3_S3x64_S800000x64_1_0_0_1_n_n none l r) : (⟨S800000x3, .f32⟩ : BufTy).Contents (Elt F) → (⟨S3x64, .f32⟩ : BufTy).Contents (Elt F) → (⟨S800000x64, .f32⟩ : BufTy).Contents (Elt F)),
    unary main_arg11 main_v1 (broadcastInDim S1x64 ![1] bcast_S64_S1x64_1 : (⟨S64, .f32⟩ : BufTy).Contents (Elt F) → (⟨S1x64, .f32⟩ : BufTy).Contents (Elt F)),
    unary main_v1 main_v2 (broadcastInDim S800000x64 ![0, 1] bcast_S1x64_S800000x64_0_1 : (⟨S1x64, .f32⟩ : BufTy).Contents (Elt F) → (⟨S800000x64, .f32⟩ : BufTy).Contents (Elt F)),
    binary main_v0 main_v2 main_v3 (addf : (⟨S800000x64, .f32⟩ : BufTy).Contents (Elt F) → (⟨S800000x64, .f32⟩ : BufTy).Contents (Elt F) → (⟨S800000x64, .f32⟩ : BufTy).Contents (Elt F)),
    binary main_arg2 main_arg12 main_v4 ((fun l r => Host.dotGeneral dot_S800000x50_S50x64_S800000x64_1_0_0_1_n_n none l r) : (⟨S800000x50, .f32⟩ : BufTy).Contents (Elt F) → (⟨S50x64, .f32⟩ : BufTy).Contents (Elt F) → (⟨S800000x64, .f32⟩ : BufTy).Contents (Elt F)),
    unary main_arg13 main_v5 (broadcastInDim S1x64 ![1] bcast_S64_S1x64_1 : (⟨S64, .f32⟩ : BufTy).Contents (Elt F) → (⟨S1x64, .f32⟩ : BufTy).Contents (Elt F)),
    unary main_v5 main_v6 (broadcastInDim S800000x64 ![0, 1] bcast_S1x64_S800000x64_0_1 : (⟨S1x64, .f32⟩ : BufTy).Contents (Elt F) → (⟨S800000x64, .f32⟩ : BufTy).Contents (Elt F)),
    binary main_v4 main_v6 main_v7 (addf : (⟨S800000x64, .f32⟩ : BufTy).Contents (Elt F) → (⟨S800000x64, .f32⟩ : BufTy).Contents (Elt F) → (⟨S800000x64, .f32⟩ : BufTy).Contents (Elt F)) ]

theorem opsA_sub : (opsA : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩

theorem opsA_fresh : (opsA : List (HloOp τ sig (Elt F))).Forall fun op => op.fresh = ∅ := by
  simp only [List.Forall]; repeat' constructor

abbrev wrA : List (Ref sig .tc) := [main_v0, main_v1, main_v2, main_v3, main_v4, main_v5, main_v6, main_v7]

theorem opsA_writes : (opsA : List (HloOp τ sig (Elt F))).Forall fun op => op.writes ⊆ (wrA.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_⟩ <;> exact List.mem_map_of_mem (by decide)

theorem frameA (W : Valuation τ sig (Elt F)) (r : Ref sig .tc) (h : r ∉ wrA) :
    after opsA W (Proc.devRef (τ := τ) .tc r) = W (Proc.devRef (τ := τ) .tc r) :=
  after_of_writes_sub opsA W opsA_writes h

/-- The two input layers side by side, `silu`, the 128 × 128 layer, `silu`: the edge result. -/
abbrev opsB : List (HloOp τ sig (Elt F)) :=
  [ binary main_v3 main_v7 main_v8 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    TRef.unary (.of main_v8) main_call0.v0 Host.negf,
    TRef.unary main_call0.v0 main_call0.v1 Host.exp,
    TRef.nullary main_call0.cst (constant S_ .f32 0x3F800000#32),
    TRef.unary main_call0.cst main_call0.v2 (broadcastInDim S800000x128 ![] bcast_S_S800000x128),
    TRef.binary main_call0.v2 main_call0.v1 main_call0.v3 addf,
    TRef.nullary main_call0.cst_0 (constant S_ .f32 0x3F800000#32),
    TRef.unary main_call0.cst_0 main_call0.v4 (broadcastInDim S800000x128 ![] bcast_S_S800000x128),
    TRef.binary main_call0.v4 main_call0.v3 main_call0.v5 Host.divf,
    TRef.binary (.of main_v8) main_call0.v5 main_call0.v6 mulf,
    binary main_v9 main_arg14 main_v10 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg15 main_v11 (broadcastInDim S1x128 ![1] bcast_S128_S1x128_1 : (⟨S128, .f32⟩ : BufTy).Contents (Elt F) → (⟨S1x128, .f32⟩ : BufTy).Contents (Elt F)),
    unary main_v11 main_v12 (broadcastInDim S800000x128 ![0, 1] bcast_S1x128_S800000x128_0_1 : (⟨S1x128, .f32⟩ : BufTy).Contents (Elt F) → (⟨S800000x128, .f32⟩ : BufTy).Contents (Elt F)),
    binary main_v10 main_v12 main_v13 (addf : (⟨S800000x128, .f32⟩ : BufTy).Contents (Elt F) → (⟨S800000x128, .f32⟩ : BufTy).Contents (Elt F) → (⟨S800000x128, .f32⟩ : BufTy).Contents (Elt F)),
    TRef.unary (.of main_v13) main_call1.v0 Host.negf,
    TRef.unary main_call1.v0 main_call1.v1 Host.exp,
    TRef.nullary main_call1.cst (constant S_ .f32 0x3F800000#32),
    TRef.unary main_call1.cst main_call1.v2 (broadcastInDim S800000x128 ![] bcast_S_S800000x128),
    TRef.binary main_call1.v2 main_call1.v1 main_call1.v3 addf,
    TRef.nullary main_call1.cst_0 (constant S_ .f32 0x3F800000#32),
    TRef.unary main_call1.cst_0 main_call1.v4 (broadcastInDim S800000x128 ![] bcast_S_S800000x128),
    TRef.binary main_call1.v4 main_call1.v3 main_call1.v5 Host.divf,
    TRef.binary (.of main_v13) main_call1.v5 main_call1.v6 mulf ]

theorem opsB_sub : (opsB : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem opsB_fresh : (opsB : List (HloOp τ sig (Elt F))).Forall fun op => op.fresh = ∅ := by
  simp only [List.Forall]; repeat' constructor

abbrev wrB : List (Ref sig .tc) := [main_v8, main_call0_v0, main_call0_v1, main_call0_cst, main_call0_v2, main_call0_v3, main_call0_cst_0, main_call0_v4, main_call0_v5, main_v9, main_v10, main_v11, main_v12, main_v13, main_call1_v0, main_call1_v1, main_call1_cst, main_call1_v2, main_call1_v3, main_call1_cst_0, main_call1_v4, main_call1_v5, main_v14]

theorem opsB_writes : (opsB : List (HloOp τ sig (Elt F))).Forall fun op => op.writes ⊆ (wrB.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)

theorem frameB (W : Valuation τ sig (Elt F)) (r : Ref sig .tc) (h : r ∉ wrB) :
    after opsB W (Proc.devRef (τ := τ) .tc r) = W (Proc.devRef (τ := τ) .tc r) :=
  after_of_writes_sub opsB W opsB_writes h

/-- The two row gathers, each with its index made non-negative, its range test and the fill where the test fails. -/
abbrev opsC : List (HloOp τ sig (Elt F)) :=
  [ TRef.nullary main_call2.c (constantI S_ 32 0#32),
    TRef.unary main_call2.c main_call2.v0 (broadcastInDim S50000 ![] bcast_S_S50000),
    TRef.binary (.of main_arg0) main_call2.v0 main_call2.v1 (cmpi .slt),
    TRef.nullary main_call2.c_0 (constantI S_ 32 85#32),
    TRef.unary main_call2.c_0 main_call2.v2 (broadcastInDim S50000 ![] bcast_S_S50000),
    TRef.binary (.of main_arg0) main_call2.v2 main_call2.v3 addi,
    TRef.ternary main_call2.v1 main_call2.v3 (.of main_arg0) main_call2.call0.v0 select,
    TRef.unary main_call2.call0.v0 main_call2.v5 (broadcastInDim S50000x1 ![0] bcast_S50000_S50000x1_0),
    TRef.nullary main_call2.c_1 (constantI S1 32 84#32),
    TRef.nullary main_call2.c_2 (constantI S_ 32 0#32),
    TRef.unary main_call2.c_2 main_call2.v6 (broadcastInDim S50000x1 ![] bcast_S_S50000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S50000x1 ![0, 1] bcast_S1x1_S50000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S50000x1_S50000_d1 h_S_),
    TRef.binary (.of main_arg4) main_call2.v5 main_call2.v13 (fun x i => Host.gather gather_S85x224_S50000x1_S50000x224_1_0_n_n_0_1_1224 x i),
    TRef.unary main_call2.v12 main_call2.v14 (broadcastInDim S50000x224 ![0] bcast_S50000_S50000x224_0),
    TRef.nullary main_call2.cst (constant S_ .f32 0x7FC00000#32),
    TRef.unary main_call2.cst main_call2.v15 (broadcastInDim S50000x224 ![] bcast_S_S50000x224),
    TRef.ternary main_call2.v14 main_call2.v13 main_call2.v15 main_call2.v16 select,
    TRef.nullary main_call3.c (constantI S_ 32 0#32),
    TRef.unary main_call3.c main_call3.v0 (broadcastInDim S50000 ![] bcast_S_S50000),
    TRef.binary (.of main_arg3) main_call3.v0 main_call3.v1 (cmpi .slt),
    TRef.nullary main_call3.c_0 (constantI S_ 32 3#32),
    TRef.unary main_call3.c_0 main_call3.v2 (broadcastInDim S50000 ![] bcast_S_S50000),
    TRef.binary (.of main_arg3) main_call3.v2 main_call3.v3 addi,
    TRef.ternary main_call3.v1 main_call3.v3 (.of main_arg3) main_call3.call0.v0 select,
    TRef.unary main_call3.call0.v0 main_call3.v5 (broadcastInDim S50000x1 ![0] bcast_S50000_S50000x1_0),
    TRef.nullary main_call3.c_1 (constantI S1 32 2#32),
    TRef.nullary main_call3.c_2 (constantI S_ 32 0#32),
    TRef.unary main_call3.c_2 main_call3.v6 (broadcastInDim S50000x1 ![] bcast_S_S50000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S50000x1 ![0, 1] bcast_S1x1_S50000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S50000x1_S50000_d1 h_S_),
    TRef.binary (.of main_arg5) main_call3.v5 main_call3.v13 (fun x i => Host.gather gather_S3x32_S50000x1_S50000x32_1_0_n_n_0_1_132 x i),
    TRef.unary main_call3.v12 main_call3.v14 (broadcastInDim S50000x32 ![0] bcast_S50000_S50000x32_0),
    TRef.nullary main_call3.cst (constant S_ .f32 0x7FC00000#32),
    TRef.unary main_call3.cst main_call3.v15 (broadcastInDim S50000x32 ![] bcast_S_S50000x32),
    TRef.ternary main_call3.v14 main_call3.v13 main_call3.v15 main_call3.v16 select ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsC_fresh : (opsC : List (HloOp τ sig (Elt F))).Forall fun op => op.fresh = ∅ := by
  simp only [List.Forall]; repeat' constructor

abbrev wrC : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v15, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v16]

theorem opsC_writes : (opsC : List (HloOp τ sig (Elt F))).Forall fun op => op.writes ⊆ (wrC.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

theorem frameC (W : Valuation τ sig (Elt F)) (r : Ref sig .tc) (h : r ∉ wrC) :
    after opsC W (Proc.devRef (τ := τ) .tc r) = W (Proc.devRef (τ := τ) .tc r) :=
  after_of_writes_sub opsC W opsC_writes h

/-- The two gathers side by side, two dense layers, `silu` after each: the atom result. -/
abbrev opsD : List (HloOp τ sig (Elt F)) :=
  [ binary main_v15 main_v16 main_v17 ((fun a b => concatenate S50000x256 1 [⟨S50000x224, a⟩, ⟨S50000x32, b⟩] concatenates_S50000x224_S50000x32_S50000x256_d1) : (⟨S50000x224, .f32⟩ : BufTy).Contents (Elt F) → (⟨S50000x32, .f32⟩ : BufTy).Contents (Elt F) → (⟨S50000x256, .f32⟩ : BufTy).Contents (Elt F)),
    binary main_v17 main_arg6 main_v18 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v19 (broadcastInDim S1x256 ![1] bcast_S256_S1x256_1 : (⟨S256, .f32⟩ : BufTy).Contents (Elt F) → (⟨S1x256, .f32⟩ : BufTy).Contents (Elt F)),
    unary main_v19 main_v20 (broadcastInDim S50000x256 ![0, 1] bcast_S1x256_S50000x256_0_1 : (⟨S1x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)),
    TRef.unary (.of main_v21) main_call4.v0 Host.negf,
    TRef.unary main_call4.v0 main_call4.v1 Host.exp,
    TRef.nullary main_call4.cst (constant S_ .f32 0x3F800000#32),
    TRef.unary main_call4.cst main_call4.v2 (broadcastInDim S50000x256 ![] bcast_S_S50000x256),
    TRef.binary main_call4.v2 main_call4.v1 main_call4.v3 addf,
    TRef.nullary main_call4.cst_0 (constant S_ .f32 0x3F800000#32),
    TRef.unary main_call4.cst_0 main_call4.v4 (broadcastInDim S50000x256 ![] bcast_S_S50000x256),
    TRef.binary main_call4.v4 main_call4.v3 main_call4.v5 Host.divf,
    TRef.binary (.of main_v21) main_call4.v5 main_call4.v6 mulf,
    binary main_v22 main_arg8 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v23 main_v25 main_v26 (addf : (⟨S50000x256, .f32⟩ : BufTy).Contents (Elt F) → (⟨S50000x256, .f32⟩ : BufTy).Contents (Elt F) → (⟨S50000x256, .f32⟩ : BufTy).Contents (Elt F)),
    TRef.unary (.of main_v26) main_call5.v0 Host.negf,
    TRef.unary main_call5.v0 main_call5.v1 Host.exp,
    TRef.nullary main_call5.cst (constant S_ .f32 0x3F800000#32),
    TRef.unary main_call5.cst main_call5.v2 (broadcastInDim S50000x256 ![] bcast_S_S50000x256),
    TRef.binary main_call5.v2 main_call5.v1 main_call5.v3 addf,
    TRef.nullary main_call5.cst_0 (constant S_ .f32 0x3F800000#32),
    TRef.unary main_call5.cst_0 main_call5.v4 (broadcastInDim S50000x256 ![] bcast_S_S50000x256),
    TRef.binary main_call5.v4 main_call5.v3 main_call5.v5 Host.divf,
    TRef.binary (.of main_v26) main_call5.v5 main_call5.v6 mulf ]

theorem opsD_sub : (opsD : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem opsD_fresh : (opsD : List (HloOp τ sig (Elt F))).Forall fun op => op.fresh = ∅ := by
  simp only [List.Forall]; repeat' constructor

abbrev wrD : List (Ref sig .tc) := [main_v17, main_v18, main_v19, main_v20, main_v21, main_call4_v0, main_call4_v1, main_call4_cst, main_call4_v2, main_call4_v3, main_call4_cst_0, main_call4_v4, main_call4_v5, main_v22, main_v23, main_v24, main_v25, main_v26, main_call5_v0, main_call5_v1, main_call5_cst, main_call5_v2, main_call5_v3, main_call5_cst_0, main_call5_v4, main_call5_v5, main_v27]

theorem opsD_writes : (opsD : List (HloOp τ sig (Elt F))).Forall fun op => op.writes ⊆ (wrD.map (Proc.devRef (τ := τ) .tc)).toFinset := by
  simp only [List.Forall, nullary_writes, unary_writes, binary_writes, ternary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

theorem frameD (W : Valuation τ sig (Elt F)) (r : Ref sig .tc) (h : r ∉ wrD) :
    after opsD W (Proc.devRef (τ := τ) .tc r) = W (Proc.devRef (τ := τ) .tc r) :=
  after_of_writes_sub opsD W opsD_writes h

/-! ## What each stretch leaves at its results -/

/-- The first input layer of the edge half. -/
theorem resA_v3 (W : Valuation τ sig (Elt F)) :
    after opsA W (Proc.devRef (τ := τ) .tc main_v3) = addf (Host.dotGeneral dot_S800000x3_S3x64_S800000x64_1_0_0_1_n_n none (W (Proc.devRef (τ := τ) .tc main_arg1)) (W (Proc.devRef (τ := τ) .tc main_arg10))) (broadcastInDim S800000x64 ![0, 1] bcast_S1x64_S800000x64_0_1 (broadcastInDim S1x64 ![1] bcast_S64_S1x64_1 (W (Proc.devRef (τ := τ) .tc main_arg11)))) := by
  after_results_simp <;> rfl

/-- The second input layer of the edge half. -/
theorem resA_v7 (W : Valuation τ sig (Elt F)) :
    after opsA W (Proc.devRef (τ := τ) .tc main_v7) = addf (Host.dotGeneral dot_S800000x50_S50x64_S800000x64_1_0_0_1_n_n none (W (Proc.devRef (τ := τ) .tc main_arg2)) (W (Proc.devRef (τ := τ) .tc main_arg12))) (broadcastInDim S800000x64 ![0, 1] bcast_S1x64_S800000x64_0_1 (broadcastInDim S1x64 ![1] bcast_S64_S1x64_1 (W (Proc.devRef (τ := τ) .tc main_arg13)))) := by
  after_results_simp <;> rfl

/-- The edge result from the two input layers. -/
theorem resB_v14 (W : Valuation τ sig (Elt F)) :
    after opsB W (Proc.devRef (τ := τ) .tc main_v14)
      = siluE (addf (Host.dotGeneral dot_S800000x128_S128x128_S800000x128_1_0_0_1_n_n none (siluE (concatenate S800000x128 1 [⟨S800000x64, (W (Proc.devRef (τ := τ) .tc main_v3))⟩, ⟨S800000x64, (W (Proc.devRef (τ := τ) .tc main_v7))⟩] concatenates_S800000x64_S800000x64_S800000x128_d1)) (W (Proc.devRef (τ := τ) .tc main_arg14)))
          (broadcastInDim S800000x128 ![0, 1] bcast_S1x128_S800000x128_0_1 (broadcastInDim S1x128 ![1] bcast_S128_S1x128_1 (W (Proc.devRef (τ := τ) .tc main_arg15))))) := by
  after_results_simp <;> rfl

/-- The rows of the 85 × 224 table. -/
theorem resC_v15 (W : Valuation τ sig (Elt F)) :
    after opsC W (Proc.devRef (τ := τ) .tc main_v15) = takeEmb (W (Proc.devRef (τ := τ) .tc main_arg4)) (W (Proc.devRef (τ := τ) .tc main_arg0)) := by
  after_results_simp
  simp only [cast_eq]
  rfl

/-- The rows of the 3 × 32 table. -/
theorem resC_v16 (W : Valuation τ sig (Elt F)) :
    after opsC W (Proc.devRef (τ := τ) .tc main_v16) = takeTag (W (Proc.devRef (τ := τ) .tc main_arg5)) (W (Proc.devRef (τ := τ) .tc main_arg3)) := by
  after_results_simp
  simp only [cast_eq]
  rfl

/-- The atom result from the two gathers. -/
theorem resD_v27 (W : Valuation τ sig (Elt F)) :
    after opsD W (Proc.devRef (τ := τ) .tc main_v27)
      = siluH (addf (Host.dotGeneral dot_S50000x256_S256x256_S50000x256_1_0_0_1_n_n none (siluH (addf (Host.dotGeneral dot_S50000x256_S256x256_S50000x256_1_0_0_1_n_n none (concatenate S50000x256 1 [⟨S50000x224, (W (Proc.devRef (τ := τ) .tc main_v15))⟩, ⟨S50000x32, (W (Proc.devRef (τ := τ) .tc main_v16))⟩] concatenates_S50000x224_S50000x32_S50000x256_d1) (W (Proc.devRef (τ := τ) .tc main_arg6)))
          (broadcastInDim S50000x256 ![0, 1] bcast_S1x256_S50000x256_0_1 (broadcastInDim S1x256 ![1] bcast_S256_S1x256_1 (W (Proc.devRef (τ := τ) .tc main_arg7)))))) (W (Proc.devRef (τ := τ) .tc main_arg8)))
          (broadcastInDim S50000x256 ![0, 1] bcast_S1x256_S50000x256_0_1 (broadcastInDim S1x256 ![1] bcast_S256_S1x256_1 (W (Proc.devRef (τ := τ) .tc main_arg9))))) := by
  after_results_simp <;> rfl

/-! ## The whole line -/

/-- @main's 104 operations, in order: the four stretches one after the other. -/
abbrev ops : List (HloOp τ sig (Elt F)) := opsA ++ (opsB ++ (opsC ++ opsD))

set_option maxRecDepth 8192 in
/-- @main is that straight line: the outlined functions' bodies unfolded where they are called. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.2 fun op h => by
    rcases List.mem_append.1 h with h | h
    · exact List.forall_iff_forall_mem.1 opsA_sub op h
    rcases List.mem_append.1 h with h | h
    · exact List.forall_iff_forall_mem.1 opsB_sub op h
    rcases List.mem_append.1 h with h | h
    · exact List.forall_iff_forall_mem.1 opsC_sub op h
    · exact List.forall_iff_forall_mem.1 opsD_sub op h

theorem ops_fresh : ∀ op ∈ (ops : List (HloOp τ sig (Elt F))), op.fresh = ∅ := fun op h => by
  rcases List.mem_append.1 h with h | h
  · exact List.forall_iff_forall_mem.1 opsA_fresh op h
  rcases List.mem_append.1 h with h | h
  · exact List.forall_iff_forall_mem.1 opsB_fresh op h
  rcases List.mem_append.1 h with h | h
  · exact List.forall_iff_forall_mem.1 opsC_fresh op h
  · exact List.forall_iff_forall_mem.1 opsD_fresh op h

/-- The line is the four stretches in turn. -/
theorem after_ops (V : Valuation τ sig (Elt F)) :
    after ops V = after opsD (after opsC (after opsB (after opsA V))) := by
  rw [ops, after_append, after_append, after_append]

/-- No operation writes an argument. -/
theorem frame (V : Valuation τ sig (Elt F)) (r : Ref sig .tc) (hA : r ∉ wrA) (hB : r ∉ wrB) (hC : r ∉ wrC) (hD : r ∉ wrD) :
    after ops V (Proc.devRef (τ := τ) .tc r) = V (Proc.devRef (τ := τ) .tc r) := by
  rw [after_ops, frameD _ r hD, frameC _ r hC, frameB _ r hB, frameA _ r hA]

/-- The atom result over the whole line. -/
theorem v27_eq (V : Valuation τ sig (Elt F)) :
    after ops V (Proc.devRef (τ := τ) .tc main_v27)
      = resH (V (Proc.devRef (τ := τ) .tc main_arg0)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  rw [after_ops, resD_v27, resC_v15, resC_v16]
  rw [frameC _ main_arg6 (by decide), frameC _ main_arg7 (by decide), frameC _ main_arg8 (by decide), frameC _ main_arg9 (by decide)]
  rw [frameB _ main_arg0 (by decide), frameB _ main_arg3 (by decide), frameB _ main_arg4 (by decide), frameB _ main_arg5 (by decide),
    frameB _ main_arg6 (by decide), frameB _ main_arg7 (by decide), frameB _ main_arg8 (by decide), frameB _ main_arg9 (by decide)]
  rw [frameA _ main_arg0 (by decide), frameA _ main_arg3 (by decide), frameA _ main_arg4 (by decide), frameA _ main_arg5 (by decide),
    frameA _ main_arg6 (by decide), frameA _ main_arg7 (by decide), frameA _ main_arg8 (by decide), frameA _ main_arg9 (by decide)]
  rfl

/-- The edge result over the whole line. -/
theorem v14_eq (V : Valuation τ sig (Elt F)) :
    after ops V (Proc.devRef (τ := τ) .tc main_v14)
      = resE (V (Proc.devRef (τ := τ) .tc main_arg1)) (V (Proc.devRef (τ := τ) .tc main_arg2)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) := by
  rw [after_ops, frameD _ main_v14 (by decide), frameC _ main_v14 (by decide), resB_v14, resA_v3, resA_v7]
  rw [frameA _ main_arg14 (by decide), frameA _ main_arg15 (by decide)]
  rfl

/-- On the device, for any float values, from any memory with zero counters: every weakly fair execution of @main
    terminates with the atom result and the edge result at their terms of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = resH (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v14) = resE (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v27).trans (v27_eq _), (h c main_v14).trans (v14_eq _),
      (h c main_arg0).trans (frame _ main_arg0 (by decide) (by decide) (by decide) (by decide)),
      (h c main_arg1).trans (frame _ main_arg1 (by decide) (by decide) (by decide) (by decide)),
      (h c main_arg2).trans (frame _ main_arg2 (by decide) (by decide) (by decide) (by decide)),
      (h c main_arg3).trans (frame _ main_arg3 (by decide) (by decide) (by decide) (by decide)),
      (h c main_arg4).trans (frame _ main_arg4 (by decide) (by decide) (by decide) (by decide)),
      (h c main_arg5).trans (frame _ main_arg5 (by decide) (by decide) (by decide) (by decide)),
      (h c main_arg6).trans (frame _ main_arg6 (by decide) (by decide) (by decide) (by decide)),
      (h c main_arg7).trans (frame _ main_arg7 (by decide) (by decide) (by decide) (by decide)),
      (h c main_arg8).trans (frame _ main_arg8 (by decide) (by decide) (by decide) (by decide)),
      (h c main_arg9).trans (frame _ main_arg9 (by decide) (by decide) (by decide) (by decide)),
      (h c main_arg10).trans (frame _ main_arg10 (by decide) (by decide) (by decide) (by decide)),
      (h c main_arg11).trans (frame _ main_arg11 (by decide) (by decide) (by decide) (by decide)),
      (h c main_arg12).trans (frame _ main_arg12 (by decide) (by decide) (by decide) (by decide)),
      (h c main_arg13).trans (frame _ main_arg13 (by decide) (by decide) (by decide) (by decide)),
      (h c main_arg14).trans (frame _ main_arg14 (by decide) (by decide) (by decide) (by decide)),
      (h c main_arg15).trans (frame _ main_arg15 (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.RefEdge.lean ====
/-
  The reference's edge result, entry by entry, on the extended reals.

  Entry (r, j) of the result is `silu` of a 128-term sum plus `b2 j`. The 128 hidden units of row r are the two
  64-unit input layers laid side by side, so the sum over the 128 positions is the sum over the first 64 (against
  the top 64 rows of `W2`) plus the sum over the last 64 (against the bottom 64 rows). Only the commutative monoid
  structure of + on the extended reals is used: no entry needs to be finite.
-/
import proofs.«171124_g13383118094390_cont_week2b_154_1_alg».proof.Proof.RefTerms
import proofs.«171124_g13383118094390_cont_week2b_154_1_alg».proof.Proof.Spec
import Idealize.ShloMosaic.Lib.KernelVsHost
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## `silu` at an entry -/

/-- The array-level `x · (1 / (1 + exp (-x)))` is the scalar `silu` at every entry: the broadcast word is 1. -/
theorem siluE_apply (x : FVec Ideal S800000x128 .f32) (i : S800000x128.Idx) :
    siluE (F := Ideal) x i = Cert.Spec.silu (x i) := by
  have h1 : broadcastInDim S800000x128 ![] bcast_S_S800000x128 (constant (F := Ideal) S_ .f32 0x3F800000#32) i = (1 : EReal) := by
    rw [broadcastInDim_scalar_apply, constant_apply, Ideal.ofBits_one_f32]
  show x i * Ideal.div (broadcastInDim S800000x128 ![] bcast_S_S800000x128 (constant (F := Ideal) S_ .f32 0x3F800000#32) i)
      (broadcastInDim S800000x128 ![] bcast_S_S800000x128 (constant (F := Ideal) S_ .f32 0x3F800000#32) i + Ideal.exp (-(x i)))
    = x i * Ideal.div 1 (1 + Ideal.exp (-(x i)))
  rw [h1]

/-! ## A bias vector copied into every row -/

/-- A length-n vector made a one-row matrix and copied down m rows reads, at (r, k), the vector at k. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (k : Fin n) :
    broadcastInDim ⟨2, ![m, n]⟩ ![0, 1] h2 (broadcastInDim ⟨2, ![1, n]⟩ ![1] h1 b) (ix2 r k) = b (ix1 k) := by
  rw [broadcastInDim_oneRow_apply]
  refine broadcastInDim_apply ![1] h1 b (ix2 (0 : Fin 1) k) (ix1 k) ?_
  intro a
  fin_cases a
  show k.val = if n = 1 then 0 else k.val
  split_ifs with hn
  · have := k.isLt; omega
  · rfl

/-! ## The three products -/

/-! The 800000 × 3 by 3 × 64 product, entry by entry. -/

theorem lhs_dotP_0 (i : S800000x64.Idx) (q : dot_S800000x3_S3x64_S800000x64_1_0_0_1_n_n.contr.Idx) :
    (dot_S800000x3_S3x64_S800000x64_1_0_0_1_n_n.lhsIdx i q 0).val = (i 0).val := by
  unfold DotDims.lhsIdx
  rw [dif_neg (show ¬(0 : Fin S800000x3.rank) ∈ dot_S800000x3_S3x64_S800000x64_1_0_0_1_n_n.lhsBatch by decide), dif_pos (show (0 : Fin S800000x3.rank) ∈ dot_S800000x3_S3x64_S800000x64_1_0_0_1_n_n.lhsNonContracting by decide)]
  rfl
theorem lhs_dotP_1 (i : S800000x64.Idx) (q : dot_S800000x3_S3x64_S800000x64_1_0_0_1_n_n.contr.Idx) :
    (dot_S800000x3_S3x64_S800000x64_1_0_0_1_n_n.lhsIdx i q 1).val = (q ⟨0, by decide⟩).val :=
  dot_S800000x3_S3x64_S800000x64_1_0_0_1_n_n.lhsIdx_val_of_single rfl i q
theorem rhs_dotP_0 (i : S800000x64.Idx) (q : dot_S800000x3_S3x64_S800000x64_1_0_0_1_n_n.contr.Idx) :
    (dot_S800000x3_S3x64_S800000x64_1_0_0_1_n_n.rhsIdx i q 0).val = (q ⟨0, by decide⟩).val :=
  dot_S800000x3_S3x64_S800000x64_1_0_0_1_n_n.rhsIdx_val_of_single rfl i q
theorem rhs_dotP_1 (i : S800000x64.Idx) (q : dot_S800000x3_S3x64_S800000x64_1_0_0_1_n_n.contr.Idx) :
    (dot_S800000x3_S3x64_S800000x64_1_0_0_1_n_n.rhsIdx i q 1).val = (i 1).val := by
  unfold DotDims.rhsIdx
  rw [dif_neg (show ¬(1 : Fin S3x64.rank) ∈ dot_S800000x3_S3x64_S800000x64_1_0_0_1_n_n.rhsBatch by decide), dif_pos (show (1 : Fin S3x64.rank) ∈ dot_S800000x3_S3x64_S800000x64_1_0_0_1_n_n.rhsNonContracting by decide)]
  rfl

/-- Entry (r, c) of the product is the sum over the 3 contracted positions. -/
theorem dotP_apply (l : FVec Ideal S800000x3 .f32) (w : FVec Ideal S3x64 .f32) (r : Fin 800000) (c : Fin 64) :
    Host.dotGeneral (F := Ideal) dot_S800000x3_S3x64_S800000x64_1_0_0_1_n_n none l w (ix2 r c) = ∑ k : Fin 3, l (ix2 r k) * w (ix2 k c) := by
  simp only [Host.dotGeneral]
  rw [Ideal.dotGeneral_apply, ← Equiv.sum_comp (ValueIdx.contrEquiv1 dot_S800000x3_S3x64_S800000x64_1_0_0_1_n_n 3 rfl rfl).symm]
  refine Finset.sum_congr rfl fun k _ => ?_
  have hk := ValueIdx.contrEquiv1_symm_val dot_S800000x3_S3x64_S800000x64_1_0_0_1_n_n 3 rfl rfl k
  have el : dot_S800000x3_S3x64_S800000x64_1_0_0_1_n_n.lhsIdx (ix2 r c) ((ValueIdx.contrEquiv1 dot_S800000x3_S3x64_S800000x64_1_0_0_1_n_n 3 rfl rfl).symm k) = ix2 r k := funext fun a => Fin.ext (by
    match a with
    | ⟨0, _⟩ => exact lhs_dotP_0 _ _
    | ⟨1, _⟩ => exact (lhs_dotP_1 _ _).trans hk)
  have er : dot_S800000x3_S3x64_S800000x64_1_0_0_1_n_n.rhsIdx (ix2 r c) ((ValueIdx.contrEquiv1 dot_S800000x3_S3x64_S800000x64_1_0_0_1_n_n 3 rfl rfl).symm k) = ix2 k c := funext fun a => Fin.ext (by
    match a with
    | ⟨0, _⟩ => exact (rhs_dotP_0 _ _).trans hk
    | ⟨1, _⟩ => exact rhs_dotP_1 _ _)
  rw [el, er]

/-! The 800000 × 50 by 50 × 64 product, entry by entry. -/

theorem lhs_dotQ_0 (i : S800000x64.Idx) (q : dot_S800000x50_S50x64_S800000x64_1_0_0_1_n_n.contr.Idx) :
    (dot_S800000x50_S50x64_S800000x64_1_0_0_1_n_n.lhsIdx i q 0).val = (i 0).val := by
  unfold DotDims.lhsIdx
  rw [dif_neg (show ¬(0 : Fin S800000x50.rank) ∈ dot_S800000x50_S50x64_S800000x64_1_0_0_1_n_n.lhsBatch by decide), dif_pos (show (0 : Fin S800000x50.rank) ∈ dot_S800000x50_S50x64_S800000x64_1_0_0_1_n_n.lhsNonContracting by decide)]
  rfl
theorem lhs_dotQ_1 (i : S800000x64.Idx) (q : dot_S800000x50_S50x64_S800000x64_1_0_0_1_n_n.contr.Idx) :
    (dot_S800000x50_S50x64_S800000x64_1_0_0_1_n_n.lhsIdx i q 1).val = (q ⟨0, by decide⟩).val :=
  dot_S800000x50_S50x64_S800000x64_1_0_0_1_n_n.lhsIdx_val_of_single rfl i q
theorem rhs_dotQ_0 (i : S800000x64.Idx) (q : dot_S800000x50_S50x64_S800000x64_1_0_0_1_n_n.contr.Idx) :
    (dot_S800000x50_S50x64_S800000x64_1_0_0_1_n_n.rhsIdx i q 0).val = (q ⟨0, by decide⟩).val :=
  dot_S800000x50_S50x64_S800000x64_1_0_0_1_n_n.rhsIdx_val_of_single rfl i q
theorem rhs_dotQ_1 (i : S800000x64.Idx) (q : dot_S800000x50_S50x64_S800000x64_1_0_0_1_n_n.contr.Idx) :
    (dot_S800000x50_S50x64_S800000x64_1_0_0_1_n_n.rhsIdx i q 1).val = (i 1).val := by
  unfold DotDims.rhsIdx
  rw [dif_neg (show ¬(1 : Fin S50x64.rank) ∈ dot_S800000x50_S50x64_S800000x64_1_0_0_1_n_n.rhsBatch by decide), dif_pos (show (1 : Fin S50x64.rank) ∈ dot_S800000x50_S50x64_S800000x64_1_0_0_1_n_n.rhsNonContracting by decide)]
  rfl

/-- Entry (r, c) of the product is the sum over the 50 contracted positions. -/
theorem dotQ_apply (l : FVec Ideal S800000x50 .f32) (w : FVec Ideal S50x64 .f32) (r : Fin 800000) (c : Fin 64) :
    Host.dotGeneral (F := Ideal) dot_S800000x50_S50x64_S800000x64_1_0_0_1_n_n none l w (ix2 r c) = ∑ k : Fin 50, l (ix2 r k) * w (ix2 k c) := by
  simp only [Host.dotGeneral]
  rw [Ideal.dotGeneral_apply, ← Equiv.sum_comp (ValueIdx.contrEquiv1 dot_S800000x50_S50x64_S800000x64_1_0_0_1_n_n 50 rfl rfl).symm]
  refine Finset.sum_congr rfl fun k _ => ?_
  have hk := ValueIdx.contrEquiv1_symm_val dot_S800000x50_S50x64_S800000x64_1_0_0_1_n_n 50 rfl rfl k
  have el : dot_S800000x50_S50x64_S800000x64_1_0_0_1_n_n.lhsIdx (ix2 r c) ((ValueIdx.contrEquiv1 dot_S800000x50_S50x64_S800000x64_1_0_0_1_n_n 50 rfl rfl).symm k) = ix2 r k := funext fun a => Fin.ext (by
    match a with
    | ⟨0, _⟩ => exact lhs_dotQ_0 _ _
    | ⟨1, _⟩ => exact (lhs_dotQ_1 _ _).trans hk)
  have er : dot_S800000x50_S50x64_S800000x64_1_0_0_1_n_n.rhsIdx (ix2 r c) ((ValueIdx.contrEquiv1 dot_S800000x50_S50x64_S800000x64_1_0_0_1_n_n 50 rfl rfl).symm k) = ix2 k c := funext fun a => Fin.ext (by
    match a with
    | ⟨0, _⟩ => exact (rhs_dotQ_0 _ _).trans hk
    | ⟨1, _⟩ => exact rhs_dotQ_1 _ _)
  rw [el, er]

/-! The 800000 × 128 by 128 × 128 product, entry by entry. -/

theorem lhs_dotH_0 (i : S800000x128.Idx) (q : dot_S800000x128_S128x128_S800000x128_1_0_0_1_n_n.contr.Idx) :
    (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide), dif_pos (show (0 : Fin S800000x128.rank) ∈ dot_S800000x128_S128x128_S800000x128_1_0_0_1_n_n.lhsNonContracting by decide)]
  rfl
theorem lhs_dotH_1 (i : S800000x128.Idx) (q : dot_S800000x128_S128x128_S800000x128_1_0_0_1_n_n.contr.Idx) :
    (dot_S800000x128_S128x128_S800000x128_1_0_0_1_n_n.lhsIdx i q 1).val = (q ⟨0, by decide⟩).val :=
  dot_S800000x128_S128x128_S800000x128_1_0_0_1_n_n.lhsIdx_val_of_single rfl i q
theorem rhs_dotH_0 (i : S800000x128.Idx) (q : dot_S800000x128_S128x128_S800000x128_1_0_0_1_n_n.contr.Idx) :
    (dot_S800000x128_S128x128_S800000x128_1_0_0_1_n_n.rhsIdx i q 0).val = (q ⟨0, by decide⟩).val :=
  dot_S800000x128_S128x128_S800000x128_1_0_0_1_n_n.rhsIdx_val_of_single rfl i q
theorem rhs_dotH_1 (i : S800000x128.Idx) (q : dot_S800000x128_S128x128_S800000x128_1_0_0_1_n_n.contr.Idx) :
    (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide), dif_pos (show (1 : Fin S128x128.rank) ∈ dot_S800000x128_S128x128_S800000x128_1_0_0_1_n_n.rhsNonContracting by decide)]
  rfl

/-- Entry (r, c) of the product is the sum over the 128 contracted positions. -/
theorem dotH_apply (l : FVec Ideal S800000x128 .f32) (w : FVec Ideal S128x128 .f32) (r : Fin 800000) (c : Fin 128) :
    Host.dotGeneral (F := Ideal) dot_S800000x128_S128x128_S800000x128_1_0_0_1_n_n none l w (ix2 r c) = ∑ k : Fin 128, l (ix2 r k) * w (ix2 k c) := by
  simp only [Host.dotGeneral]
  rw [Ideal.dotGeneral_apply, ← Equiv.sum_comp (ValueIdx.contrEquiv1 dot_S800000x128_S128x128_S800000x128_1_0_0_1_n_n 128 rfl rfl).symm]
  refine Finset.sum_congr rfl fun k _ => ?_
  have hk := ValueIdx.contrEquiv1_symm_val dot_S800000x128_S128x128_S800000x128_1_0_0_1_n_n 128 rfl rfl k
  have el : dot_S800000x128_S128x128_S800000x128_1_0_0_1_n_n.lhsIdx (ix2 r c) ((ValueIdx.contrEquiv1 dot_S800000x128_S128x128_S800000x128_1_0_0_1_n_n 128 rfl rfl).symm k) = ix2 r k := funext fun a => Fin.ext (by
    match a with
    | ⟨0, _⟩ => exact lhs_dotH_0 _ _
    | ⟨1, _⟩ => exact (lhs_dotH_1 _ _).trans hk)
  have er : dot_S800000x128_S128x128_S800000x128_1_0_0_1_n_n.rhsIdx (ix2 r c) ((ValueIdx.contrEquiv1 dot_S800000x128_S128x128_S800000x128_1_0_0_1_n_n 128 rfl rfl).symm k) = ix2 k c := funext fun a => Fin.ext (by
    match a with
    | ⟨0, _⟩ => exact (rhs_dotH_0 _ _).trans hk
    | ⟨1, _⟩ => exact rhs_dotH_1 _ _)
  rw [el, er]

/-! ## Two 64-column blocks side by side -/

/-- Column `k < 64` of the 128-column array is column `k` of the left block. -/
theorem concat_top (x y : FVec Ideal S800000x64 .f32) (r : Fin 800000) (k : Fin 64) :
    concatenate S800000x128 1 [⟨S800000x64, x⟩, ⟨S800000x64, y⟩] concatenates_S800000x64_S800000x64_S800000x128_d1 (ix2 r (Cert.Spec.top k))
      = x (ix2 r k) := by
  refine concatenate_pair_apply_left 1 x y _ (ix2 r (Cert.Spec.top k)) rfl (ix2 r k) ?_
  intro b
  match b with
  | ⟨0, _⟩ => rfl
  | ⟨1, _⟩ => rfl

/-- Column `64 + k` of the 128-column array is column `k` of the right block. -/
theorem concat_bot (x y : FVec Ideal S800000x64 .f32) (r : Fin 800000) (k : Fin 64) :
    concatenate S800000x128 1 [⟨S800000x64, x⟩, ⟨S800000x64, y⟩] concatenates_S800000x64_S800000x64_S800000x128_d1 (ix2 r (Cert.Spec.bot k))
      = y (ix2 r k) := by
  refine concatenate_pair_apply_right 1 x y _ (ix2 r (Cert.Spec.bot k)) rfl rfl (ix2 r k) ?_ ?_
  · intro b hb
    match b, hb with
    | ⟨0, _⟩, _ => rfl
    | ⟨1, _⟩, hb => exact absurd rfl hb
  · show k.val + 64 = 64 + k.val
    omega

/-! ## A sum over 128 positions as two sums over 64 -/

theorem sum_top_bot (f : Fin 128 → EReal) :
    ∑ k : Fin 128, f k = (∑ k : Fin 64, f (Cert.Spec.top k)) + (∑ k : Fin 64, f (Cert.Spec.bot k)) :=
  Fin.sum_univ_add (M := EReal) (a := 64) (b := 64) f

/-! ## The hidden row and the result -/

/-- The 128 hidden units of every row: both input layers side by side, `silu` of each entry. -/
def hid (a1 : FVec Ideal S800000x3 .f32) (a2 : FVec Ideal S800000x50 .f32) (a10 : FVec Ideal S3x64 .f32) (a11 : FVec Ideal S64 .f32)
    (a12 : FVec Ideal S50x64 .f32) (a13 : FVec Ideal S64 .f32) : FVec Ideal S800000x128 .f32 :=
  siluE (concatenate S800000x128 1
    [⟨S800000x64, addf (Host.dotGeneral dot_S800000x3_S3x64_S800000x64_1_0_0_1_n_n none a1 a10)
        (broadcastInDim S800000x64 ![0, 1] bcast_S1x64_S800000x64_0_1 (broadcastInDim S1x64 ![1] bcast_S64_S1x64_1 a11))⟩,
     ⟨S800000x64, addf (Host.dotGeneral dot_S800000x50_S50x64_S800000x64_1_0_0_1_n_n none a2 a12)
        (broadcastInDim S800000x64 ![0, 1] bcast_S1x64_S800000x64_0_1 (broadcastInDim S1x64 ![1] bcast_S64_S1x64_1 a13))⟩]
    concatenates_S800000x64_S800000x64_S800000x128_d1)

/-- Hidden unit `k < 64` of row r is the position layer's unit `k` on that row. -/
theorem hid_top (a1 : FVec Ideal S800000x3 .f32) (a2 : FVec Ideal S800000x50 .f32) (a10 : FVec Ideal S3x64 .f32) (a11 : FVec Ideal S64 .f32)
    (a12 : FVec Ideal S50x64 .f32) (a13 : FVec Ideal S64 .f32) (r : Fin 800000) (k : Fin 64) :
    hid a1 a2 a10 a11 a12 a13 (ix2 r (Cert.Spec.top k)) = Cert.Spec.unit (fun a => a1 (ix2 r a)) a10 a11 k := by
  unfold hid
  rw [siluE_apply, concat_top, addf_apply, dotP_apply]
  rw [bias_apply bcast_S64_S1x64_1 bcast_S1x64_S800000x64_0_1 a11 r k]
  rfl

/-- Hidden unit `64 + k` of row r is the attribute layer's unit `k` on that row. -/
theorem hid_bot (a1 : FVec Ideal S800000x3 .f32) (a2 : FVec Ideal S800000x50 .f32) (a10 : FVec Ideal S3x64 .f32) (a11 : FVec Ideal S64 .f32)
    (a12 : FVec Ideal S50x64 .f32) (a13 : FVec Ideal S64 .f32) (r : Fin 800000) (k : Fin 64) :
    hid a1 a2 a10 a11 a12 a13 (ix2 r (Cert.Spec.bot k)) = Cert.Spec.unit (fun a => a2 (ix2 r a)) a12 a13 k := by
  unfold hid
  rw [siluE_apply, concat_bot, addf_apply, dotQ_apply]
  rw [bias_apply bcast_S64_S1x64_1 bcast_S1x64_S800000x64_0_1 a13 r k]
  rfl

/-- The reference's edge result is the specification's, entry by entry. -/
theorem resE_eq (a1 : FVec Ideal S800000x3 .f32) (a2 : FVec Ideal S800000x50 .f32) (a10 : FVec Ideal S3x64 .f32) (a11 : FVec Ideal S64 .f32)
    (a12 : FVec Ideal S50x64 .f32) (a13 : FVec Ideal S64 .f32) (a14 : FVec Ideal S128x128 .f32) (a15 : FVec Ideal S128 .f32) :
    resE (F := Ideal) a1 a2 a10 a11 a12 a13 a14 a15 = Cert.Spec.edge a1 a2 a10 a11 a12 a13 a14 a15 := by
  funext i
  obtain ⟨r, j, rfl⟩ : ∃ (r : Fin 800000) (j : Fin 128), i = ix2 r j := ⟨i 0, i 1, eq_ix2 i⟩
  show siluE (addf (Host.dotGeneral dot_S800000x128_S128x128_S800000x128_1_0_0_1_n_n none (hid a1 a2 a10 a11 a12 a13) a14)
      (broadcastInDim S800000x128 ![0, 1] bcast_S1x128_S800000x128_0_1 (broadcastInDim S1x128 ![1] bcast_S128_S1x128_1 a15))) (ix2 r j)
    = Cert.Spec.edgeRow (fun a => a1 (ix2 r a)) (fun a => a2 (ix2 r a)) a10 a11 a12 a13 a14 a15 j
  rw [siluE_apply, addf_apply, dotH_apply]
  rw [bias_apply bcast_S128_S1x128_1 bcast_S1x128_S800000x128_0_1 a15 r j]
  rw [sum_top_bot]
  simp only [hid_top, hid_bot]
  rfl

end Cert.ReferenceIdeal.RefValue

end
-- ==== Proof.LibTake.lean ====
/-
  A table's rows taken at a vector of indices, the way a lookup that fills out-of-range rows spells it.

  The table has N rows of width C; the indices are n words. The lookup adds N to every negative index, lays the
  indices out as an [n × 1] column, gathers one row per index (the gather reads each start index signed and clamps it
  into [0, N − 1]), and then puts a fill value in every row whose shifted index is outside [0, N − 1]. When every
  index, read as a natural number, is below N (so it is not negative as a signed word either), nothing is shifted,
  nothing is clamped and nothing is filled: entry (p, q) of the result is the table's entry (index p, q).
-/
import Idealize.ShloMosaic.PureOps.Ideal
import Idealize.ShloMosaic.PureOps.Reduce
import Idealize.ShloMosaic.Lib.ValueIdx
import Idealize.ShloMosaic.Lib.ReduceAll
import Idealize.ShloMosaic.Lib.StableHlo.Predicate

noncomputable section

namespace Cert.LibTake

open Idealize.ShloMosaic Idealize.ShloMosaic.ValueIdx Idealize.ShloMosaic.StableHlo.Predicate

/-! ## A row gather read at an index -/

/-- The table row a start index names when it is read: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the
    dimension numbers: one offset axis (the columns), the row axis collapsed and start-indexed, the index vector
    along the column's unit axis. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- the row axis is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- the column axis is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-! ## The shifted index column -/

/-- The start indices as the gather reads them: a negative word shifted up by N, the result laid out as a column. -/
abbrev wrapIdx {n : ℕ} (N : BitVec 32) (idx : IVec ⟨1, ![n]⟩ 32)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2)) : IVec ⟨2, ![n, 1]⟩ 32 :=
  broadcastInDim ⟨2, ![n, 1]⟩ ![0] hc
    (select (cmpi .slt idx (broadcastInDim ⟨1, ![n]⟩ ![] h0 (constantI ⟨0, ![]⟩ 32 0#32)))
      (addi idx (broadcastInDim ⟨1, ![n]⟩ ![] h0 (constantI ⟨0, ![]⟩ 32 N))) idx)

/-- Every index of an [n × 1] column is a row of it. -/
theorem eq_ixP {n : ℕ} (i : (⟨2, ![n, 1]⟩ : Shape).Idx) : i = ixP (i 0) := by
  funext a
  match a with
  | ⟨0, _⟩ => rfl
  | ⟨1, _⟩ => exact Subsingleton.elim (α := Fin 1) _ _

/-- The rank-1 index at a coordinate, in this file's spelling. -/
theorem ofFin_eq_ix1 {n : ℕ} (p : Fin n) : (Shape.Idx.ofFin p : (⟨1, ![n]⟩ : Shape).Idx) = ix1 p := by
  funext a
  have ha : a = 0 := Subsingleton.elim _ _
  subst ha
  exact Fin.ext rfl

/-- A word below 2³¹ is not negative read signed, so the shift leaves it: row p of the column is index p. -/
theorem wrapIdx_apply {n : ℕ} (N : BitVec 32) (idx : IVec ⟨1, ![n]⟩ 32)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (p : Fin n) (hp : (idx (ix1 p)).toNat < 2 ^ 31) : wrapIdx N idx h0 hc (ixP p) = idx (ix1 p) := by
  unfold wrapIdx
  rw [bcast_col1 hc _ p, ofFin_eq_ix1]
  show Scalar.select (IntOp.cmpi .slt (idx (ix1 p)) 0#32) _ _ = _
  have hz : IntOp.cmpi .slt (idx (ix1 p)) 0#32 = 0#1 := by
    refine eq_zero_of_ne_one fun h1 => ?_
    have := (slt_iff_toNat (a := idx (ix1 p)) (b := 0#32) hp (by decide)).mp h1
    simp at this
  rw [hz, select_zero]

/-! ## The range test -/

/-- A left fold by and from 1 over bits that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduction from 1 of an array whose every bit is 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The lookup -/

/-- With every index below N as a natural number, the filling lookup read at (p, q) is the table at (index p, q).
    M is N − 1, the largest row. -/
theorem take_apply {α : Type} {N M C n : ℕ} (hN : 0 < N) (hM : M + 1 = N) (hN31 : N < 2 ^ 31)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel)
    (hm : (⟨1, ![n]⟩ : Shape).BroadcastsInDim ⟨2, ![n, C]⟩ (![0] : Fin 1 → Fin 2))
    (idx : IVec ⟨1, ![n]⟩ 32) (hr : ∀ e : Fin n, (idx (ix1 e)).toNat < N)
    (T : (⟨2, ![N, C]⟩ : Shape).Idx → α) (fill : (⟨2, ![n, C]⟩ : Shape).Idx → α) (p : Fin n) (q : Fin C) :
    select (broadcastInDim ⟨2, ![n, C]⟩ ![0] hm
        (Host.reduce IntOp.andi
          (andi (cmpi .sge (wrapIdx (BitVec.ofNat 32 N) idx h0 hc) (broadcastInDim ⟨2, ![n, 1]⟩ ![] h0c (constantI ⟨0, ![]⟩ 32 0#32)))
                (cmpi .sle (wrapIdx (BitVec.ofNat 32 N) idx h0 hc)
                  (broadcastInDim ⟨2, ![n, 1]⟩ ![0, 1] h1n (broadcastInDim ⟨2, ![1, 1]⟩ ![1] h11 (constantI ⟨1, ![1]⟩ 32 (BitVec.ofNat 32 M))))))
          (constantI ⟨0, ![]⟩ 1 1#1) hred hu))
      (Host.gather d T (wrapIdx (BitVec.ofNat 32 N) idx h0 hc)) fill (ix2 p q)
    = T (ix2 ⟨(idx (ix1 p)).toNat, hr p⟩ q) := by
  have hW : ∀ e : Fin n, wrapIdx (BitVec.ofNat 32 N) idx h0 hc (ixP e) = idx (ix1 e) := fun e =>
    wrapIdx_apply _ idx h0 hc e (by have := hr e; omega)
  rw [select_apply]
  -- the range test is 1 in every row
  have hb : broadcastInDim ⟨2, ![n, C]⟩ ![0] hm
        (Host.reduce IntOp.andi
          (andi (cmpi .sge (wrapIdx (BitVec.ofNat 32 N) idx h0 hc) (broadcastInDim ⟨2, ![n, 1]⟩ ![] h0c (constantI ⟨0, ![]⟩ 32 0#32)))
                (cmpi .sle (wrapIdx (BitVec.ofNat 32 N) idx h0 hc)
                  (broadcastInDim ⟨2, ![n, 1]⟩ ![0, 1] h1n (broadcastInDim ⟨2, ![1, 1]⟩ ![1] h11 (constantI ⟨1, ![1]⟩ 32 (BitVec.ofNat 32 M))))))
          (constantI ⟨0, ![]⟩ 1 1#1) hred hu) (ix2 p q) = 1#1 := by
    show Host.reduce IntOp.andi _ _ hred hu _ = 1#1
    refine reduce_andi_ones _ _ hred hu (fun i => ?_) rfl _
    obtain ⟨e, rfl⟩ : ∃ e : Fin n, i = ixP e := ⟨i 0, eq_ixP i⟩
    have hlt := hr e
    have hMn : (BitVec.ofNat 32 M).toNat = M := by rw [BitVec.toNat_ofNat]; exact Nat.mod_eq_of_lt (by omega)
    show IntOp.andi (IntOp.cmpi .sge (wrapIdx (BitVec.ofNat 32 N) idx h0 hc (ixP e)) 0#32)
        (IntOp.cmpi .sle (wrapIdx (BitVec.ofNat 32 N) idx h0 hc (ixP e)) (BitVec.ofNat 32 M)) = 1#1
    rw [hW, IntOp.andi_eq_one]
    constructor
    · exact (sge_iff_toNat (by omega) (by decide)).mpr (Nat.zero_le _)
    · exact (sle_iff_toNat (by omega) (by rw [hMn]; omega)).mpr (by rw [hMn]; omega)
  rw [hb, select_one, gather_rows d hoff hcoll hob hsim hivd T _ hN p q]
  congr 2
  apply Fin.ext
  show min (wrapIdx (BitVec.ofNat 32 N) idx h0 hc (ixP p)).toInt.toNat (N - 1) = (idx (ix1 p)).toNat
  have hlt := hr p
  rw [hW, toInt_eq_toNat_of_lt (by omega)]
  omega

end Cert.LibTake

end
-- ==== Proof.RefAtom.lean ====
/-
  The reference's atom result is the specification's atom branch when every index is in range.

  A lookup in its default mode shifts negative indices, gathers with clamped starts and fills rows whose index is out
  of range; with every index of the 85-row table below 85 and every index of the 3-row table below 3 none of the three
  happens, so row r of the two lookups laid side by side is the specification's 256 inputs for row r. A dense layer
  read at (r, k) is the sum over the 256 inputs of input times weight, plus the bias at k; the constant the program
  spells for x · (1 / (1 + e^{-x})) is 1. Two layers, each followed by that function: the specification's row.
-/
import proofs.«171124_g13383118094390_cont_week2b_154_1_alg».proof.Proof.RefTerms
import proofs.«171124_g13383118094390_cont_week2b_154_1_alg».proof.Proof.Spec
import proofs.«171124_g13383118094390_cont_week2b_154_1_alg».proof.Proof.LibTake
import Idealize.ShloMosaic.Lib.IdealHost
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx
open Idealize.ShloMosaic.StableHlo.Predicate

/-! ## x · (1 / (1 + e^{-x})) at an entry -/

/-- The constant 1, spread over an atom-sized array, is 1 at every entry. -/
theorem one_apply (i : S50000x256.Idx) :
    broadcastInDim S50000x256 ![] bcast_S_S50000x256 (constant (F := Ideal) S_ .f32 0x3F800000#32) i = (1 : EReal) := by
  rw [broadcastInDim_scalar_apply]
  exact Ideal.ofBits_one_f32

/-- The outlined function at an entry is the specification's. -/
theorem siluH_apply (x : FVec Ideal S50000x256 .f32) (i : S50000x256.Idx) :
    siluH (F := Ideal) x i = Cert.Spec.silu (x i) := by
  unfold siluH Cert.Spec.silu
  show x i * Ideal.div (broadcastInDim S50000x256 ![] bcast_S_S50000x256 (constant (F := Ideal) S_ .f32 0x3F800000#32) i)
      (broadcastInDim S50000x256 ![] bcast_S_S50000x256 (constant (F := Ideal) S_ .f32 0x3F800000#32) i + Ideal.exp (-(x i))) = _
  rw [one_apply]

/-! ## A dense layer at an entry -/

/-- The 256-deep product's dimension numbers: rows × contraction times contraction × columns. -/
abbrev D256 := dot_S50000x256_S256x256_S50000x256_1_0_0_1_n_n

theorem lhs_D256_0 (j : S50000x256.Idx) (k : D256.contr.Idx) : (D256.lhsIdx j k 0 : ℕ) = j 0 := by
  simp [DotDims.lhsIdx, D256, dot_S50000x256_S256x256_S50000x256_1_0_0_1_n_n]; rfl
theorem lhs_D256_1 (j : S50000x256.Idx) (k : D256.contr.Idx) : (D256.lhsIdx j k 1 : ℕ) = k ⟨0, by decide⟩ :=
  D256.lhsIdx_val_of_single (cl := 1) rfl j k
theorem rhs_D256_0 (j : S50000x256.Idx) (k : D256.contr.Idx) : (D256.rhsIdx j k 0 : ℕ) = k ⟨0, by decide⟩ :=
  D256.rhsIdx_val_of_single (cr := 0) rfl j k
theorem rhs_D256_1 (j : S50000x256.Idx) (k : D256.contr.Idx) : (D256.rhsIdx j k 1 : ℕ) = j 1 := by
  simp [DotDims.rhsIdx, D256, dot_S50000x256_S256x256_S50000x256_1_0_0_1_n_n]; rfl

/-- The product read at (r, j): the sum over the contraction of row r of the left times column j of the right. -/
theorem dot_apply (X : FVec Ideal S50000x256 .f32) (W : FVec Ideal S256x256 .f32) (r : Fin 50000) (j : Fin 256) :
    Host.dotGeneral D256 none X W (ix2 r j) = ∑ a : Fin 256, X (ix2 r a) * W (ix2 a j) := by
  show FloatOps.dotGeneral D256 none .single X W (ix2 r j) = _
  rw [Ideal.dotGeneral_apply, ← Equiv.sum_comp (contrEquiv1 D256 256 rfl rfl).symm]
  refine Finset.sum_congr rfl fun a _ => ?_
  refine congrArg₂ (· * ·) (congrArg X ?_) (congrArg W ?_)
  · funext b
    apply Fin.ext
    match b with
    | ⟨0, _⟩ => exact lhs_D256_0 _ _
    | ⟨1, _⟩ => exact (lhs_D256_1 _ _).trans (contrEquiv1_symm_val D256 256 rfl rfl a)
  · funext b
    apply Fin.ext
    match b with
    | ⟨0, _⟩ => exact (rhs_D256_0 _ _).trans (contrEquiv1_symm_val D256 256 rfl rfl a)
    | ⟨1, _⟩ => exact rhs_D256_1 _ _

/-- The bias, laid along the columns, read at (r, j) is the bias at j. -/
theorem biasH_apply (b : FVec Ideal S256 .f32) (r : Fin 50000) (j : Fin 256) :
    broadcastInDim S50000x256 ![0, 1] bcast_S1x256_S50000x256_0_1 (broadcastInDim S1x256 ![1] bcast_S256_S1x256_1 b) (ix2 r j)
      = b (ix1 j) := by
  have h := bcast_cols bcast_S256_S1x256_1 bcast_S1x256_S50000x256_0_1 b r j
  rw [Cert.LibTake.ofFin_eq_ix1] at h
  exact h

/-- A dense layer followed by x · (1 / (1 + e^{-x})), read at (r, k), is the specification's unit k on row r. -/
theorem layer_apply (X : FVec Ideal S50000x256 .f32) (W : FVec Ideal S256x256 .f32) (b : FVec Ideal S256 .f32)
    (r : Fin 50000) (k : Fin 256) :
    siluH (F := Ideal) (addf (Host.dotGeneral D256 none X W)
        (broadcastInDim S50000x256 ![0, 1] bcast_S1x256_S50000x256_0_1 (broadcastInDim S1x256 ![1] bcast_S256_S1x256_1 b))) (ix2 r k)
      = Cert.Spec.unit (fun a => X (ix2 r a)) W b k := by
  rw [siluH_apply, addf_apply, dot_apply, biasH_apply]
  rfl

/-! ## The two lookups -/

/-- Row r of the lookup in the 85-row table is the table's row at index r. -/
theorem takeEmb_apply (tbl : FVec Ideal S85x224 .f32) (idx : IVec S50000 32) (hr : ∀ e : Fin 50000, (idx (ix1 e)).toNat < 85)
    (r : Fin 50000) (q : Fin 224) :
    takeEmb (F := Ideal) tbl idx (ix2 r q) = tbl (ix2 (⟨(idx (ix1 r)).toNat, hr r⟩ : Fin 85) q) := by
  unfold takeEmb takeOk takeIdx
  exact Cert.LibTake.take_apply (N := 85) (M := 84) (C := 224) (n := 50000) (by decide) rfl (by decide)
    gather_S85x224_S50000x1_S50000x224_1_0_n_n_0_1_1224 rfl rfl rfl rfl rfl
    bcast_S_S50000 bcast_S50000_S50000x1_0 bcast_S_S50000x1 bcast_S1_S1x1_1 bcast_S1x1_S50000x1_0_1
    reducesTo_S50000x1_S50000_d1 h_S_ bcast_S50000_S50000x224_0 idx hr tbl _ r q

/-- Row r of the lookup in the 3-row table is the table's row at index r. -/
theorem takeTag_apply (tbl : FVec Ideal S3x32 .f32) (idx : IVec S50000 32) (hr : ∀ e : Fin 50000, (idx (ix1 e)).toNat < 3)
    (r : Fin 50000) (q : Fin 32) :
    takeTag (F := Ideal) tbl idx (ix2 r q) = tbl (ix2 (⟨(idx (ix1 r)).toNat, hr r⟩ : Fin 3) q) := by
  unfold takeTag takeOk takeIdx
  exact Cert.LibTake.take_apply (N := 3) (M := 2) (C := 32) (n := 50000) (by decide) rfl (by decide)
    gather_S3x32_S50000x1_S50000x32_1_0_n_n_0_1_132 rfl rfl rfl rfl rfl
    bcast_S_S50000 bcast_S50000_S50000x1_0 bcast_S_S50000x1 bcast_S1_S1x1_1 bcast_S1x1_S50000x1_0_1
    reducesTo_S50000x1_S50000_d1 h_S_ bcast_S50000_S50000x32_0 idx hr tbl _ r q

/-- The two lookups side by side, read at (r, a), are the specification's input a of row r. -/
theorem input_apply (a0 a3 : IVec S50000 32) (a4 : FVec Ideal S85x224 .f32) (a5 : FVec Ideal S3x32 .f32)
    (h : Cert.Spec.InRange a0 a3) (r : Fin 50000) (a : Fin 256) :
    concatenate S50000x256 1 [⟨S50000x224, takeEmb (F := Ideal) a4 a0⟩, ⟨S50000x32, takeTag (F := Ideal) a5 a3⟩]
        concatenates_S50000x224_S50000x32_S50000x256_d1 (ix2 r a)
      = Cert.Spec.atomIn (a0 (ix1 r)) (a3 (ix1 r)) a4 a5 a := by
  unfold Cert.Spec.atomIn
  by_cases ha : a.val < 224
  · rw [dif_pos ha, concatenate_pair_apply_left (s₁ := S50000x224) (s₂ := S50000x32) (1 : Fin S50000x256.rank) _ _ _ (ix2 r a) rfl (ix2 r (⟨a.val, ha⟩ : Fin 224))
      (fun b => by match b with | ⟨0, _⟩ => rfl | ⟨1, _⟩ => rfl), takeEmb_apply a4 a0 h.1 r]
    refine congrArg a4 (congrArg (fun z => ix2 z (⟨a.val, ha⟩ : Fin 224)) (Fin.ext ?_))
    exact (Nat.mod_eq_of_lt (h.1 r)).symm
  · rw [dif_neg ha, concatenate_pair_apply_right (s₁ := S50000x224) (s₂ := S50000x32) (1 : Fin S50000x256.rank) _ _ _ (ix2 r a) rfl rfl
      (ix2 r (⟨a.val - 224, by have := a.isLt; omega⟩ : Fin 32))
      (fun b hb => by match b with | ⟨0, _⟩ => rfl | ⟨1, _⟩ => exact absurd rfl hb)
      (by show a.val - 224 + 224 = a.val; omega), takeTag_apply a5 a3 h.2 r]
    refine congrArg a5 (congrArg (fun z => ix2 z (⟨a.val - 224, by have := a.isLt; omega⟩ : Fin 32)) (Fin.ext ?_))
    exact (Nat.mod_eq_of_lt (h.2 r)).symm

/-! ## The atom result -/

/-- With every index in range the reference's atom result is the specification's atom branch. -/
theorem resH_eq (a0 a3 : IVec S50000 32) (a4 : FVec Ideal S85x224 .f32) (a5 : FVec Ideal S3x32 .f32)
    (a6 : FVec Ideal S256x256 .f32) (a7 : FVec Ideal S256 .f32) (a8 : FVec Ideal S256x256 .f32) (a9 : FVec Ideal S256 .f32)
    (h : Cert.Spec.InRange a0 a3) :
    resH (F := Ideal) a0 a3 a4 a5 a6 a7 a8 a9 = Cert.Spec.atom a0 a3 a4 a5 a6 a7 a8 a9 := by
  funext i
  obtain ⟨r, j, rfl⟩ : ∃ (r : Fin 50000) (j : Fin 256), i = ix2 r j := ⟨i 0, i 1, eq_ix2 i⟩
  unfold resH
  rw [layer_apply]
  show Cert.Spec.unit _ a8 a9 j = Cert.Spec.atomRow (a0 (ix1 r)) (a3 (ix1 r)) a4 a5 a6 a7 a8 a9 j
  unfold Cert.Spec.atomRow
  refine congrArg (fun x => Cert.Spec.unit x a8 a9 j) (funext fun k => ?_)
  rw [layer_apply]
  refine congrArg (fun x => Cert.Spec.unit x a6 a7 k) (funext fun a => ?_)
  exact input_apply a0 a3 a4 a5 h r a

end Cert.ReferenceIdeal.RefValue

end
-- ==== Proof.PreRange.lean ====
/-
  The two index arrays are in range wherever the precondition holds.

  The precondition is a conjunction of one-bit words; its last two conjuncts are the conjunctions, over all 50000 rows,
  of `0 ≤ z r ∧ z r < 85` and of `0 ≤ t r ∧ t r < 3`, the comparisons signed. A conjunction of one-bit words is 1 only
  when every conjunct is 1, so both comparisons hold at every row; and a 32-bit word `w` with `0 ≤ w < n` signed, where
  `n < 2 ^ 31`, has its sign bit clear, so its signed and unsigned readings agree and `w < n` unsigned.
-/
import proofs.«171124_g13383118094390_cont_week2b_154_1_alg».proof.Proof.Gen.Pre_finite_inputs
import proofs.«171124_g13383118094390_cont_week2b_154_1_alg».proof.Proof.Spec
import Idealize.ShloMosaic.Lib.ReduceAll
import Idealize.ShloMosaic.Lib.StableHlo.Predicate
import Idealize.ShloMosaic.Lib.ValueIdx

noncomputable section

namespace Cert.Pre_finite_inputs.Range

open Idealize.ShloMosaic Idealize.ShloMosaic.ValueIdx Cert.Pre_finite_inputs

/-- The shape of a scalar has one index. -/
instance : Subsingleton S_.Idx := ⟨fun a b => funext fun d => d.elim0⟩

/-- A 32-bit word in `[0, n)` signed, with `n` below `2 ^ 31`, is below `n` unsigned. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32).toInt = 0 := rfl
  have hw := w.isLt
  rw [hz] at h0
  rw [BitVec.toInt_eq_toNat_cond] at h0 h1
  split at h0 <;> omega

/-- The last part of the precondition: whatever its first two conjuncts are, if the whole is 1 then both index arrays
    are in range. -/
theorem inRange_of_part4 {F : FTy → Type} [FloatOps F] (a0 a3 : IVec S50000 32) (x y : IVec S_ 1)
    (h : fn_part4 (F := F) a0 a3 x y = fun _ => 1#1) : Cert.Spec.InRange a0 a3 := by
  have e := congrFun h ix0
  simp only [fn_part4, andi, IntOp.andi_eq_one] at e
  obtain ⟨⟨-, hz⟩, ht⟩ := e
  unfold Cert.Spec.InRange
  refine ⟨fun r => ?_, fun r => ?_⟩
  · have := Host.reduce_andi_all _ _ _ _ _ hz (ix1 r)
    simp only [andi, cmpi, broadcastInDim, constantI, IntOp.andi_eq_one] at this
    exact toNat_lt_of_signed _ 85 (by norm_num) this.1 this.2
  · have := Host.reduce_andi_all _ _ _ _ _ ht (ix1 r)
    simp only [andi, cmpi, broadcastInDim, constantI, IntOp.andi_eq_one] at this
    exact toNat_lt_of_signed _ 3 (by norm_num) this.1 this.2

/-- Where the precondition is 1, every `z` is below 85 and every `t` below 3, as naturals. -/
theorem inRange_of_fn {F : FTy → Type} [FloatOps F] (a0 : IVec S50000 32) (a1 : FVec F S800000x3 .f32)
    (a2 : FVec F S800000x50 .f32) (a3 : IVec S50000 32) (a4 : FVec F S85x224 .f32) (a5 : FVec F S3x32 .f32)
    (a6 : FVec F S256x256 .f32) (a7 : FVec F S256 .f32) (a8 : FVec F S256x256 .f32) (a9 : FVec F S256 .f32)
    (a10 : FVec F S3x64 .f32) (a11 : FVec F S64 .f32) (a12 : FVec F S50x64 .f32) (a13 : FVec F S64 .f32)
    (a14 : FVec F S128x128 .f32) (a15 : FVec F S128 .f32)
    (h : Cert.Pre_finite_inputs.fn (F := F) a0 a1 a2 a3 a4 a5 a6 a7 a8 a9 a10 a11 a12 a13 a14 a15 = fun _ => 1#1) :
    Cert.Spec.InRange a0 a3 :=
  inRange_of_part4 (F := F) a0 a3 _ _ h

end Cert.Pre_finite_inputs.Range

end
-- ==== Proof.lean ====
/-
  The certificate: the kernel program (two pipelined kernels: the edge branch's three matrix products with `silu`
  between them over 2048-row blocks of the 800000 edges, and the atom branch's table lookup written as a two-hot row
  times an 88 × 256 table followed by two dense layers, over 2048-row blocks of the 50000 atoms) against the plain
  reference, on the extended reals.

  Precondition: every float input finite (as stated with the claim; not used below), and every index in range,
  `0 ≤ z < 85` and `0 ≤ tag < 3`: outside it the reference's lookup fills rows with a junk word where the kernel's
  two-hot row selects other table rows, so the two programs differ there.

  Both programs are read against one specification (Proof/Spec.lean), row by row. Edge: the reference multiplies the
  128 hidden units of a row, laid side by side, with the 128 × 128 matrix; the kernel multiplies the two halves with the
  top and the bottom 64 rows and adds: one sum split in two (commutativity and associativity of + on the extended reals).
  Atom: under the range condition the reference's lookup is the plain row gather, and the kernel's two-hot row times the
  table (the 85 × 224 table in the top-left corner, the 3 × 32 one in the bottom-right, zeros elsewhere) picks the same
  two rows side by side, because 0 · x = 0 and 1 · x = x for every extended real. The last block of each kernel overhangs
  its array: rows below the array's end hold words nobody names, and a row of a result depends on the same row of the
  inputs only, so the rows written back are the specification's.

  The frames: the idealized kernel's is its value run with the results dropped; the reference's its run; the
  word-level kernel's says nothing of what the kernels leave in their result arrays.
-/
import proofs.«171124_g13383118094390_cont_week2b_154_1_alg».proof.Defs
import proofs.«171124_g13383118094390_cont_week2b_154_1_alg».proof.Proof.Gen.Kernel
import proofs.«171124_g13383118094390_cont_week2b_154_1_alg».proof.Proof.Gen.KernelIdeal
import proofs.«171124_g13383118094390_cont_week2b_154_1_alg».proof.Proof.Gen.ReferenceIdeal
import proofs.«171124_g13383118094390_cont_week2b_154_1_alg».proof.Proof.Gen.Pre_finite_inputs
import proofs.«171124_g13383118094390_cont_week2b_154_1_alg».proof.Proof.KValue
import proofs.«171124_g13383118094390_cont_week2b_154_1_alg».proof.Proof.KbFrameB
import proofs.«171124_g13383118094390_cont_week2b_154_1_alg».proof.Proof.RefRun
import proofs.«171124_g13383118094390_cont_week2b_154_1_alg».proof.Proof.RefEdge
import proofs.«171124_g13383118094390_cont_week2b_154_1_alg».proof.Proof.RefAtom
import proofs.«171124_g13383118094390_cont_week2b_154_1_alg».proof.Proof.PreRange
import Idealize.ShloMosaic.Adequacy
import Idealize.ShloMosaic.Init

noncomputable section

namespace Cert.Proof

open Idealize.ShloMosaic Idealize.SL.Sem

/-- Under the precondition every index of the idealized kernel's two index arrays is in range. -/
theorem inRange_ki (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg0)) (m ((c.tc : Thread Cert.KernelIdeal.nD Cert.KernelIdeal.τ).loc Cert.KernelIdeal.main_arg3)) :=
  Cert.Pre_finite_inputs.Range.inRange_of_fn _ _ _ _ _ _ _ _ _ _ _ _ _ _ _ _ (h c)

theorem frame_k : Cert.frame_Kernel := fun m ρ _ => Cert.Kernel.RunB.frame (F := Bits) m ρ

theorem frame_ki : Cert.frame_KernelIdeal := fun m ρ h =>
  (θ_run Cert.KernelIdeal.defs _ _).mono (fun _ hr c => (hr c).2.2) (Cert.KernelIdeal.Run.value_run m ρ (inRange_ki m h))

theorem frame_ri : Cert.frame_ReferenceIdeal := fun m ρ _ =>
  (θ_run Cert.ReferenceIdeal.defs _ _).mono (fun _ hr c => (hr c).2.2) (Cert.ReferenceIdeal.RefValue.run (F := Ideal) m ρ)

theorem preserves : Cert.preserves_Kernel_KernelIdeal := trivial

/-- Both programs end at the specification of arguments that agree. -/
theorem algebraic : Cert.algebraic_KernelIdeal_ReferenceIdeal := by
  intro m ρ m' ρ' hpre hagree
  refine ⟨fun c => Cert.Spec.atom (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.edge (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Run.value_run m ρ (inRange_ki m hpre), ?_⟩
  refine (θ_run Cert.ReferenceIdeal.defs _ _).mono (fun _ h c => ⟨?_, ?_, (h c).2.2⟩)
    (Cert.ReferenceIdeal.RefValue.run (F := Ideal) m' ρ')
  · obtain ⟨e0, e1, e2, e3, e4, e5, e6, e7, e8, e9, e10, e11, e12, e13, e14, e15⟩ := hagree c
    rw [(h c).1, e0, e3, e4, e5, e6, e7, e8, e9]
    exact Cert.ReferenceIdeal.RefValue.resH_eq _ _ _ _ _ _ _ _ (inRange_ki m hpre c)
  · obtain ⟨e0, e1, e2, e3, e4, e5, e6, e7, e8, e9, e10, e11, e12, e13, e14, e15⟩ := hagree c
    rw [(h c).2.1, e1, e2, e10, e11, e12, e13, e14, e15]
    exact Cert.ReferenceIdeal.RefValue.resE_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
